-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S64x512x100 : Shape := ⟨3, ![64, 512, 100]⟩
abbrev S64x512 : Shape := ⟨2, ![64, 512]⟩
abbrev S100x100 : Shape := ⟨2, ![100, 100]⟩
abbrev S100 : Shape := ⟨1, ![100]⟩
abbrev S868x768 : Shape := ⟨2, ![868, 768]⟩
abbrev S768 : Shape := ⟨1, ![768]⟩
abbrev S768x3 : Shape := ⟨2, ![768, 3]⟩
abbrev S3 : Shape := ⟨1, ![3]⟩
abbrev S768x2 : Shape := ⟨2, ![768, 2]⟩
abbrev S2 : Shape := ⟨1, ![2]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S64x512x100 : S_.BroadcastsInDim S64x512x100 (![] : Fin 0 → Fin S64x512x100.rank)
  reducesTo_S64x512x100_S_d0_1_2 : S64x512x100.ReducesTo [0, 1, 2] S_
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_
  bcast_S_S868x768 : S_.BroadcastsInDim S868x768 (![] : Fin 0 → Fin S868x768.rank)
  reducesTo_S868x768_S_d0_1 : S868x768.ReducesTo [0, 1] S_
  bcast_S_S768 : S_.BroadcastsInDim S768 (![] : Fin 0 → Fin S768.rank)
  reducesTo_S768_S_d0 : S768.ReducesTo [0] S_
  bcast_S_S768x3 : S_.BroadcastsInDim S768x3 (![] : Fin 0 → Fin S768x3.rank)
  reducesTo_S768x3_S_d0_1 : S768x3.ReducesTo [0, 1] S_
  bcast_S_S3 : S_.BroadcastsInDim S3 (![] : Fin 0 → Fin S3.rank)
  reducesTo_S3_S_d0 : S3.ReducesTo [0] S_
  bcast_S_S768x2 : S_.BroadcastsInDim S768x2 (![] : Fin 0 → Fin S768x2.rank)
  reducesTo_S768x2_S_d0_1 : S768x2.ReducesTo [0, 1] S_
  bcast_S_S2 : S_.BroadcastsInDim S2 (![] : Fin 0 → Fin S2.rank)
  reducesTo_S2_S_d0 : S2.ReducesTo [0] S_
  bcast_S_S64x512 : S_.BroadcastsInDim S64x512 (![] : Fin 0 → Fin S64x512.rank)
  reducesTo_S64x512_S_d0_1 : S64x512.ReducesTo [0, 1] S_

variable [Facts]

def fn_part3 {F : FTy → Type} [FloatOps F] (main_arg2 : IVec S64x512 32) (main_v48 : IVec S_ 1) (main_v50 : IVec S64x512 1) : IVec S_ 1 :=
  let main_c_19 : IVec S_ 32 := constantI S_ 32 1#32
  let main_v51 : IVec S64x512 32 := broadcastInDim S64x512 ![] bcast_S_S64x512 main_c_19
  let main_v52 : IVec S64x512 1 := cmpi .eq main_arg2 main_v51
  let main_v53 : IVec S64x512 1 := ori main_v50 main_v52
  let main_c_20 : IVec S_ 1 := constantI S_ 1 1#1
  let main_v54 : IVec S_ 1 := (fun x v => Host.reduce IntOp.andi x v reducesTo_S64x512_S_d0_1 h_S_) main_v53 main_c_20
  let main_v55 : IVec S_ 1 := andi main_v48 main_v54
  main_v55

def fn_part2 {F : FTy → Type} [FloatOps F] (main_arg2 : IVec S64x512 32) (main_arg8 : FVec F S3 .f32) (main_arg9 : FVec F S768x2 .f32) (main_arg10 : FVec F S2 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S768x2 .f32 := Host.absf main_arg9
  let main_cst_14 : FVec F S_ .f32 := constant S_ .f32 0x7F800000#32
  let main_v40 : FVec F S768x2 .f32 := broadcastInDim S768x2 ![] bcast_S_S768x2 main_cst_14
  let main_v41 : IVec S768x2 1 := cmpf .olt main_v39 main_v40
  let main_c_15 : IVec S_ 1 := constantI S_ 1 1#1
  let main_v42 : IVec S_ 1 := (fun x v => Host.reduce IntOp.andi x v reducesTo_S768x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_c_18 : IVec S_ 32 := constantI S_ 32 0#32
  let main_v49 : IVec S64x512 32 := broadcastInDim S64x512 ![] bcast_S_S64x512 main_c_18
  let main_v50 : IVec S64x512 1 := cmpi .eq main_arg2 main_v49
  fn_part3 (F := F) main_arg2 main_v48 main_v50

def fn_part1 {F : FTy → Type} [FloatOps F] (main_arg2 : IVec S64x512 32) (main_arg5 : FVec F S868x768 .f32) (main_arg6 : FVec F S768 .f32) (main_arg7 : FVec F S768x3 .f32) (main_arg8 : FVec F S3 .f32) (main_arg9 : FVec F S768x2 .f32) (main_arg10 : FVec F S2 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S868x768 .f32 := Host.absf main_arg5
  let main_cst_6 : FVec F S_ .f32 := constant S_ .f32 0x7F800000#32
  let main_v20 : FVec F S868x768 .f32 := broadcastInDim S868x768 ![] bcast_S_S868x768 main_cst_6
  let main_v21 : IVec S868x768 1 := cmpf .olt main_v19 main_v20
  let main_c_7 : IVec S_ 1 := constantI S_ 1 1#1
  let main_v22 : IVec S_ 1 := (fun x v => Host.reduce IntOp.andi x v reducesTo_S868x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768x3 .f32 := Host.absf main_arg7
  let main_cst_10 : FVec F S_ .f32 := constant S_ .f32 0x7F800000#32
  let main_v30 : FVec F S768x3 .f32 := broadcastInDim S768x3 ![] bcast_S_S768x3 main_cst_10
  let main_v31 : IVec S768x3 1 := cmpf .olt main_v29 main_v30
  let main_c_11 : IVec S_ 1 := constantI S_ 1 1#1
  let main_v32 : IVec S_ 1 := (fun x v => Host.reduce IntOp.andi x v reducesTo_S768x3_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S64x512x768 .f32) (main_arg1 : FVec F S64x512x100 .f32) (main_arg2 : IVec S64x512 32) (main_arg3 : FVec F S100x100 .f32) (main_arg4 : FVec F S100 .f32) (main_arg5 : FVec F S868x768 .f32) (main_arg6 : FVec F S768 .f32) (main_arg7 : FVec F S768x3 .f32) (main_arg8 : FVec F S3 .f32) (main_arg9 : FVec F S768x2 .f32) (main_arg10 : FVec F S2 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S64x512x100 .f32 := Host.absf main_arg1
  let main_cst_0 : FVec F S_ .f32 := constant S_ .f32 0x7F800000#32
  let main_v5 : FVec F S64x512x100 .f32 := broadcastInDim S64x512x100 ![] bcast_S_S64x512x100 main_cst_0
  let main_v6 : IVec S64x512x100 1 := cmpf .olt main_v4 main_v5
  let main_c_1 : IVec S_ 1 := constantI S_ 1 1#1
  let main_v7 : IVec S_ 1 := (fun x v => Host.reduce IntOp.andi x v reducesTo_S64x512x100_S_d0_1_2 h_S_) main_v6 main_c_1
  let main_v8 : IVec S_ 1 := andi main_v3 main_v7
  let main_v9 : FVec F S100x100 .f32 := Host.absf main_arg3
  let main_cst_2 : FVec F S_ .f32 := constant S_ .f32 0x7F800000#32
  let main_v10 : FVec F S100x100 .f32 := broadcastInDim S100x100 ![] bcast_S_S100x100 main_cst_2
  let main_v11 : IVec S100x100 1 := cmpf .olt main_v9 main_v10
  let main_c_3 : IVec S_ 1 := constantI S_ 1 1#1
  let main_v12 : IVec S_ 1 := (fun x v => Host.reduce IntOp.andi x v reducesTo_S100x100_S_d0_1 h_S_) main_v11 main_c_3
  let main_v13 : IVec S_ 1 := andi main_v8 main_v12
  let main_v14 : FVec F S100 .f32 := Host.absf main_arg4
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg2 main_arg5 main_arg6 main_arg7 main_arg8 main_arg9 main_arg10 main_v13 main_v16
-- ==== Kernel.lean ====
abbrev S64x512x768 : Shape := ⟨3, ![64, 512, 768]⟩
abbrev S64x512x100 : Shape := ⟨3, ![64, 512, 100]⟩
abbrev S64x512 : Shape := ⟨2, ![64, 512]⟩
abbrev S100x100 : Shape := ⟨2, ![100, 100]⟩
abbrev S100 : Shape := ⟨1, ![100]⟩
abbrev S868x768 : Shape := ⟨2, ![868, 768]⟩
abbrev S768 : Shape := ⟨1, ![768]⟩
abbrev S768x3 : Shape := ⟨2, ![768, 3]⟩
abbrev S3 : Shape := ⟨1, ![3]⟩
abbrev S768x2 : Shape := ⟨2, ![768, 2]⟩
abbrev S2 : Shape := ⟨1, ![2]⟩
abbrev S_ : Shape := ⟨0, ![]⟩
abbrev S64x1x512 : Shape := ⟨3, ![64, 1, 512]⟩
abbrev S768x768 : Shape := ⟨2, ![768, 768]⟩
abbrev S100x768 : Shape := ⟨2, ![100, 768]⟩
abbrev S1x100 : Shape := ⟨2, ![1, 100]⟩
abbrev S1x768 : Shape := ⟨2, ![1, 768]⟩
abbrev S1x3 : Shape := ⟨2, ![1, 3]⟩
abbrev S64x3x512 : Shape := ⟨3, ![64, 3, 512]⟩
abbrev S4x512x768 : Shape := ⟨3, ![4, 512, 768]⟩
abbrev S4x512x100 : Shape := ⟨3, ![4, 512, 100]⟩
abbrev S4x1x512 : Shape := ⟨3, ![4, 1, 512]⟩
abbrev S4x3x512 : Shape := ⟨3, ![4, 3, 512]⟩
abbrev S512x512 : Shape := ⟨2, ![512, 512]⟩
abbrev S1x512x768 : Shape := ⟨3, ![1, 512, 768]⟩
abbrev S512x768 : Shape := ⟨2, ![512, 768]⟩
abbrev S1x512x100 : Shape := ⟨3, ![1, 512, 100]⟩
abbrev S512x100 : Shape := ⟨2, ![512, 100]⟩
abbrev S1x1x512 : Shape := ⟨3, ![1, 1, 512]⟩
abbrev S1x512 : Shape := ⟨2, ![1, 512]⟩
abbrev S512x3 : Shape := ⟨2, ![512, 3]⟩
abbrev S3x512 : Shape := ⟨2, ![3, 512]⟩
abbrev S1x3x512 : Shape := ⟨3, ![1, 3, 512]⟩
abbrev S64x512x3 : Shape := ⟨3, ![64, 512, 3]⟩
abbrev S64x1x768 : Shape := ⟨3, ![64, 1, 768]⟩
abbrev S64x768 : Shape := ⟨2, ![64, 768]⟩
abbrev S64x2 : Shape := ⟨2, ![64, 2]⟩
abbrev S1x2 : Shape := ⟨2, ![1, 2]⟩

abbrev nBuf : Space → Nat
  | .hbm => 38
  | .vmem => 15
  | .smem => 0
  | _ => 0

abbrev bufTy : (tb : Table) → Fin (tcTables nBuf tb) → BufTy
  | .hbm, ⟨0, _⟩ => ⟨S64x512x768, .f32⟩
  | .hbm, ⟨1, _⟩ => ⟨S64x512x100, .f32⟩
  | .hbm, ⟨2, _⟩ => ⟨S64x512, .i32⟩
  | .hbm, ⟨3, _⟩ => ⟨S100x100, .f32⟩
  | .hbm, ⟨4, _⟩ => ⟨S100, .f32⟩
  | .hbm, ⟨5, _⟩ => ⟨S868x768, .f32⟩
  | .hbm, ⟨6, _⟩ => ⟨S768, .f32⟩
  | .hbm, ⟨7, _⟩ => ⟨S768x3, .f32⟩
  | .hbm, ⟨8, _⟩ => ⟨S3, .f32⟩
  | .hbm, ⟨9, _⟩ => ⟨S768x2, .f32⟩
  | .hbm, ⟨10, _⟩ => ⟨S2, .f32⟩
  | .hbm, ⟨11, _⟩ => ⟨S_, .i32⟩
  | .hbm, ⟨12, _⟩ => ⟨S_, .i32⟩
  | .hbm, ⟨13, _⟩ => ⟨S64x512, .i32⟩
  | .hbm, ⟨14, _⟩ => ⟨S_, .i32⟩
  | .hbm, ⟨15, _⟩ => ⟨S64x512, .i32⟩
  | .hbm, ⟨16, _⟩ => ⟨S64x512, .i32⟩
  | .hbm, ⟨17, _⟩ => ⟨S_, .i32⟩
  | .hbm, ⟨18, _⟩ => ⟨S64x512, .i32⟩
  | .hbm, ⟨19, _⟩ => ⟨S64x512, .i1⟩
  | .hbm, ⟨20, _⟩ => ⟨S_, .i32⟩
  | .hbm, ⟨21, _⟩ => ⟨S_, .i32⟩
  | .hbm, ⟨22, _⟩ => ⟨S64x512, .i32⟩
  | .hbm, ⟨23, _⟩ => ⟨S64x512, .i32⟩
  | .hbm, ⟨24, _⟩ => ⟨S64x1x512, .i32⟩
  | .hbm, ⟨25, _⟩ => ⟨S768x768, .f32⟩
  | .hbm, ⟨26, _⟩ => ⟨S100x768, .f32⟩
  | .hbm, ⟨27, _⟩ => ⟨S1x100, .f32⟩
  | .hbm, ⟨28, _⟩ => ⟨S1x768, .f32⟩
  | .hbm, ⟨29, _⟩ => ⟨S1x3, .f32⟩
  | .hbm, ⟨30, _⟩ => ⟨S64x3x512, .f32⟩
  | .hbm, ⟨31, _⟩ => ⟨S64x512x3, .f32⟩
  | .hbm, ⟨32, _⟩ => ⟨S64x1x768, .f32⟩
  | .hbm, ⟨33, _⟩ => ⟨S64x768, .f32⟩
  | .hbm, ⟨34, _⟩ => ⟨S64x2, .f32⟩
  | .hbm, ⟨35, _⟩ => ⟨S1x2, .f32⟩
  | .hbm, ⟨36, _⟩ => ⟨S64x2, .f32⟩
  | .hbm, ⟨37, _⟩ => ⟨S64x2, .f32⟩
  | .local _ .vmem, ⟨0, _⟩ => ⟨S4x512x768, .f32⟩
  | .local _ .vmem, ⟨1, _⟩ => ⟨S4x512x768, .f32⟩
  | .local _ .vmem, ⟨2, _⟩ => ⟨S4x512x100, .f32⟩
  | .local _ .vmem, ⟨3, _⟩ => ⟨S4x512x100, .f32⟩
  | .local _ .vmem, ⟨4, _⟩ => ⟨S4x1x512, .i32⟩
  | .local _ .vmem, ⟨5, _⟩ => ⟨S4x1x512, .i32⟩
  | .local _ .vmem, ⟨6, _⟩ => ⟨S100x100, .f32⟩
  | .local _ .vmem, ⟨7, _⟩ => ⟨S1x100, .f32⟩
  | .local _ .vmem, ⟨8, _⟩ => ⟨S768x768, .f32⟩
  | .local _ .vmem, ⟨9, _⟩ => ⟨S100x768, .f32⟩
  | .local _ .vmem, ⟨10, _⟩ => ⟨S1x768, .f32⟩
  | .local _ .vmem, ⟨11, _⟩ => ⟨S768x3, .f32⟩
  | .local _ .vmem, ⟨12, _⟩ => ⟨S1x3, .f32⟩
  | .local _ .vmem, ⟨13, _⟩ => ⟨S4x3x512, .f32⟩
  | .local _ .vmem, ⟨14, _⟩ => ⟨S4x3x512, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_call0_c : Ref sig .tc := ⟨.hbm, 11, rfl⟩
abbrev main_call0_call0_v0 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_call1_v0 : Ref sig .tc := ⟨.hbm, 21, rfl⟩
abbrev main_call1_v1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v17 : BitVec 32 := Scalar.addi c0_i32 c4_i32
  let c1_i32 : BitVec 32 := 1#32
  ⟨c0_i32, v17, c1_i32⟩
def k0_off1 (k0_t1 : Fin k0_t1_loop.trips) : Fin 3 → Nat :=
  let c0_i32 : BitVec 32 := 0#32
  let c1_i32 : BitVec 32 := 1#32
  let arg12 : BitVec 32 := Scf.iv c0_i32 c1_i32 k0_t1
  let v18 : Index := Scalar.indexCast arg12
  let c0_14 : Index := 0#32
  let c0_15 : Index := 0#32
  ![v18.toNat, 0, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v21 : Index := Scalar.indexCast arg12
  let c0_16 : Index := 0#32
  let c0_17 : Index := 0#32
  ![v21.toNat, 0, 0]
def k0_off3 (k0_t1 : Fin k0_t1_loop.trips) : Fin 3 → Nat :=
  let c0_i32 : BitVec 32 := 0#32
  let c1_i32 : BitVec 32 := 1#32
  let arg12 : BitVec 32 := Scf.iv c0_i32 c1_i32 k0_t1
  let v24 : Index := Scalar.indexCast arg12
  let c0_18 : Index := 0#32
  let c0_19 : Index := 0#32
  ![v24.toNat, 0, 0]
def k0_off4 (k0_t1 : Fin k0_t1_loop.trips) : Fin 3 → Nat :=
  let c0_i32 : BitVec 32 := 0#32
  let c1_i32 : BitVec 32 := 1#32
  let arg12 : BitVec 32 := Scf.iv c0_i32 c1_i32 k0_t1
  let v55 : Index := Scalar.indexCast arg12
  let c0_26 : Index := 0#32
  let c0_27 : Index := 0#32
  ![v55.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x3x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S_ : S_.BroadcastsInDim S_ (![] : Fin 0 → Fin S_.rank)
  reduceWindows_S64x512_S64x512_w1s1p0_0_w512s1p511_0 : S64x512.ReduceWindows (![1, 512] : Fin 2 → Nat) ![1, 1] ![0, 511] ![0, 0] S64x512
  h_S_ : 0 < S_.numel
  bcast_S_S64x512 : S_.BroadcastsInDim S64x512 (![] : Fin 0 → Fin S64x512.rank)
  shapeCasts_S64x512_S64x1x512 : S64x512.ShapeCasts S64x1x512
  slices_S868x768_S768x768_0_0 : S868x768.Slices ![0, 0] S768x768
  slices_S868x768_S100x768_768_0 : S868x768.Slices ![768, 0] S100x768
  shapeCasts_S100_S1x100 : S100.ShapeCasts S1x100
  shapeCasts_S768_S1x768 : S768.ShapeCasts S1x768
  shapeCasts_S3_S1x3 : S3.ShapeCasts S1x3
  inb_S100x100_S100x100_0_0 : ∀ a, (![0, 0] : Fin 2 → Nat) a + S100x100.size a ≤ S100x100.size a
  h_S100x100 : 0 < S100x100.numel
  bitsLt_bf16_f32 : FTy.bits .bf16 < FTy.bits .f32
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S100x768_S100x768_0_0 : ∀ a, (![0, 0] : Fin 2 → Nat) a + S100x768.size a ≤ S100x768.size a
  h_S100x768 : 0 < S100x768.numel
  shapeCasts_S100x768_S100x768 : S100x768.ShapeCasts S100x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S768x3_S768x3_0_0 : ∀ a, (![0, 0] : Fin 2 → Nat) a + S768x3.size a ≤ S768x3.size a
  h_S768x3 : 0 < S768x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  iota_S512x512_d0_w32 : S512x512.Iotas .tc 32 [0]
  h_S1x512x768 : 0 < S1x512x768.numel
  shapeCasts_S1x512x768_S512x768 : S1x512x768.ShapeCasts S512x768
  h_S1x512x100 : 0 < S1x512x100.numel
  shapeCasts_S1x512x100_S512x100 : S1x512x100.ShapeCasts S512x100
  h_S1x1x512 : 0 < S1x1x512.numel
  shapeCasts_S1x1x512_S1x512 : S1x1x512.ShapeCasts S1x512
  shapeCasts_S1x512_S1x512 : S1x512.ShapeCasts S1x512
  broadcasts_S1x512_S512x512 : S1x512.Broadcasts S512x512
  natLt_1_32 : 1 < 32
  broadcasts_S1x100_S512x100 : S1x100.Broadcasts S512x100
  broadcasts_S1x768_S512x768 : S1x768.Broadcasts S512x768
  broadcasts_S1x3_S512x3 : S1x3.Broadcasts S512x3
  transposes_S512x3_p1_0_S3x512 : S512x3.Transposes [1, 0] S3x512
  h_S1x3x512 : 0 < S1x3x512.numel
  shapeCasts_S1x3x512_S3x512 : S1x3x512.ShapeCasts S3x512
  shapeCasts_S3x512_S1x3x512 : S3x512.ShapeCasts S1x3x512
  transposes_S64x3x512_S64x512x3_0_2_1 : S64x3x512.Transposes [0, 2, 1] S64x512x3
  slices_S64x512x768_S64x1x768_0_0_0 : S64x512x768.Slices ![0, 0, 0] S64x1x768
  shapeCasts_S64x1x768_S64x768 : S64x1x768.ShapeCasts S64x768
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S512x512_S512x768_S512x768_1_0_0_1_n_n_wf : DotDims.WF S512x512 S512x768 S512x768 [1] [0] [0] [1] [] []
  dot_S512x100_S100x100_S512x100_1_0_0_1_n_n_wf : DotDims.WF S512x100 S100x100 S512x100 [1] [0] [0] [1] [] []
  dot_S512x768_S768x768_S512x768_1_0_0_1_n_n_wf : DotDims.WF S512x768 S768x768 S512x768 [1] [0] [0] [1] [] []
  dot_S512x100_S100x768_S512x768_1_0_0_1_n_n_wf : DotDims.WF S512x100 S100x768 S512x768 [1] [0] [0] [1] [] []
  dot_S512x768_S768x3_S512x3_1_0_0_1_n_n_wf : DotDims.WF S512x768 S768x3 S512x3 [1] [0] [0] [1] [] []
  dot_S64x768_S768x2_S64x2_1_0_0_1_n_n_wf : DotDims.WF S64x768 S768x2 S64x2 [1] [0] [0] [1] [] []
  hrank0 : 0 < grid0.rank
  k0_t1_ok : k0_t1_loop.OK
  k0_off1_inb : ∀ k0_t1 : Fin k0_t1_loop.trips, ∀ a, (k0_off1 k0_t1) a + S1x512x768.size a ≤ S4x512x768.size a
  k0_off2_inb : ∀ k0_t1 : Fin k0_t1_loop.trips, ∀ a, (k0_off2 k0_t1) a + S1x512x100.size a ≤ S4x512x100.size a
  k0_off3_inb : ∀ k0_t1 : Fin k0_t1_loop.trips, ∀ a, (k0_off3 k0_t1) a + S1x1x512.size a ≤ S4x1x512.size a
  k0_off4_inb : ∀ k0_t1 : Fin k0_t1_loop.trips, ∀ a, (k0_off4 k0_t1) a + S1x3x512.size a ≤ S4x3x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x768.size a ≤ S64x512x768.size a
  hwx0_0 : ∀ i : grid0.Coords, EltTy.bits .f32 = 32 ∨ (Rect.block (s := S64x512x768) S4x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x100.size a ≤ S64x512x100.size a
  hwx0_1 : ∀ i : grid0.Coords, EltTy.bits .f32 = 32 ∨ (Rect.block (s := S64x512x100) S4x512x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x512.size a ≤ S64x1x512.size a
  hwx0_2 : ∀ i : grid0.Coords, EltTy.bits .i32 = 32 ∨ (Rect.block (s := S64x1x512) S4x1x512.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x100.size a ≤ S100x100.size a
  hwx0_3 : ∀ i : grid0.Coords, EltTy.bits .f32 = 32 ∨ (Rect.block (s := S100x100) S100x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x100.size a ≤ S1x100.size a
  hwx0_4 : ∀ i : grid0.Coords, EltTy.bits .f32 = 32 ∨ (Rect.block (s := S1x100) S1x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .f32 = 32 ∨ (Rect.block (s := S768x768) S768x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100x768.size a ≤ S100x768.size a
  hwx0_6 : ∀ i : grid0.Coords, EltTy.bits .f32 = 32 ∨ (Rect.block (s := S100x768) S100x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S768x3.size a ≤ S768x3.size a
  hwx0_8 : ∀ i : grid0.Coords, EltTy.bits .f32 = 32 ∨ (Rect.block (s := S768x3) S768x3.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x3.size a ≤ S1x3.size a
  hwx0_9 : ∀ i : grid0.Coords, EltTy.bits .f32 = 32 ∨ (Rect.block (s := S1x3) S1x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4x3x512.size a ≤ S64x3x512.size a
  hwx0_10 : ∀ i : grid0.Coords, EltTy.bits .f32 = 32 ∨ (Rect.block (s := S64x3x512) S4x3x512.size (cc0_transform_10 i) (hinb0_10 i)).WholeWords (EltTy.packing .f32)

variable [Facts₀]

def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf
def dot_S512x100_S100x100_S512x100_1_0_0_1_n_n : DotDims S512x100 S100x100 S512x100 where
  lhsContracting := [1]
  rhsContracting := [0]
  lhsNonContracting := [0]
  rhsNonContracting := [1]
  lhsBatch := []
  rhsBatch := []
  wf := dot_S512x100_S100x100_S512x100_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x100_S100x768_S512x768_1_0_0_1_n_n : DotDims S512x100 S100x768 S512x768 where
  lhsContracting := [1]
  rhsContracting := [0]
  lhsNonContracting := [0]
  rhsNonContracting := [1]
  lhsBatch := []
  rhsBatch := []
  wf := dot_S512x100_S100x768_S512x768_1_0_0_1_n_n_wf
def dot_S512x768_S768x3_S512x3_1_0_0_1_n_n : DotDims S512x768 S768x3 S512x3 where
  lhsContracting := [1]
  rhsContracting := [0]
  lhsNonContracting := [0]
  rhsNonContracting := [1]
  lhsBatch := []
  rhsBatch := []
  wf := dot_S512x768_S768x3_S512x3_1_0_0_1_n_n_wf
def dot_S64x768_S768x2_S64x2_1_0_0_1_n_n : DotDims S64x768 S768x2 S64x2 where
  lhsContracting := [1]
  rhsContracting := [0]
  lhsNonContracting := [0]
  rhsNonContracting := [1]
  lhsBatch := []
  rhsBatch := []
  wf := dot_S64x768_S768x2_S64x2_1_0_0_1_n_n_wf

abbrev win0_0 : Pipeline.Window sig grid0 :=
  Pipeline.Window.ofSpec (Memref.whole main_arg0) S4x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S4x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S100x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S768x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S4x3x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S64x512x100 : Shape := ⟨3, ![64, 512, 100]⟩
abbrev S64x512 : Shape := ⟨2, ![64, 512]⟩
abbrev S100x100 : Shape := ⟨2, ![100, 100]⟩
abbrev S100 : Shape := ⟨1, ![100]⟩
abbrev S868x768 : Shape := ⟨2, ![868, 768]⟩
abbrev S768 : Shape := ⟨1, ![768]⟩
abbrev S768x3 : Shape := ⟨2, ![768, 3]⟩
abbrev S3 : Shape := ⟨1, ![3]⟩
abbrev S768x2 : Shape := ⟨2, ![768, 2]⟩
abbrev S2 : Shape := ⟨1, ![2]⟩
abbrev S64x1x768 : Shape := ⟨3, ![64, 1, 768]⟩
abbrev S64x768 : Shape := ⟨2, ![64, 768]⟩
abbrev S_ : Shape := ⟨0, ![]⟩
abbrev S64x513x768 : Shape := ⟨3, ![64, 513, 768]⟩
abbrev S64 : Shape := ⟨1, ![64]⟩
abbrev S64x1 : Shape := ⟨2, ![64, 1]⟩
abbrev S64x512x1 : Shape := ⟨3, ![64, 512, 1]⟩
abbrev S64x512x2 : Shape := ⟨3, ![64, 512, 2]⟩
abbrev S1x1x100 : Shape := ⟨3, ![1, 1, 100]⟩
abbrev S64x512x868 : Shape := ⟨3, ![64, 512, 868]⟩
abbrev S1x1x768 : Shape := ⟨3, ![1, 1, 768]⟩
abbrev S64x512x3 : Shape := ⟨3, ![64, 512, 3]⟩
abbrev S1x1x3 : Shape := ⟨3, ![1, 1, 3]⟩
abbrev S64x2 : Shape := ⟨2, ![64, 2]⟩
abbrev S1x2 : Shape := ⟨2, ![1, 2]⟩

abbrev nBuf : Space → Nat
  | .hbm => 73
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S64x512x100, .f32⟩
  | .hbm, ⟨2, _⟩ => ⟨S64x512, .i32⟩
  | .hbm, ⟨3, _⟩ => ⟨S100x100, .f32⟩
  | .hbm, ⟨4, _⟩ => ⟨S100, .f32⟩
  | .hbm, ⟨5, _⟩ => ⟨S868x768, .f32⟩
  | .hbm, ⟨6, _⟩ => ⟨S768, .f32⟩
  | .hbm, ⟨7, _⟩ => ⟨S768x3, .f32⟩
  | .hbm, ⟨8, _⟩ => ⟨S3, .f32⟩
  | .hbm, ⟨9, _⟩ => ⟨S768x2, .f32⟩
  | .hbm, ⟨10, _⟩ => ⟨S2, .f32⟩
  | .hbm, ⟨11, _⟩ => ⟨S64x1x768, .f32⟩
  | .hbm, ⟨12, _⟩ => ⟨S64x768, .f32⟩
  | .hbm, ⟨13, _⟩ => ⟨S_, .i32⟩
  | .hbm, ⟨14, _⟩ => ⟨S_, .i32⟩
  | .hbm, ⟨15, _⟩ => ⟨S64x512, .i32⟩
  | .hbm, ⟨16, _⟩ => ⟨S_, .i32⟩
  | .hbm, ⟨17, _⟩ => ⟨S64x512, .i32⟩
  | .hbm, ⟨18, _⟩ => ⟨S64x512, .i32⟩
  | .hbm, ⟨19, _⟩ => ⟨S_, .i32⟩
  | .hbm, ⟨20, _⟩ => ⟨S64x512, .i32⟩
  | .hbm, ⟨21, _⟩ => ⟨S64x512, .i1⟩
  | .hbm, ⟨22, _⟩ => ⟨S_, .i32⟩
  | .hbm, ⟨23, _⟩ => ⟨S_, .i32⟩
  | .hbm, ⟨24, _⟩ => ⟨S64x512, .i32⟩
  | .hbm, ⟨25, _⟩ => ⟨S64x512, .i32⟩
  | .hbm, ⟨26, _⟩ => ⟨S_, .f32⟩
  | .hbm, ⟨27, _⟩ => ⟨S64x513x768, .f32⟩
  | .hbm, ⟨28, _⟩ => ⟨S64, .i32⟩
  | .hbm, ⟨29, _⟩ => ⟨S64x1, .i32⟩
  | .hbm, ⟨30, _⟩ => ⟨S_, .i32⟩
  | .hbm, ⟨31, _⟩ => ⟨S64x1, .i32⟩
  | .hbm, ⟨32, _⟩ => ⟨S64x1, .i1⟩
  | .hbm, ⟨33, _⟩ => ⟨S_, .i32⟩
  | .hbm, ⟨34, _⟩ => ⟨S64x1, .i32⟩
  | .hbm, ⟨35, _⟩ => ⟨S64x1, .i32⟩
  | .hbm, ⟨36, _⟩ => ⟨S64x1, .i32⟩
  | .hbm, ⟨37, _⟩ => ⟨S_, .i32⟩
  | .hbm, ⟨38, _⟩ => ⟨S64x512, .i32⟩
  | .hbm, ⟨39, _⟩ => ⟨S64x512, .i1⟩
  | .hbm, ⟨40, _⟩ => ⟨S_, .i32⟩
  | .hbm, ⟨41, _⟩ => ⟨S64x512, .i32⟩
  | .hbm, ⟨42, _⟩ => ⟨S64x512, .i32⟩
  | .hbm, ⟨43, _⟩ => ⟨S64x512, .i32⟩
  | .hbm, ⟨44, _⟩ => ⟨S64x512, .i32⟩
  | .hbm, ⟨45, _⟩ => ⟨S64x512x1, .i32⟩
  | .hbm, ⟨46, _⟩ => ⟨S64x512x1, .i32⟩
  | .hbm, ⟨47, _⟩ => ⟨S64x512x2, .i32⟩
  | .hbm, ⟨48, _⟩ => ⟨S64x513x768, .f32⟩
  | .hbm, ⟨49, _⟩ => ⟨S64x512x768, .f32⟩
  | .hbm, ⟨50, _⟩ => ⟨S64x512x100, .f32⟩
  | .hbm, ⟨51, _⟩ => ⟨S1x1x100, .f32⟩
  | .hbm, ⟨52, _⟩ => ⟨S64x512x100, .f32⟩
  | .hbm, ⟨53, _⟩ => ⟨S64x512x100, .f32⟩
  | .hbm, ⟨54, _⟩ => ⟨S_, .f32⟩
  | .hbm, ⟨55, _⟩ => ⟨S64x512x100, .f32⟩
  | .hbm, ⟨56, _⟩ => ⟨S64x512x100, .f32⟩
  | .hbm, ⟨57, _⟩ => ⟨S64x512x868, .f32⟩
  | .hbm, ⟨58, _⟩ => ⟨S64x512x768, .f32⟩
  | .hbm, ⟨59, _⟩ => ⟨S1x1x768, .f32⟩
  | .hbm, ⟨60, _⟩ => ⟨S64x512x768, .f32⟩
  | .hbm, ⟨61, _⟩ => ⟨S64x512x768, .f32⟩
  | .hbm, ⟨62, _⟩ => ⟨S_, .f32⟩
  | .hbm, ⟨63, _⟩ => ⟨S64x512x768, .f32⟩
  | .hbm, ⟨64, _⟩ => ⟨S64x512x768, .f32⟩
  | .hbm, ⟨65, _⟩ => ⟨S64x512x3, .f32⟩
  | .hbm, ⟨66, _⟩ => ⟨S1x1x3, .f32⟩
  | .hbm, ⟨67, _⟩ => ⟨S64x512x3, .f32⟩
  | .hbm, ⟨68, _⟩ => ⟨S64x512x3, .f32⟩
  | .hbm, ⟨69, _⟩ => ⟨S64x2, .f32⟩
  | .hbm, ⟨70, _⟩ => ⟨S1x2, .f32⟩
  | .hbm, ⟨71, _⟩ => ⟨S64x2, .f32⟩
  | .hbm, ⟨72, _⟩ => ⟨S64x2, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_call0_c : Ref sig .tc := ⟨.hbm, 13, rfl⟩
abbrev main_call0_call0_v0 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call1_v0 : Ref sig .tc := ⟨.hbm, 23, rfl⟩
abbrev main_call1_v1 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_2 : Ref sig .tc := ⟨.hbm, 30, rfl⟩
abbrev main_v11 : Ref sig .tc := ⟨.hbm, 31, rfl⟩
abbrev main_v12 : Ref sig .tc := ⟨.hbm, 32, rfl⟩
abbrev main_c_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_c_5 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call2_cst : Ref sig .tc := ⟨.hbm, 54, rfl⟩
abbrev main_call2_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call3_cst : Ref sig .tc := ⟨.hbm, 62, rfl⟩
abbrev main_call3_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩

abbrev nD : Nat := 1
abbrev τ : Topo := Topo.v7x

variable {F : FTy → Type} [FloatOps F]

class Facts₀ : Prop where
  slices_S64x512x768_S64x1x768_0_0_0 : S64x512x768.Slices ![0, 0, 0] S64x1x768
  shapeCasts_S64x1x768_S64x768 : S64x1x768.ShapeCasts S64x768
  bcast_S_S_ : S_.BroadcastsInDim S_ (![] : Fin 0 → Fin S_.rank)
  reduceWindows_S64x512_S64x512_w1s1p0_0_w512s1p511_0 : S64x512.ReduceWindows (![1, 512] : Fin 2 → Nat) ![1, 1] ![0, 511] ![0, 0] S64x512
  h_S_ : 0 < S_.numel
  bcast_S_S64x512 : S_.BroadcastsInDim S64x512 (![] : Fin 0 → Fin S64x512.rank)
  bcast_S_S64x513x768 : S_.BroadcastsInDim S64x513x768 (![] : Fin 0 → Fin S64x513x768.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  bcast_S64x512_S64x512x1_0_1 : S64x512.BroadcastsInDim S64x512x1 (![0, 1] : Fin 2 → Fin S64x512x1.rank)
  concatenates_S64x512x1_S64x512x1_S64x512x2_d2 : Shape.Concatenates [S64x512x1, S64x512x1] S64x512x2 2
  slices_S64x513x768_S64x512x768_0_0_0 : S64x513x768.Slices ![0, 0, 0] S64x512x768
  bcast_S100_S1x1x100_2 : S100.BroadcastsInDim S1x1x100 (![2] : Fin 1 → Fin S1x1x100.rank)
  bcast_S1x1x100_S64x512x100_0_1_2 : S1x1x100.BroadcastsInDim S64x512x100 (![0, 1, 2] : Fin 3 → Fin S64x512x100.rank)
  bcast_S_S64x512x100 : S_.BroadcastsInDim S64x512x100 (![] : Fin 0 → Fin S64x512x100.rank)
  concatenates_S64x512x768_S64x512x100_S64x512x868_d2 : Shape.Concatenates [S64x512x768, S64x512x100] S64x512x868 2
  bcast_S768_S1x1x768_2 : S768.BroadcastsInDim S1x1x768 (![2] : Fin 1 → Fin S1x1x768.rank)
  bcast_S1x1x768_S64x512x768_0_1_2 : S1x1x768.BroadcastsInDim S64x512x768 (![0, 1, 2] : Fin 3 → Fin S64x512x768.rank)
  bcast_S_S64x512x768 : S_.BroadcastsInDim S64x512x768 (![] : Fin 0 → Fin S64x512x768.rank)
  bcast_S3_S1x1x3_2 : S3.BroadcastsInDim S1x1x3 (![2] : Fin 1 → Fin S1x1x3.rank)
  bcast_S1x1x3_S64x512x3_0_1_2 : S1x1x3.BroadcastsInDim S64x512x3 (![0, 1, 2] : Fin 3 → Fin S64x512x3.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S64x513x768_S64x512x2_S64x512x768_2_01_01_2_wf : ScatterDims.WF S64x513x768 S64x512x2 S64x512x768 [2] [0, 1] [0, 1] 2
  dot_S64x512x100_S100x100_S64x512x100_2_0_01_1_n_n_wf : DotDims.WF S64x512x100 S100x100 S64x512x100 [2] [0] [0, 1] [1] [] []
  dot_S64x512x868_S868x768_S64x512x768_2_0_01_1_n_n_wf : DotDims.WF S64x512x868 S868x768 S64x512x768 [2] [0] [0, 1] [1] [] []
  dot_S64x512x768_S768x3_S64x512x3_2_0_01_1_n_n_wf : DotDims.WF S64x512x768 S768x3 S64x512x3 [2] [0] [0, 1] [1] [] []
  dot_S64x768_S768x2_S64x2_1_0_0_1_n_n_wf : DotDims.WF S64x768 S768x2 S64x2 [1] [0] [0] [1] [] []

variable [Facts₀]

def scatter_S64x513x768_S64x512x2_S64x512x768_2_01_01_2 : ScatterDims S64x513x768 S64x512x2 S64x512x768 where
  updateWindowDims := [2]
  insertedWindowDims := [0, 1]
  scatterDimsToOperandDims := [0, 1]
  indexVectorDim := 2
  wf := scatter_S64x513x768_S64x512x2_S64x512x768_2_01_01_2_wf
def dot_S64x512x100_S100x100_S64x512x100_2_0_01_1_n_n : DotDims S64x512x100 S100x100 S64x512x100 where
  lhsContracting := [2]
  rhsContracting := [0]
  lhsNonContracting := [0, 1]
  rhsNonContracting := [1]
  lhsBatch := []
  rhsBatch := []
  wf := dot_S64x512x100_S100x100_S64x512x100_2_0_01_1_n_n_wf
def dot_S64x512x868_S868x768_S64x512x768_2_0_01_1_n_n : DotDims S64x512x868 S868x768 S64x512x768 where
  lhsContracting := [2]
  rhsContracting := [0]
  lhsNonContracting := [0, 1]
  rhsNonContracting := [1]
  lhsBatch := []
  rhsBatch := []
  wf := dot_S64x512x868_S868x768_S64x512x768_2_0_01_1_n_n_wf
def dot_S64x512x768_S768x3_S64x512x3_2_0_01_1_n_n : DotDims S64x512x768 S768x3 S64x512x3 where
  lhsContracting := [2]
  rhsContracting := [0]
  lhsNonContracting := [0, 1]
  rhsNonContracting := [1]
  lhsBatch := []
  rhsBatch := []
  wf := dot_S64x512x768_S768x3_S64x512x3_2_0_01_1_n_n_wf
def dot_S64x768_S768x2_S64x2_1_0_0_1_n_n : DotDims S64x768 S768x2 S64x2 where
  lhsContracting := [1]
  rhsContracting := [0]
  lhsNonContracting := [0]
  rhsNonContracting := [1]
  lhsBatch := []
  rhsBatch := []
  wf := dot_S64x768_S768x2_S64x2_1_0_0_1_n_n_wf

class Facts : Prop extends Facts₀ where

variable [Facts]
-- ==== Proof.Spec.lean ====
/-
  What both programs compute for the token-tag logits, as ONE function of the argument arrays, index by index, on the
  extended reals.

  Within one batch the table `tg` sends source token `l` to a destination slot (a 32-bit word). Slot `i` of the packed
  sequence is the sum, over the source tokens, of the token's row weighted by 1 when the token is sent to `i` and by 0
  otherwise:
      packedRow i d = ∑ l, [i = tg l] · sq l d.
  The features pass through a linear layer and a rectifier:
      enrichedRow l g = max (∑ f, ft l f · enrW f g + enrB g) 0.
  The weight of the hidden layer acts on the packed row (`w1a`, 768 rows) and on the enriched row (`w1b`, 100 rows):
      hiddenRow l w = max ((∑ c, packedRow l c · w1a c w + ∑ g, enrichedRow l g · w1b g w) + b1 w) 0,
  and the logits are  rowTag l t = ∑ w, hiddenRow l w · w2 w t + b2 t.

  Over the whole input, batch `b` uses its own rows of the sequence, the features and the slot table, and `w1a`, `w1b`
  are rows 0..767 and 768..867 of the one 868-row weight `w1`.

  When no two source tokens of a batch share a slot below 512, the weighted sum `packedRow` has at most one non-zero term,
  and it is the row that a write of every token's row to its slot (rows sent to slot 512 discarded) leaves there.
-/
import Idealize.ShloMosaic.PureOps.Ideal
import Idealize.ShloMosaic.Lib.ValueIdx

noncomputable section

namespace Cert.Tagger

open Idealize.ShloMosaic Idealize.ShloMosaic.ValueIdx

/-- Row `768 + g` of the 868-row weight. -/
abbrev lowRow (g : Fin 100) : Fin 868 := ⟨768 + g.val, by omega⟩
/-- Row `c` of the 868-row weight, for `c` below 768. -/
abbrev topRow (c : Fin 768) : Fin 868 := ⟨c.val, by omega⟩

/-- The weight of a source token with slot word `w` in destination slot `i`: 1 when `w` is `i`, else 0. -/
def hot (i : Fin 512) (w : BitVec 32) : EReal := if BitVec.ofNat 32 i.val = w then 1 else 0

/-! ## One batch -/

section
variable (sq : Fin 512 → Fin 768 → EReal) (ft : Fin 512 → Fin 100 → EReal) (tg : Fin 512 → BitVec 32)
  (enrW : Fin 100 → Fin 100 → EReal) (enrB : Fin 100 → EReal)
  (w1a : Fin 768 → Fin 768 → EReal) (w1b : Fin 100 → Fin 768 → EReal) (b1 : Fin 768 → EReal)
  (w2 : Fin 768 → Fin 3 → EReal) (b2 : Fin 3 → EReal)

/-- Slot `i` of the packed sequence, lane `d`. -/
def packedRow (i : Fin 512) (d : Fin 768) : EReal := ∑ l : Fin 512, hot i (tg l) * sq l d

/-- The enriched features of token `l`. -/
def enrichedRow (l : Fin 512) (g : Fin 100) : EReal := max ((∑ f : Fin 100, ft l f * enrW f g) + enrB g) 0

/-- The hidden layer at slot `l`. -/
def hiddenRow (l : Fin 512) (w : Fin 768) : EReal :=
  max (((∑ c : Fin 768, packedRow sq tg l c * w1a c w) + (∑ g : Fin 100, enrichedRow ft enrW enrB l g * w1b g w)) + b1 w) 0

/-- The token-tag logits of one batch. -/
def rowTag (l : Fin 512) (t : Fin 3) : EReal :=
  (∑ w : Fin 768, hiddenRow sq ft tg enrW enrB w1a w1b b1 l w * w2 w t) + b2 t

end

/-! ## The whole input -/

section
variable (seq : (⟨3, ![64, 512, 768]⟩ : Shape).Idx → EReal) (feat : (⟨3, ![64, 512, 100]⟩ : Shape).Idx → EReal)
  (tgt : (⟨2, ![64, 512]⟩ : Shape).Idx → BitVec 32)
  (enrW : (⟨2, ![100, 100]⟩ : Shape).Idx → EReal) (enrB : (⟨1, ![100]⟩ : Shape).Idx → EReal)
  (w1 : (⟨2, ![868, 768]⟩ : Shape).Idx → EReal) (b1 : (⟨1, ![768]⟩ : Shape).Idx → EReal)
  (w2 : (⟨2, ![768, 3]⟩ : Shape).Idx → EReal) (b2 : (⟨1, ![3]⟩ : Shape).Idx → EReal)

/-- Slot `i` of batch `b`'s packed sequence, lane `d`. -/
def packed (b : Fin 64) (i : Fin 512) (d : Fin 768) : EReal :=
  packedRow (fun l d => seq (ix3 b l d)) (fun l => tgt (ix2 b l)) i d

/-- The token-tag logits of batch `b`. -/
def tag (b : Fin 64) (l : Fin 512) (t : Fin 3) : EReal :=
  rowTag (fun l d => seq (ix3 b l d)) (fun l f => feat (ix3 b l f)) (fun l => tgt (ix2 b l))
    (fun f g => enrW (ix2 f g)) (fun g => enrB (ix1 g))
    (fun c w => w1 (ix2 (topRow c) w)) (fun g w => w1 (ix2 (lowRow g) w)) (fun w => b1 (ix1 w))
    (fun w t => w2 (ix2 w t)) (fun t => b2 (ix1 t)) l t

/-- The logits as an array `[64, 512, 3]`. -/
def tagArr : (⟨3, ![64, 512, 3]⟩ : Shape).Idx → EReal :=
  fun j => tag seq feat tgt enrW enrB w1 b1 w2 b2 (j 0) (j 1) (j 2)

end

/-- Every slot word is at most 512. -/
def SlotsBounded (tgt : (⟨2, ![64, 512]⟩ : Shape).Idx → BitVec 32) : Prop :=
  ∀ (b : Fin 64) (l : Fin 512), (tgt (ix2 b l)).toNat ≤ 512

/-- Within a batch, two source tokens sent to one slot below 512 are one token. -/
def SlotsDistinct (tgt : (⟨2, ![64, 512]⟩ : Shape).Idx → BitVec 32) : Prop :=
  ∀ (b : Fin 64) (l l' : Fin 512), (tgt (ix2 b l)).toNat < 512 → tgt (ix2 b l) = tgt (ix2 b l') → l = l'

end Cert.Tagger

end
-- ==== Proof.KernelPay.lean ====
/-
  The kernel body's one stored value, read index by index on the extended reals: for the batch the trip works on, entry
  `(0, t, l)` of the stored `[1, 3, 512]` slab is the specification's logit `rowTag l t` of that batch's rows — the one-hot
  matrix times the sequence is the weighted sum, the four matrix products are plain sums, changes of float format are the
  identity, and the stored slab is the transpose of the `[512, 3]` logits.
-/
import proofs.«425509_j56040733278608_3_alg».proof.Proof.Gen.KernelIdeal.Skeleton
import proofs.«425509_j56040733278608_3_alg».proof.Proof.Spec
import Idealize.ShloMosaic.PureOps.Ideal.Laws
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.ValueIdx

/-! ## Words: the bit of a comparison as a weight -/

/-- The bit of a word comparison, widened to 32 bits and converted to a float, is on the extended reals the weight 1 when
    the two words agree and 0 when they do not. -/
theorem sitofp_cmpi_eq (a b : BitVec 32) :
    FloatOps.sitofp (F := Ideal) .f32 ((IntOp.cmpi .eq a b).setWidth 32) = if a = b then 1 else 0 := by
  show (((((IntOp.cmpi .eq a b).setWidth 32).toInt : ℤ) : ℝ) : EReal) = _
  by_cases h : a = b
  · have hw : (IntOp.cmpi .eq a b).setWidth 32 = 1#32 := by simp [IntOp.cmpi, h]
    have h1 : (1#32 : BitVec 32).toInt = 1 := by decide
    rw [hw, if_pos h, h1]
    norm_num
  · have hb : (a == b) = false := beq_eq_false_iff_ne.mpr h
    have hw : (IntOp.cmpi .eq a b).setWidth 32 = 0#32 := by simp [IntOp.cmpi, hb]
    have h0 : (0#32 : BitVec 32).toInt = 0 := by decide
    rw [hw, if_neg h, h0]
    norm_num

/-! ## Layout: a bias row stretched over the rows, a rectifier against the zero literal -/

variable {α : Type}

/-- A `[1, b]` row, cast to its own shape and stretched over `a` rows, reads at `(p, c)` the row's entry `c`. -/
theorem rowStretch_apply {a b : ℕ} (v : (⟨2, ![1, b]⟩ : Shape).Idx → α)
    (h1 : (⟨2, ![1, b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix2 (0 : Fin 1) c) := by
  rw [shapeCast_self]
  exact broadcastTo_1b_ab_apply v h2 p c

/-- The maximum with the splat of the zero word is the maximum with 0. -/
theorem relu_apply {s : Shape} (A : FVec Ideal s .f32) (i : s.Idx) :
    maximumf A (broadcast s (FloatOps.ofBits (F := Ideal) .f32 0x00000000#32)) i = max (A i) 0 := by
  show max (A i) (Ideal.ofBits .f32 0x00000000#32) = _
  rw [Ideal.ofBits_zero_f32]

/-! ## A matrix product into the zero accumulator, entry by entry -/

/-- In the product of `[M, K]` by `[K, N]`, output entry `(p, q)` and shared index `k` read the left operand at `(p, k)` … -/
theorem plain_lhsIdx {M K N : ℕ} (p : Fin M) (q : Fin N) (k : Fin K) :
    (DotDims.plain M K N).lhsIdx (ix2 p q) ((contrEquiv1 (DotDims.plain M K N) K rfl rfl).symm k) = ix2 p k :=
  Shape.idx_ext₂ rfl
    (((DotDims.plain M K N).lhsIdx_val_of_single rfl (ix2 p q) _).trans (contrEquiv1_symm_val _ K rfl rfl k))

/-- … and the right operand at `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  Shape.idx_ext₂
    (((DotDims.plain M K N).rhsIdx_val_of_single rfl (ix2 p q) _).trans (contrEquiv1_symm_val _ K rfl rfl k)) rfl

/-- A product `[M, K]` by `[K, N]` into the zero accumulator, whose operands' entries are `f p k` and `g k q`, has at
    `(p, q)` the entry `∑ k, f p k * g k q`. -/
theorem matmul_zero_entries {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂)
    (f : Fin M → Fin K → EReal) (g : Fin K → Fin N → EReal)
    (hA : ∀ p k, A (ix2 p k) = f p k) (hB : ∀ k q, B (ix2 k q) = g k q) (p : Fin M) (q : Fin N) :
    FloatOps.matmul D prec A B (constant (F := Ideal) ⟨2, ![M, N]⟩ .f32 0x00000000#32) (ix2 p q) = ∑ k : Fin K, f p k * g k q := by
  subst hD
  rw [Ideal.matmul_constant_zero_apply, ← Equiv.sum_comp (contrEquiv1 (DotDims.plain M K N) K rfl rfl).symm]
  refine Finset.sum_congr rfl fun k _ => ?_
  rw [plain_lhsIdx, plain_rhsIdx, hA, hB]

/-! ## The stages of the body, each read at an entry -/

/-- Entry `(i, l)` of the 0/1 matrix: row number `i` as a word compared with source token `l`'s slot word, the bit
    widened and converted: the weight of that slot word in slot `i`. -/
theorem hotMatrix_apply {n : ℕ} (slots : IVec ⟨3, ![1, 1, n]⟩ 32) (hi : (⟨2, ![n, n]⟩ : Shape).Iotas .tc 32 [0])
    (h1 : (⟨3, ![1, 1, n]⟩ : Shape).ShapeCasts ⟨2, ![1, n]⟩) (h2 : (⟨2, ![1, n]⟩ : Shape).ShapeCasts ⟨2, ![1, n]⟩)
    (h3 : (⟨2, ![1, n]⟩ : Shape).Broadcasts ⟨2, ![n, n]⟩) (hw : 1 < 32) (hb : FTy.bits .bf16 < FTy.bits .f32)
    (i l : Fin n) :
    (truncf .bf16 (sitofp .f32 (extui 32 (cmpi .eq (iota .tc ⟨2, ![n, n]⟩ 32 [0] hi)
        (broadcastTo ⟨2, ![n, n]⟩ (shapeCast ⟨2, ![1, n]⟩ (shapeCast ⟨2, ![1, n]⟩ slots h1) h2) h3)) hw)) hb
      : FVec Ideal ⟨2, ![n, n]⟩ .bf16) (ix2 i l)
      = if BitVec.ofNat 32 i.val = slots (ix3 (0 : Fin 1) (0 : Fin 1) l) then 1 else 0 := by
  show FloatOps.sitofp (F := Ideal) .f32 ((IntOp.cmpi .eq (iota .tc ⟨2, ![n, n]⟩ 32 [0] hi (ix2 i l))
      (broadcastTo ⟨2, ![n, n]⟩ (shapeCast ⟨2, ![1, n]⟩ (shapeCast ⟨2, ![1, n]⟩ slots h1) h2) h3 (ix2 i l))).setWidth 32) = _
  rw [sitofp_cmpi_eq, iota_single_apply, rowStretch_apply, shapeCast_1ab_ab_apply]
  rfl

/-- A `[1, a, b]` block cast to `[a, b]` and narrowed reads, at `(p, c)`, the block at `(0, p, c)`. -/
theorem block_apply {a b : ℕ} (x : FVec Ideal ⟨3, ![1, a, b]⟩ .f32) (h : (⟨3, ![1, a, b]⟩ : Shape).ShapeCasts ⟨2, ![a, b]⟩)
    (hb : FTy.bits .bf16 < FTy.bits .f32) (p : Fin a) (c : Fin b) :
    (truncf .bf16 (shapeCast ⟨2, ![a, b]⟩ x h) hb : FVec Ideal ⟨2, ![a, b]⟩ .bf16) (ix2 p c) = x (ix3 (0 : Fin 1) p c) :=
  shapeCast_1ab_ab_apply x h p c

/-- A weight cast to its own shape and narrowed reads the weight. -/
theorem weight_apply {a b : ℕ} (x : FVec Ideal ⟨2, ![a, b]⟩ .f32) (h : (⟨2, ![a, b]⟩ : Shape).ShapeCasts ⟨2, ![a, b]⟩)
    (hb : FTy.bits .bf16 < FTy.bits .f32) (p : Fin a) (c : Fin b) :
    (truncf .bf16 (shapeCast ⟨2, ![a, b]⟩ x h) hb : FVec Ideal ⟨2, ![a, b]⟩ .bf16) (ix2 p c) = x (ix2 p c) := by
  rw [shapeCast_self]; rfl

/-- A linear layer with a bias row and a rectifier: when the operands' entries are `f p k` and `g k q`, entry `(p, q)` is
    `max (∑ k, f p k * g k q + bias q) 0`. -/
theorem denseRelu_apply {M K N : ℕ} (D : DotDims ⟨2, ![M, K]⟩ ⟨2, ![K, N]⟩ ⟨2, ![M, N]⟩) (hD : D = DotDims.plain M K N)
    (A : FVec Ideal ⟨2, ![M, K]⟩ .bf16) (W : FVec Ideal ⟨2, ![K, N]⟩ .bf16) (bias : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (hb : FTy.bits .bf16 < FTy.bits .f32)
    (f : Fin M → Fin K → EReal) (g : Fin K → Fin N → EReal)
    (hA : ∀ p k, A (ix2 p k) = f p k) (hW : ∀ k q, W (ix2 k q) = g k q) (p : Fin M) (q : Fin N) :
    (truncf .bf16 (maximumf (addf (matmul D none A W (constant (F := Ideal) ⟨2, ![M, N]⟩ .f32 0x00000000#32))
          (broadcastTo ⟨2, ![M, N]⟩ (shapeCast ⟨2, ![1, N]⟩ bias h1) h2))
        (broadcast ⟨2, ![M, N]⟩ (FloatOps.ofBits (F := Ideal) .f32 0x00000000#32))) hb
      : FVec Ideal ⟨2, ![M, N]⟩ .bf16) (ix2 p q)
      = max ((∑ k : Fin K, f p k * g k q) + bias (ix2 (0 : Fin 1) q)) 0 := by
  rw [truncf_apply, relu_apply, addf_apply, rowStretch_apply]
  exact congrArg (fun x => max (x + bias (ix2 (0 : Fin 1) q)) 0) (matmul_zero_entries D hD none A W f g hA hW p q)

/-- The same with two products added before the bias: the hidden layer on its two inputs. -/
theorem denseRelu₂_apply {M K₁ K₂ N : ℕ}
    (D₁ : DotDims ⟨2, ![M, K₁]⟩ ⟨2, ![K₁, N]⟩ ⟨2, ![M, N]⟩) (hD₁ : D₁ = DotDims.plain M K₁ N)
    (D₂ : DotDims ⟨2, ![M, K₂]⟩ ⟨2, ![K₂, N]⟩ ⟨2, ![M, N]⟩) (hD₂ : D₂ = DotDims.plain M K₂ N)
    (A₁ : FVec Ideal ⟨2, ![M, K₁]⟩ .bf16) (W₁ : FVec Ideal ⟨2, ![K₁, N]⟩ .bf16)
    (A₂ : FVec Ideal ⟨2, ![M, K₂]⟩ .bf16) (W₂ : FVec Ideal ⟨2, ![K₂, N]⟩ .bf16) (bias : FVec Ideal ⟨2, ![1, N]⟩ .f32)
    (h1 : (⟨2, ![1, N]⟩ : Shape).ShapeCasts ⟨2, ![1, N]⟩) (h2 : (⟨2, ![1, N]⟩ : Shape).Broadcasts ⟨2, ![M, N]⟩)
    (hb : FTy.bits .bf16 < FTy.bits .f32)
    (f₁ : Fin M → Fin K₁ → EReal) (g₁ : Fin K₁ → Fin N → EReal) (f₂ : Fin M → Fin K₂ → EReal) (g₂ : Fin K₂ → Fin N → EReal)
    (hA₁ : ∀ p k, A₁ (ix2 p k) = f₁ p k) (hW₁ : ∀ k q, W₁ (ix2 k q) = g₁ k q)
    (hA₂ : ∀ p k, A₂ (ix2 p k) = f₂ p k) (hW₂ : ∀ k q, W₂ (ix2 k q) = g₂ k q) (p : Fin M) (q : Fin N) :
    (truncf .bf16 (maximumf (addf (addf (matmul D₁ none A₁ W₁ (constant (F := Ideal) ⟨2, ![M, N]⟩ .f32 0x00000000#32))
            (matmul D₂ none A₂ W₂ (constant (F := Ideal) ⟨2, ![M, N]⟩ .f32 0x00000000#32)))
          (broadcastTo ⟨2, ![M, N]⟩ (shapeCast ⟨2, ![1, N]⟩ bias h1) h2))
        (broadcast ⟨2, ![M, N]⟩ (FloatOps.ofBits (F := Ideal) .f32 0x00000000#32))) hb
      : FVec Ideal ⟨2, ![M, N]⟩ .bf16) (ix2 p q)
      = max (((∑ k : Fin K₁, f₁ p k * g₁ k q) + (∑ k : Fin K₂, f₂ p k * g₂ k q)) + bias (ix2 (0 : Fin 1) q)) 0 := by
  rw [truncf_apply, relu_apply, addf_apply, addf_apply, rowStretch_apply]
  exact congrArg₂ (fun x y => max ((x + y) + bias (ix2 (0 : Fin 1) q)) 0)
    (matmul_zero_entries D₁ hD₁ none A₁ W₁ f₁ g₁ hA₁ hW₁ p q) (matmul_zero_entries D₂ hD₂ none A₂ W₂ f₂ g₂ hA₂ hW₂ p q)

/-- The last layer — a product plus a bias row —, transposed and given a leading unit axis: entry `(u, t, l)` of the slab is
    `∑ w, f l w * g w t + bias t`. -/
theorem tagSlab_apply {L W T : ℕ} (D : DotDims ⟨2, ![L, W]⟩ ⟨2, ![W, T]⟩ ⟨2, ![L, T]⟩) (hD : D = DotDims.plain L W T)
    (H : FVec Ideal ⟨2, ![L, W]⟩ .bf16) (W₂ : FVec Ideal ⟨2, ![W, T]⟩ .bf16) (bias : FVec Ideal ⟨2, ![1, T]⟩ .f32)
    (h1 : (⟨2, ![1, T]⟩ : Shape).ShapeCasts ⟨2, ![1, T]⟩) (h2 : (⟨2, ![1, T]⟩ : Shape).Broadcasts ⟨2, ![L, T]⟩)
    (h3 : (⟨2, ![L, T]⟩ : Shape).Transposes [1, 0] ⟨2, ![T, L]⟩) (h4 : (⟨2, ![T, L]⟩ : Shape).ShapeCasts ⟨3, ![1, T, L]⟩)
    (f : Fin L → Fin W → EReal) (g : Fin W → Fin T → EReal)
    (hH : ∀ l w, H (ix2 l w) = f l w) (hW : ∀ w t, W₂ (ix2 w t) = g w t) (u : Fin 1) (t : Fin T) (l : Fin L) :
    shapeCast ⟨3, ![1, T, L]⟩ (transpose ⟨2, ![T, L]⟩ [1, 0]
        (addf (matmul D none H W₂ (constant (F := Ideal) ⟨2, ![L, T]⟩ .f32 0x00000000#32))
          (broadcastTo ⟨2, ![L, T]⟩ (shapeCast ⟨2, ![1, T]⟩ bias h1) h2)) h3) h4 (ix3 u t l)
      = (∑ w : Fin W, f l w * g w t) + bias (ix2 (0 : Fin 1) t) := by
  rw [shapeCast_ab_1ab_apply, transpose_ix2_apply, addf_apply, rowStretch_apply]
  exact congrArg (fun x => x + bias (ix2 (0 : Fin 1) t)) (matmul_zero_entries D hD none H W₂ f g hH hW l t)

/-! ## The stored value -/

theorem pay_apply (v0 : Vec Ideal S100x100 .f32) (v2 : Vec Ideal S1x100 .f32) (v4 : Vec Ideal S768x768 .f32)
    (v7 : Vec Ideal S100x768 .f32) (v10 : Vec Ideal S1x768 .f32) (v12 : Vec Ideal S768x3 .f32) (v14 : Vec Ideal S1x3 .f32)
    (v19 : Vec Ideal S1x512x768 .f32) (v22 : Vec Ideal S1x512x100 .f32) (v25 : Vec Ideal S1x1x512 .i32)
    (t : Fin 3) (l : Fin 512) :
    k0_pay1 (F := Ideal) v0 v2 v4 v7 v10 v12 v14 v19 v22 v25 (ix3 (0 : Fin 1) t l)
      = Cert.Tagger.rowTag (fun l d => v19 (ix3 (0 : Fin 1) l d)) (fun l f => v22 (ix3 (0 : Fin 1) l f))
          (fun l => v25 (ix3 (0 : Fin 1) (0 : Fin 1) l))
          (fun f g => v0 (ix2 f g)) (fun g => v2 (ix2 (0 : Fin 1) g))
          (fun c w => v4 (ix2 c w)) (fun g w => v7 (ix2 g w)) (fun w => v10 (ix2 (0 : Fin 1) w))
          (fun w t => v12 (ix2 w t)) (fun t => v14 (ix2 (0 : Fin 1) t)) l t := by
  unfold k0_pay1
  -- the packed sequence: the 0/1 matrix times the sequence block is the weighted sum
  have hPacked : ∀ (i : Fin 512) (d : Fin 768), _ = Cert.Tagger.packedRow (fun l d => v19 (ix3 (0 : Fin 1) l d))
      (fun l => v25 (ix3 (0 : Fin 1) (0 : Fin 1) l)) i d := fun i d =>
    matmul_zero_entries dot_S512x512_S512x768_S512x768_1_0_0_1_n_n rfl none _ _
      (fun i l => Cert.Tagger.hot i (v25 (ix3 (0 : Fin 1) (0 : Fin 1) l))) (fun l d => v19 (ix3 (0 : Fin 1) l d))
      (fun i l => hotMatrix_apply v25 iota_S512x512_d0_w32 shapeCasts_S1x1x512_S1x512 shapeCasts_S1x512_S1x512
        broadcasts_S1x512_S512x512 natLt_1_32 bitsLt_bf16_f32 i l)
      (fun l d => block_apply v19 shapeCasts_S1x512x768_S512x768 bitsLt_bf16_f32 l d) i d
  -- the enriched features
  have hEnriched : ∀ (i : Fin 512) (g : Fin 100), _ = Cert.Tagger.enrichedRow (fun l f => v22 (ix3 (0 : Fin 1) l f))
      (fun f g => v0 (ix2 f g)) (fun g => v2 (ix2 (0 : Fin 1) g)) i g := fun i g =>
    denseRelu_apply dot_S512x100_S100x100_S512x100_1_0_0_1_n_n rfl _ _ v2 shapeCasts_S1x100_S1x100 broadcasts_S1x100_S512x100
      bitsLt_bf16_f32 (fun l f => v22 (ix3 (0 : Fin 1) l f)) (fun f g => v0 (ix2 f g))
      (fun l f => block_apply v22 shapeCasts_S1x512x100_S512x100 bitsLt_bf16_f32 l f) (fun f g => rfl) i g
  -- the hidden layer on both
  have hHidden : ∀ (i : Fin 512) (w : Fin 768), _ = Cert.Tagger.hiddenRow (fun l d => v19 (ix3 (0 : Fin 1) l d))
      (fun l f => v22 (ix3 (0 : Fin 1) l f)) (fun l => v25 (ix3 (0 : Fin 1) (0 : Fin 1) l))
      (fun f g => v0 (ix2 f g)) (fun g => v2 (ix2 (0 : Fin 1) g))
      (fun c w => v4 (ix2 c w)) (fun g w => v7 (ix2 g w)) (fun w => v10 (ix2 (0 : Fin 1) w)) i w := fun i w =>
    denseRelu₂_apply dot_S512x768_S768x768_S512x768_1_0_0_1_n_n rfl dot_S512x100_S100x768_S512x768_1_0_0_1_n_n rfl
      _ _ _ _ v10 shapeCasts_S1x768_S1x768 broadcasts_S1x768_S512x768 bitsLt_bf16_f32
      _ (fun c w => v4 (ix2 c w)) _ (fun g w => v7 (ix2 g w))
      hPacked (fun c w => weight_apply v4 shapeCasts_S768x768_S768x768 bitsLt_bf16_f32 c w)
      hEnriched (fun g w => weight_apply v7 shapeCasts_S100x768_S100x768 bitsLt_bf16_f32 g w) i w
  exact tagSlab_apply dot_S512x768_S768x3_S512x3_1_0_0_1_n_n rfl _ _ v14 shapeCasts_S1x3_S1x3 broadcasts_S1x3_S512x3
    transposes_S512x3_p1_0_S3x512 shapeCasts_S3x512_S1x3x512 _ (fun w t => v12 (ix2 w t)) hHidden (fun w t => rfl) 0 t l

end Cert.KernelIdeal.KValue

end
-- ==== Proof.KernelBlock.lean ====
/-
  What the kernel body leaves in its output block, read index by index on the extended reals.

  The body's loop runs four trips; trip `k` loads row `k` of the sequence block `[4, 512, 768]`, of the feature block
  `[4, 512, 100]` and of the slot block `[4, 1, 512]`, and stores ONE `[1, 3, 512]` slab at row `k` of the output block
  `[4, 3, 512]`: the logits of that batch, transposed. The four slabs tile the output block, so entry `(k, t, l)` of what
  the body leaves is the logit `rowTag l t` of batch `k` of the blocks.
-/
import proofs.«425509_j56040733278608_3_alg».proof.Proof.Gen.KernelIdeal.Frame
import proofs.«425509_j56040733278608_3_alg».proof.Proof.KernelPay
import proofs.«425509_j56040733278608_3_alg».proof.Proof.Spec
import Idealize.ShloMosaic.Lib.Pipeline.Value

set_option maxRecDepth 16384

noncomputable section

namespace Cert.KernelIdeal.KValue

open Cert.KernelIdeal Cert.KernelIdeal.Gen Idealize.ShloMosaic Idealize.ShloMosaic.ValueIdx Idealize.ShloMosaic.TcCoe
open Idealize.SL Idealize.SL.Sem

variable {F : FTy → Type} [FloatOps F]

theorem hz2 : (![0, 0] : Fin 2 → Nat) = fun _ => 0 := funext fun a => by fin_cases a <;> rfl

/-- The loop runs at most four trips. -/
theorem trip_lt (k : Fin k0_t1_loop.trips) : k.val < 4 := Nat.lt_of_lt_of_le k.isLt k0_t1_abs.2.1

/-- One trip writes one piece: at row `k` of the output block, the body's value of the rows `k` it loaded. -/
theorem trip_piece (𝒱 : Variants) (c : Dev nD) (bd : Option 𝒱.V) (i : grid0.Coords) (arg1 : Memref sig .tc .vmem S4x512x768 .f32) (harg1 : arg1.IsWhole) (arg2 : Memref sig .tc .vmem S4x512x100 .f32) (harg2 : arg2.IsWhole) (arg3 : Memref sig .tc .vmem S4x1x512 .i32) (harg3 : arg3.IsWhole) (arg4 : Memref sig .tc .vmem S100x100 .f32) (harg4 : arg4.IsWhole) (arg5 : Memref sig .tc .vmem S1x100 .f32) (harg5 : arg5.IsWhole) (arg6 : Memref sig .tc .vmem S768x768 .f32) (harg6 : arg6.IsWhole) (arg7 : Memref sig .tc .vmem S100x768 .f32) (harg7 : arg7.IsWhole) (arg8 : Memref sig .tc .vmem S1x768 .f32) (harg8 : arg8.IsWhole) (arg9 : Memref sig .tc .vmem S768x3 .f32) (harg9 : arg9.IsWhole) (arg10 : Memref sig .tc .vmem S1x3 .f32) (harg10 : arg10.IsWhole) (arg11 : Memref sig .tc .vmem S4x3x512 .f32) (harg11 : arg11.IsWhole) (v0 : Vec F S100x100 .f32) (v2 : Vec F S1x100 .f32) (v4 : Vec F S768x768 .f32) (v7 : Vec F S100x768 .f32) (v10 : Vec F S1x768 .f32) (v12 : Vec F S768x3 .f32) (v14 : Vec F S1x3 .f32) (X_arg1 : BufTy.Contents (Elt F) arg1.view.ty) (X_arg2 : BufTy.Contents (Elt F) arg2.view.ty) (X_arg3 : BufTy.Contents (Elt F) arg3.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 v0 v2 v4 v7 v10 v12 v14 X_arg1 X_arg2 X_arg3 k
      = [⟨Rect.unit (s := S4x3x512) (k0_off4 k) S1x3x512.size (k0_off4_inb k),
          k0_pay1 v0 v2 v4 v7 v10 v12 v14
            (View.readAt (Elt F) arg1.view (Rect.unit (s := S4x512x768) (k0_off1 k) S1x512x768.size (k0_off1_inb k)).toLoadRect X_arg1)
            (View.readAt (Elt F) arg2.view (Rect.unit (s := S4x512x100) (k0_off2 k) S1x512x100.size (k0_off2_inb k)).toLoadRect X_arg2)
            (View.readAt (Elt F) arg3.view (Rect.unit (s := S4x1x512) (k0_off3 k) S1x1x512.size (k0_off3_inb k)).toLoadRect X_arg3)⟩] := by
  unfold tripL_k0_t1 trip_k0_t1
  rfl

/-- A piece written by the first `n` trips is the piece of one trip. -/
theorem mem_pb (𝒱 : Variants) (c : Dev nD) (bd : Option 𝒱.V) (i : grid0.Coords) (arg1 : Memref sig .tc .vmem S4x512x768 .f32) (harg1 : arg1.IsWhole) (arg2 : Memref sig .tc .vmem S4x512x100 .f32) (harg2 : arg2.IsWhole) (arg3 : Memref sig .tc .vmem S4x1x512 .i32) (harg3 : arg3.IsWhole) (arg4 : Memref sig .tc .vmem S100x100 .f32) (harg4 : arg4.IsWhole) (arg5 : Memref sig .tc .vmem S1x100 .f32) (harg5 : arg5.IsWhole) (arg6 : Memref sig .tc .vmem S768x768 .f32) (harg6 : arg6.IsWhole) (arg7 : Memref sig .tc .vmem S100x768 .f32) (harg7 : arg7.IsWhole) (arg8 : Memref sig .tc .vmem S1x768 .f32) (harg8 : arg8.IsWhole) (arg9 : Memref sig .tc .vmem S768x3 .f32) (harg9 : arg9.IsWhole) (arg10 : Memref sig .tc .vmem S1x3 .f32) (harg10 : arg10.IsWhole) (arg11 : Memref sig .tc .vmem S4x3x512 .f32) (harg11 : arg11.IsWhole) (v0 : Vec F S100x100 .f32) (v2 : Vec F S1x100 .f32) (v4 : Vec F S768x768 .f32) (v7 : Vec F S100x768 .f32) (v10 : Vec F S1x768 .f32) (v12 : Vec F S768x3 .f32) (v14 : Vec F S1x3 .f32) (X_arg1 : BufTy.Contents (Elt F) arg1.view.ty) (X_arg2 : BufTy.Contents (Elt F) arg2.view.ty) (X_arg3 : BufTy.Contents (Elt F) arg3.view.ty)
    (p : View.Piece (Elt F) S4x3x512 .f32) :
    ∀ n : ℕ, p ∈ pb_k0_t1 (F := F) 𝒱 c bd i arg1 harg1 arg2 harg2 arg3 harg3 arg4 harg4 arg5 harg5 arg6 harg6 arg7 harg7 arg8 harg8 arg9 harg9 arg10 harg10 arg11 harg11 v0 v2 v4 v7 v10 v12 v14 X_arg1 X_arg2 X_arg3 n →
      ∃ k : Fin k0_t1_loop.trips, p ∈ tripL_k0_t1 (F := F) 𝒱 c bd i arg1 harg1 arg2 harg2 arg3 harg3 arg4 harg4 arg5 harg5 arg6 harg6 arg7 harg7 arg8 harg8 arg9 harg9 arg10 harg10 arg11 harg11 v0 v2 v4 v7 v10 v12 v14 X_arg1 X_arg2 X_arg3 k
  | 0, h => by rw [pb_k0_t1.eq_1] at h; exact absurd h List.not_mem_nil
  | n + 1, h => by
    rw [pb_k0_t1.eq_2] at h
    unfold pb_k0_t1Step at h
    split at h
    · rcases List.mem_append.mp h with h | h
      · exact ⟨_, h⟩
      · exact mem_pb 𝒱 c bd i arg1 harg1 arg2 harg2 arg3 harg3 arg4 harg4 arg5 harg5 arg6 harg6 arg7 harg7 arg8 harg8 arg9 harg9 arg10 harg10 arg11 harg11 v0 v2 v4 v7 v10 v12 v14 X_arg1 X_arg2 X_arg3 p n h
    · exact mem_pb 𝒱 c bd i arg1 harg1 arg2 harg2 arg3 harg3 arg4 harg4 arg5 harg5 arg6 harg6 arg7 harg7 arg8 harg8 arg9 harg9 arg10 harg10 arg11 harg11 v0 v2 v4 v7 v10 v12 v14 X_arg1 X_arg2 X_arg3 p n h

/-- Row `k` of an `[A, B, C]` block, through the rectangle `[1, B, C]` at offsets `(k, 0, 0)`: entry `(0, q, r)` of the
    rectangle is entry `(k, q, r)` of the block. -/
theorem emb_row {A B C : ℕ} (off : Fin 3 → ℕ) (k : ℕ) (hk : k < A) (hoff : off = ![k, 0, 0])
    (inb : ∀ a, off a + (![1, B, C] : Fin 3 → ℕ) a ≤ (⟨3, ![A, B, C]⟩ : Shape).size a) (u : Fin 1) (q : Fin B) (r : Fin C) :
    (Rect.unit (s := ⟨3, ![A, B, C]⟩) off ![1, B, C] inb).emb (ix3 u q r) = ix3 (⟨k, hk⟩ : Fin A) q r := by
  subst hoff
  funext a
  apply Fin.ext
  rw [Rect.emb_apply]
  match a with
  | ⟨0, _⟩ => show k + 1 * u.val = k; have := u.isLt; omega
  | ⟨1, _⟩ => show 0 + 1 * q.val = q.val; omega
  | ⟨2, _⟩ => show 0 + 1 * r.val = r.val; omega

/-- A load of row `k` of a block reads the block's entries of that row. -/
theorem ld_row {A B C : ℕ} {Val : EltTy → Type} {e : EltTy} (X : (⟨3, ![A, B, C]⟩ : Shape).Idx → Val e) (off : Fin 3 → ℕ) (k : ℕ) (hk : k < A)
    (hoff : off = ![k, 0, 0]) (inb : ∀ a, off a + (![1, B, C] : Fin 3 → ℕ) a ≤ (⟨3, ![A, B, C]⟩ : Shape).size a)
    (u : Fin 1) (q : Fin B) (r : Fin C) :
    View.ld X (Rect.unit (s := ⟨3, ![A, B, C]⟩) off ![1, B, C] inb) (ix3 u q r) = X (ix3 (⟨k, hk⟩ : Fin A) q r) :=
  congrArg X (emb_row off k hk hoff inb u q r)

/-- A load of a whole `[A, B]` buffer reads its entries. -/
theorem ld_whole2 {A B : ℕ} {Val : EltTy → Type} {e : EltTy} (X : (⟨2, ![A, B]⟩ : Shape).Idx → Val e)
    (inb : ∀ a, (![0, 0] : Fin 2 → ℕ) a + (![A, B] : Fin 2 → ℕ) a ≤ (⟨2, ![A, B]⟩ : Shape).size a) (p : Fin A) (q : Fin B) :
    View.ld X (Rect.unit (s := ⟨2, ![A, B]⟩) ![0, 0] ![A, B] inb) (ix2 p q) = X (ix2 p q) :=
  congrArg X (funext fun a => Fin.ext (by
    match a with
    | ⟨0, _⟩ => show 0 + 1 * p.val = p.val; omega
    | ⟨1, _⟩ => show 0 + 1 * q.val = q.val; omega))

/-- A load of a whole `[A, B]` buffer reads the buffer. -/
theorem ld_whole2_fun {A B : ℕ} {Val : EltTy → Type} {e : EltTy} (X : (⟨2, ![A, B]⟩ : Shape).Idx → Val e)
    (inb : ∀ a, (![0, 0] : Fin 2 → ℕ) a + (![A, B] : Fin 2 → ℕ) a ≤ (⟨2, ![A, B]⟩ : Shape).size a) :
    View.ld X (Rect.unit (s := ⟨2, ![A, B]⟩) ![0, 0] ![A, B] inb) = X :=
  funext fun j => by rw [eq_ix2 j]; exact ld_whole2 X inb _ _

/-- The logits of batch `y 0` of the blocks at slot `y 2` and tag `y 1`: what entry `y` of the output block ends holding. -/
def blockTag (x0 : Vec Ideal S4x512x768 .f32) (x1 : Vec Ideal S4x512x100 .f32) (x2 : Vec Ideal S4x1x512 .i32) (x3 : Vec Ideal S100x100 .f32) (x4 : Vec Ideal S1x100 .f32) (x5 : Vec Ideal S768x768 .f32) (x6 : Vec Ideal S100x768 .f32) (x7 : Vec Ideal S1x768 .f32) (x8 : Vec Ideal S768x3 .f32) (x9 : Vec Ideal S1x3 .f32) : S4x3x512.Idx → EReal := fun y =>
  Cert.Tagger.rowTag (fun l d => x0 (ix3 (y 0 : Fin 4) l d)) (fun l f => x1 (ix3 (y 0 : Fin 4) l f))
    (fun l => x2 (ix3 (y 0 : Fin 4) (0 : Fin 1) l))
    (fun f g => x3 (ix2 f g)) (fun g => x4 (ix2 (0 : Fin 1) g)) (fun c w => x5 (ix2 c w)) (fun g w => x6 (ix2 g w))
    (fun w => x7 (ix2 (0 : Fin 1) w)) (fun w t => x8 (ix2 w t)) (fun t => x9 (ix2 (0 : Fin 1) t)) (y 2 : Fin 512) (y 1 : Fin 3)

/-- Every piece the body writes holds, at each of its entries, the logit of the batch, slot and tag that entry names. -/
theorem pieces_agree (c : Dev nD) (i : grid0.Coords) (arg1 : Memref sig .tc .vmem S4x512x768 .f32) (harg1 : arg1.IsWhole) (arg2 : Memref sig .tc .vmem S4x512x100 .f32) (harg2 : arg2.IsWhole) (arg3 : Memref sig .tc .vmem S4x1x512 .i32) (harg3 : arg3.IsWhole) (arg4 : Memref sig .tc .vmem S100x100 .f32) (harg4 : arg4.IsWhole) (arg5 : Memref sig .tc .vmem S1x100 .f32) (harg5 : arg5.IsWhole) (arg6 : Memref sig .tc .vmem S768x768 .f32) (harg6 : arg6.IsWhole) (arg7 : Memref sig .tc .vmem S100x768 .f32) (harg7 : arg7.IsWhole) (arg8 : Memref sig .tc .vmem S1x768 .f32) (harg8 : arg8.IsWhole) (arg9 : Memref sig .tc .vmem S768x3 .f32) (harg9 : arg9.IsWhole) (arg10 : Memref sig .tc .vmem S1x3 .f32) (harg10 : arg10.IsWhole) (arg11 : Memref sig .tc .vmem S4x3x512 .f32) (harg11 : arg11.IsWhole) (x0 : Vec Ideal S4x512x768 .f32) (x1 : Vec Ideal S4x512x100 .f32) (x2 : Vec Ideal S4x1x512 .i32) (x3 : Vec Ideal S100x100 .f32) (x4 : Vec Ideal S1x100 .f32) (x5 : Vec Ideal S768x768 .f32) (x6 : Vec Ideal S100x768 .f32) (x7 : Vec Ideal S1x768 .f32) (x8 : Vec Ideal S768x3 .f32) (x9 : Vec Ideal S1x3 .f32) :
    ∀ p ∈ (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9).1, ∀ x : p.1.shape.Idx,
      p.2 x = blockTag x0 x1 x2 x3 x4 x5 x6 x7 x8 x9 (p.1.emb x) := by
  intro p hp x
  unfold kernelRun0_A at hp
  dsimp only at hp
  obtain ⟨k, hk⟩ := mem_pb _ c _ i arg1 harg1 arg2 harg2 arg3 harg3 arg4 harg4 arg5 harg5 arg6 harg6 arg7 harg7 arg8 harg8 arg9 harg9 arg10 harg10 arg11 harg11 _ _ _ _ _ _ _ _ _ _ p _ hp
  rw [trip_piece] at hk
  obtain rfl := List.mem_singleton.mp hk
  dsimp only
  obtain ⟨t, l, rfl⟩ : ∃ (t : Fin 3) (l : Fin 512), x = ix3 (0 : Fin 1) t l :=
    ⟨x 1, x 2, funext fun a => match a with
      | ⟨0, _⟩ => Fin.ext (by have h : (x 0).val < 1 := (x 0).isLt; show (x 0).val = 0; omega)
      | ⟨1, _⟩ => rfl | ⟨2, _⟩ => rfl⟩
  simp only [View.readAt_eq_ld, harg1.read_unread, harg2.read_unread, harg3.read_unread, harg4.read_unread,
    harg5.read_unread, harg6.read_unread, harg7.read_unread, harg8.read_unread, harg9.read_unread, harg10.read_unread]
  rw [ld_whole2_fun x3, ld_whole2_fun x4, ld_whole2_fun x5, ld_whole2_fun x6, ld_whole2_fun x7, ld_whole2_fun x8,
    ld_whole2_fun x9]
  refine (pay_apply _ _ _ _ _ _ _ _ _ _ t l).trans ?_
  rw [emb_row (A := 4) (B := 3) (C := 512) (k0_off4 k) k.val (trip_lt k) (k0_off4_eq k) (k0_off4_inb k) 0 t l]
  unfold blockTag
  simp only [
    ld_row (A := 4) (B := 512) (C := 768) x0 (k0_off1 k) k.val (trip_lt k) (k0_off1_eq k) (k0_off1_inb k),
    ld_row (A := 4) (B := 512) (C := 100) x1 (k0_off2 k) k.val (trip_lt k) (k0_off2_eq k) (k0_off2_inb k),
    ld_row (A := 4) (B := 1) (C := 512) x2 (k0_off3 k) k.val (trip_lt k) (k0_off3_eq k) (k0_off3_inb k)]

/-- Entry `(k, t, l)` of what the body leaves in the output block: the logit of batch `k` of the blocks, slot `l`, tag `t`. -/
theorem out_apply (c : Dev nD) (i : grid0.Coords) (arg1 : Memref sig .tc .vmem S4x512x768 .f32) (harg1 : arg1.IsWhole) (arg2 : Memref sig .tc .vmem S4x512x100 .f32) (harg2 : arg2.IsWhole) (arg3 : Memref sig .tc .vmem S4x1x512 .i32) (harg3 : arg3.IsWhole) (arg4 : Memref sig .tc .vmem S100x100 .f32) (harg4 : arg4.IsWhole) (arg5 : Memref sig .tc .vmem S1x100 .f32) (harg5 : arg5.IsWhole) (arg6 : Memref sig .tc .vmem S768x768 .f32) (harg6 : arg6.IsWhole) (arg7 : Memref sig .tc .vmem S100x768 .f32) (harg7 : arg7.IsWhole) (arg8 : Memref sig .tc .vmem S1x768 .f32) (harg8 : arg8.IsWhole) (arg9 : Memref sig .tc .vmem S768x3 .f32) (harg9 : arg9.IsWhole) (arg10 : Memref sig .tc .vmem S1x3 .f32) (harg10 : arg10.IsWhole) (arg11 : Memref sig .tc .vmem S4x3x512 .f32) (harg11 : arg11.IsWhole) (x0 : Vec Ideal S4x512x768 .f32) (x1 : Vec Ideal S4x512x100 .f32) (x2 : Vec Ideal S4x1x512 .i32) (x3 : Vec Ideal S100x100 .f32) (x4 : Vec Ideal S1x100 .f32) (x5 : Vec Ideal S768x768 .f32) (x6 : Vec Ideal S100x768 .f32) (x7 : Vec Ideal S1x768 .f32) (x8 : Vec Ideal S768x3 .f32) (x9 : Vec Ideal S1x3 .f32) (y : S4x3x512.Idx) :
    out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9 y
      = blockTag x0 x1 x2 x3 x4 x5 x6 x7 x8 x9 y := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9)]
  exact View.canon_apply_of_pieces (blockTag x0 x1 x2 x3 x4 x5 x6 x7 x8 x9) _
    (pieces_agree c i arg1 harg1 arg2 harg2 arg3 harg3 arg4 harg4 arg5 harg5 arg6 harg6 arg7 harg7 arg8 harg8 arg9 harg9 arg10 harg10 arg11 harg11 x0 x1 x2 x3 x4 x5 x6 x7 x8 x9) y
    (cover0_A_10 c i arg1 harg1 arg2 harg2 arg3 harg3 arg4 harg4 arg5 harg5 arg6 harg6 arg7 harg7 arg8 harg8 arg9 harg9 arg10 harg10 arg11 harg11 x0 x1 x2 x3 x4 x5 x6 x7 x8 x9 y)

end Cert.KernelIdeal.KValue

end
-- ==== Proof.KernelArr.lean ====
/-
  The kernel program's arrays and blocks, read on the extended reals.

  Before the region the host operations compute the slot table (one below the running count of the mask words for a
  token marked 1, else 512) and lay it out as `[64, 1, 512]`, cut the hidden weight into its first 768 and last 100 rows,
  and give the three bias vectors a leading unit axis. Grid point `t` works on batches `4t .. 4t+3`: block `t` of the
  sequence, the features and the slot table is rows `4t .. 4t+3` of those arrays, and the weights' one block is the whole
  array at every point. So entry `(4t + k, tag, l)` of the `[64, 3, 512]` result array is the logit of batch `4t + k`.
-/
import proofs.«425509_j56040733278608_3_alg».proof.Proof.KernelBlock
import Idealize.ShloMosaic.Lib.StableHlo.Run
import Idealize.ShloMosaic.Lib.Tactic

set_option maxRecDepth 16384

noncomputable section

namespace Cert.KernelIdeal.KValue

open Cert.KernelIdeal Cert.KernelIdeal.Gen Idealize.ShloMosaic Idealize.ShloMosaic.ValueIdx Idealize.ShloMosaic.TcCoe
open Idealize.SL Idealize.SL.Sem
open Idealize.ShloMosaic.Pipeline (Dat)

variable (m : (ℓ : Loc nD τ sig) → Buf (Elt Ideal) ℓ) (ρ : Dev nD → PrngReg)

/-- The slot table as the host operations before the region compute it. -/
def slotsK (vid : IVec S64x512 32) : IVec S64x512 32 :=
  select (cmpi .eq vid (broadcastInDim S64x512 ![] bcast_S_S64x512 (constantI S_ 32 1#32)))
    (subi (Host.reduceWindow IntOp.addi ![1, 512] ![1, 1] ![0, 511] ![0, 0] vid
        (broadcastInDim S_ ![] bcast_S_S_ (constantI S_ 32 0#32)) reduceWindows_S64x512_S64x512_w1s1p0_0_w512s1p511_0 h_S_)
      (broadcastInDim S64x512 ![] bcast_S_S64x512 (constantI S_ 32 1#32)))
    (broadcastInDim S64x512 ![] bcast_S_S64x512 (id (constantI S_ 32 512#32)))

attribute [local irreducible] Host.reduceWindow in
/-- Window 2's array: the slot table laid out as `[64, 1, 512]`. -/
theorem V_v6 (c : Dev nD) : (V m c main_v6 : S64x1x512.Idx → BitVec 32)
    = shapeCast S64x1x512 (slotsK (m ((c : Thread nD τ).loc main_arg2))) shapeCasts_S64x512_S64x1x512 := by
  dsimp only [V, V0]
  simp only [hostOps0, hostOps0_1, hostOps0_2, hostOps0_3, List.flatten_cons, List.flatten_nil, List.append_nil,
    List.cons_append, List.nil_append]
  after_results
  rfl

/-- Window 5's array: rows 0..767 of the hidden weight. -/
theorem V_v7 (c : Dev nD) : (V m c main_v7 : S768x768.Idx → EReal)
    = extractStridedSlice S768x768 ![0, 0] (m ((c : Thread nD τ).loc main_arg5)) slices_S868x768_S768x768_0_0 := by
  dsimp only [V, V0]
  simp only [hostOps0, hostOps0_1, hostOps0_2, hostOps0_3, List.flatten_cons, List.flatten_nil, List.append_nil,
    List.cons_append, List.nil_append]
  after_results

/-- Window 6's array: rows 768..867 of the hidden weight. -/
theorem V_v8 (c : Dev nD) : (V m c main_v8 : S100x768.Idx → EReal)
    = extractStridedSlice S100x768 ![768, 0] (m ((c : Thread nD τ).loc main_arg5)) slices_S868x768_S100x768_768_0 := by
  dsimp only [V, V0]
  simp only [hostOps0, hostOps0_1, hostOps0_2, hostOps0_3, List.flatten_cons, List.flatten_nil, List.append_nil,
    List.cons_append, List.nil_append]
  after_results

/-- Window 4's array: the enricher's bias as a row. -/
theorem V_v9 (c : Dev nD) : (V m c main_v9 : S1x100.Idx → EReal)
    = shapeCast S1x100 (m ((c : Thread nD τ).loc main_arg4)) shapeCasts_S100_S1x100 := by
  dsimp only [V, V0]
  simp only [hostOps0, hostOps0_1, hostOps0_2, hostOps0_3, List.flatten_cons, List.flatten_nil, List.append_nil,
    List.cons_append, List.nil_append]
  after_results
  rfl

/-- Window 7's array: the hidden bias as a row. -/
theorem V_v10 (c : Dev nD) : (V m c main_v10 : S1x768.Idx → EReal)
    = shapeCast S1x768 (m ((c : Thread nD τ).loc main_arg6)) shapeCasts_S768_S1x768 := by
  dsimp only [V, V0]
  simp only [hostOps0, hostOps0_1, hostOps0_2, hostOps0_3, List.flatten_cons, List.flatten_nil, List.append_nil,
    List.cons_append, List.nil_append]
  after_results
  rfl

/-- Window 9's array: the tag bias as a row. -/
theorem V_v11 (c : Dev nD) : (V m c main_v11 : S1x3.Idx → EReal)
    = shapeCast S1x3 (m ((c : Thread nD τ).loc main_arg8)) shapeCasts_S3_S1x3 := by
  dsimp only [V, V0]
  simp only [hostOps0, hostOps0_1, hostOps0_2, hostOps0_3, List.flatten_cons, List.flatten_nil, List.append_nil,
    List.cons_append, List.nil_append]
  after_results
  rfl

/-! ## The index maps, decided over the grid -/

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0) ∧ (win0_4.index t (0 : Fin 2) = 0 ∧ win0_4.index t (1 : Fin 2) = 0) ∧ (win0_5.index t (0 : Fin 2) = 0 ∧ win0_5.index t (1 : Fin 2) = 0) ∧ (win0_6.index t (0 : Fin 2) = 0 ∧ win0_6.index t (1 : Fin 2) = 0)
    ∧ (win0_7.index t (0 : Fin 2) = 0 ∧ win0_7.index t (1 : Fin 2) = 0) ∧ (win0_8.index t (0 : Fin 2) = 0 ∧ win0_8.index t (1 : Fin 2) = 0) ∧ (win0_9.index t (0 : Fin 2) = 0 ∧ win0_9.index t (1 : Fin 2) = 0)
    ∧ (win0_10.index t (0 : Fin 3) = t.val ∧ win0_10.index t (1 : Fin 3) = 0 ∧ win0_10.index t (2 : Fin 3) = 0) :=
  (by decide +kernel : ∀ t : Fin grid0.N, _)

theorem t_lt (t : Fin cfg0.N) : t.val < 16 := lt_of_lt_of_eq t.isLt N_0

/-! ## Each window's block at a point, read off its array -/

theorem blk0_read (c : Dev nD) (t : Fin cfg0.N) (k : Fin 4) (q : Fin 512) (r : Fin 768) (b : Fin 64)
    (hb : b.val = 4 * t.val + k.val) :
    (iblk m c 0 t : Vec Ideal S4x512x768 .f32) (ix3 k q r) = (V m c main_arg0 : S64x512x768.Idx → EReal) (ix3 b q r) := by
  obtain ⟨e0, e1, e2⟩ := (idx_facts t).1
  unfold iblk
  rw [View.read_apply]
  show V m c main_arg0 (((cfg0.win 0).blk t).view.emb (ix3 k q r)) = V m c main_arg0 (ix3 b q r)
  refine congrArg _ (funext fun a => Fin.ext ?_)
  match a with
  | ⟨0, _⟩ => show win0_0.index t (0 : Fin 3) * 4 + 1 * k.val = b.val; omega
  | ⟨1, _⟩ => show win0_0.index t (1 : Fin 3) * 512 + 1 * q.val = q.val; omega
  | ⟨2, _⟩ => show win0_0.index t (2 : Fin 3) * 768 + 1 * r.val = r.val; omega

theorem blk1_read (c : Dev nD) (t : Fin cfg0.N) (k : Fin 4) (q : Fin 512) (r : Fin 100) (b : Fin 64)
    (hb : b.val = 4 * t.val + k.val) :
    (iblk m c 1 t : Vec Ideal S4x512x100 .f32) (ix3 k q r) = (V m c main_arg1 : S64x512x100.Idx → EReal) (ix3 b q r) := by
  obtain ⟨e0, e1, e2⟩ := (idx_facts t).2.1
  unfold iblk
  rw [View.read_apply]
  show V m c main_arg1 (((cfg0.win 1).blk t).view.emb (ix3 k q r)) = V m c main_arg1 (ix3 b q r)
  refine congrArg _ (funext fun a => Fin.ext ?_)
  match a with
  | ⟨0, _⟩ => show win0_1.index t (0 : Fin 3) * 4 + 1 * k.val = b.val; omega
  | ⟨1, _⟩ => show win0_1.index t (1 : Fin 3) * 512 + 1 * q.val = q.val; omega
  | ⟨2, _⟩ => show win0_1.index t (2 : Fin 3) * 100 + 1 * r.val = r.val; omega

theorem blk2_read (c : Dev nD) (t : Fin cfg0.N) (k : Fin 4) (q : Fin 1) (r : Fin 512) (b : Fin 64)
    (hb : b.val = 4 * t.val + k.val) :
    (iblk m c 2 t : Vec Ideal S4x1x512 .i32) (ix3 k q r) = (V m c main_v6 : S64x1x512.Idx → BitVec 32) (ix3 b q r) := by
  obtain ⟨e0, e1, e2⟩ := (idx_facts t).2.2.1
  unfold iblk
  rw [View.read_apply]
  show V m c main_v6 (((cfg0.win 2).blk t).view.emb (ix3 k q r)) = V m c main_v6 (ix3 b q r)
  refine congrArg _ (funext fun a => Fin.ext ?_)
  match a with
  | ⟨0, _⟩ => show win0_2.index t (0 : Fin 3) * 4 + 1 * k.val = b.val; omega
  | ⟨1, _⟩ => show win0_2.index t (1 : Fin 3) * 1 + 1 * q.val = q.val; omega
  | ⟨2, _⟩ => show win0_2.index t (2 : Fin 3) * 512 + 1 * r.val = r.val; omega

theorem blk3_read (c : Dev nD) (t : Fin cfg0.N) (p : Fin 100) (q : Fin 100) :
    (iblk m c 3 t : Vec Ideal S100x100 .f32) (ix2 p q) = (V m c main_arg3 : S100x100.Idx → EReal) (ix2 p q) := by
  obtain ⟨e0, e1⟩ := (idx_facts t).2.2.2.1
  unfold iblk
  rw [View.read_apply]
  show V m c main_arg3 (((cfg0.win 3).blk t).view.emb (ix2 p q)) = V m c main_arg3 (ix2 p q)
  refine congrArg _ (funext fun a => Fin.ext ?_)
  match a with
  | ⟨0, _⟩ => show win0_3.index t (0 : Fin 2) * 100 + 1 * p.val = p.val; omega
  | ⟨1, _⟩ => show win0_3.index t (1 : Fin 2) * 100 + 1 * q.val = q.val; omega

theorem blk4_read (c : Dev nD) (t : Fin cfg0.N) (p : Fin 1) (q : Fin 100) :
    (iblk m c 4 t : Vec Ideal S1x100 .f32) (ix2 p q) = (V m c main_v9 : S1x100.Idx → EReal) (ix2 p q) := by
  obtain ⟨e0, e1⟩ := (idx_facts t).2.2.2.2.1
  unfold iblk
  rw [View.read_apply]
  show V m c main_v9 (((cfg0.win 4).blk t).view.emb (ix2 p q)) = V m c main_v9 (ix2 p q)
  refine congrArg _ (funext fun a => Fin.ext ?_)
  match a with
  | ⟨0, _⟩ => show win0_4.index t (0 : Fin 2) * 1 + 1 * p.val = p.val; omega
  | ⟨1, _⟩ => show win0_4.index t (1 : Fin 2) * 100 + 1 * q.val = q.val; omega

theorem blk5_read (c : Dev nD) (t : Fin cfg0.N) (p : Fin 768) (q : Fin 768) :
    (iblk m c 5 t : Vec Ideal S768x768 .f32) (ix2 p q) = (V m c main_v7 : S768x768.Idx → EReal) (ix2 p q) := by
  obtain ⟨e0, e1⟩ := (idx_facts t).2.2.2.2.2.1
  unfold iblk
  rw [View.read_apply]
  show V m c main_v7 (((cfg0.win 5).blk t).view.emb (ix2 p q)) = V m c main_v7 (ix2 p q)
  refine congrArg _ (funext fun a => Fin.ext ?_)
  match a with
  | ⟨0, _⟩ => show win0_5.index t (0 : Fin 2) * 768 + 1 * p.val = p.val; omega
  | ⟨1, _⟩ => show win0_5.index t (1 : Fin 2) * 768 + 1 * q.val = q.val; omega

theorem blk6_read (c : Dev nD) (t : Fin cfg0.N) (p : Fin 100) (q : Fin 768) :
    (iblk m c 6 t : Vec Ideal S100x768 .f32) (ix2 p q) = (V m c main_v8 : S100x768.Idx → EReal) (ix2 p q) := by
  obtain ⟨e0, e1⟩ := (idx_facts t).2.2.2.2.2.2.1
  unfold iblk
  rw [View.read_apply]
  show V m c main_v8 (((cfg0.win 6).blk t).view.emb (ix2 p q)) = V m c main_v8 (ix2 p q)
  refine congrArg _ (funext fun a => Fin.ext ?_)
  match a with
  | ⟨0, _⟩ => show win0_6.index t (0 : Fin 2) * 100 + 1 * p.val = p.val; omega
  | ⟨1, _⟩ => show win0_6.index t (1 : Fin 2) * 768 + 1 * q.val = q.val; omega

theorem blk7_read (c : Dev nD) (t : Fin cfg0.N) (p : Fin 1) (q : Fin 768) :
    (iblk m c 7 t : Vec Ideal S1x768 .f32) (ix2 p q) = (V m c main_v10 : S1x768.Idx → EReal) (ix2 p q) := by
  obtain ⟨e0, e1⟩ := (idx_facts t).2.2.2.2.2.2.2.1
  unfold iblk
  rw [View.read_apply]
  show V m c main_v10 (((cfg0.win 7).blk t).view.emb (ix2 p q)) = V m c main_v10 (ix2 p q)
  refine congrArg _ (funext fun a => Fin.ext ?_)
  match a with
  | ⟨0, _⟩ => show win0_7.index t (0 : Fin 2) * 1 + 1 * p.val = p.val; omega
  | ⟨1, _⟩ => show win0_7.index t (1 : Fin 2) * 768 + 1 * q.val = q.val; omega

theorem blk8_read (c : Dev nD) (t : Fin cfg0.N) (p : Fin 768) (q : Fin 3) :
    (iblk m c 8 t : Vec Ideal S768x3 .f32) (ix2 p q) = (V m c main_arg7 : S768x3.Idx → EReal) (ix2 p q) := by
  obtain ⟨e0, e1⟩ := (idx_facts t).2.2.2.2.2.2.2.2.1
  unfold iblk
  rw [View.read_apply]
  show V m c main_arg7 (((cfg0.win 8).blk t).view.emb (ix2 p q)) = V m c main_arg7 (ix2 p q)
  refine congrArg _ (funext fun a => Fin.ext ?_)
  match a with
  | ⟨0, _⟩ => show win0_8.index t (0 : Fin 2) * 768 + 1 * p.val = p.val; omega
  | ⟨1, _⟩ => show win0_8.index t (1 : Fin 2) * 3 + 1 * q.val = q.val; omega

theorem blk9_read (c : Dev nD) (t : Fin cfg0.N) (p : Fin 1) (q : Fin 3) :
    (iblk m c 9 t : Vec Ideal S1x3 .f32) (ix2 p q) = (V m c main_v11 : S1x3.Idx → EReal) (ix2 p q) := by
  obtain ⟨e0, e1⟩ := (idx_facts t).2.2.2.2.2.2.2.2.2.1
  unfold iblk
  rw [View.read_apply]
  show V m c main_v11 (((cfg0.win 9).blk t).view.emb (ix2 p q)) = V m c main_v11 (ix2 p q)
  refine congrArg _ (funext fun a => Fin.ext ?_)
  match a with
  | ⟨0, _⟩ => show win0_9.index t (0 : Fin 2) * 1 + 1 * p.val = p.val; omega
  | ⟨1, _⟩ => show win0_9.index t (1 : Fin 2) * 3 + 1 * q.val = q.val; omega

/-! ## Each block entry as an entry of the argument arrays -/

theorem seq_blk (c : Dev nD) (t : Fin cfg0.N) (k : Fin 4) (l : Fin 512) (d : Fin 768) (b : Fin 64) (hb : b.val = 4 * t.val + k.val) :
    (iblk m c 0 t : Vec Ideal S4x512x768 .f32) (ix3 k l d) = (m ((c : Thread nD τ).loc main_arg0)) (ix3 b l d) :=
  (blk0_read m c t k l d b hb).trans (congrFun (V_main_arg0 m c) _)

theorem feat_blk (c : Dev nD) (t : Fin cfg0.N) (k : Fin 4) (l : Fin 512) (f : Fin 100) (b : Fin 64) (hb : b.val = 4 * t.val + k.val) :
    (iblk m c 1 t : Vec Ideal S4x512x100 .f32) (ix3 k l f) = (m ((c : Thread nD τ).loc main_arg1)) (ix3 b l f) :=
  (blk1_read m c t k l f b hb).trans (congrFun (V_main_arg1 m c) _)

theorem slot_blk (c : Dev nD) (t : Fin cfg0.N) (k : Fin 4) (l : Fin 512) (b : Fin 64) (hb : b.val = 4 * t.val + k.val) :
    (iblk m c 2 t : Vec Ideal S4x1x512 .i32) (ix3 k (0 : Fin 1) l) = slotsK (m ((c : Thread nD τ).loc main_arg2)) (ix2 b l) := by
  refine (blk2_read m c t k 0 l b hb).trans ?_
  rw [V_v6]
  exact shapeCast_apply _ _ _ (ix2 b l) (by
    rw [Shape.rowMajor_val_two, Shape.rowMajor_val_three]
    show b.val * 512 + l.val = (b.val * 1 + 0) * 512 + l.val
    omega)

theorem enrW_blk (c : Dev nD) (t : Fin cfg0.N) (f g : Fin 100) :
    (iblk m c 3 t : Vec Ideal S100x100 .f32) (ix2 f g) = (m ((c : Thread nD τ).loc main_arg3)) (ix2 f g) :=
  (blk3_read m c t f g).trans (congrFun (V_main_arg3 m c) _)

theorem enrB_blk (c : Dev nD) (t : Fin cfg0.N) (g : Fin 100) :
    (iblk m c 4 t : Vec Ideal S1x100 .f32) (ix2 (0 : Fin 1) g) = (m ((c : Thread nD τ).loc main_arg4)) (ix1 g) := by
  refine (blk4_read m c t 0 g).trans ?_
  rw [V_v9]
  exact shapeCast_a_1a_apply _ _ 0 g

theorem w1a_blk (c : Dev nD) (t : Fin cfg0.N) (r : Fin 768) (w : Fin 768) :
    (iblk m c 5 t : Vec Ideal S768x768 .f32) (ix2 r w) = (m ((c : Thread nD τ).loc main_arg5)) (ix2 (Cert.Tagger.topRow r) w) := by
  refine (blk5_read m c t r w).trans ?_
  rw [V_v7]
  exact extractStridedSlice_apply _ _ _ _ (ix2 (Cert.Tagger.topRow r) w) fun a => match a with
    | ⟨0, _⟩ => (Nat.zero_add _).symm
    | ⟨1, _⟩ => (Nat.zero_add _).symm

theorem w1b_blk (c : Dev nD) (t : Fin cfg0.N) (g : Fin 100) (w : Fin 768) :
    (iblk m c 6 t : Vec Ideal S100x768 .f32) (ix2 g w) = (m ((c : Thread nD τ).loc main_arg5)) (ix2 (Cert.Tagger.lowRow g) w) := by
  refine (blk6_read m c t g w).trans ?_
  rw [V_v8]
  exact extractStridedSlice_apply _ _ _ _ (ix2 (Cert.Tagger.lowRow g) w) fun a => match a with
    | ⟨0, _⟩ => rfl
    | ⟨1, _⟩ => (Nat.zero_add _).symm

theorem b1_blk (c : Dev nD) (t : Fin cfg0.N) (w : Fin 768) :
    (iblk m c 7 t : Vec Ideal S1x768 .f32) (ix2 (0 : Fin 1) w) = (m ((c : Thread nD τ).loc main_arg6)) (ix1 w) := by
  refine (blk7_read m c t 0 w).trans ?_
  rw [V_v10]
  exact shapeCast_a_1a_apply _ _ 0 w

theorem w2_blk (c : Dev nD) (t : Fin cfg0.N) (w : Fin 768) (g : Fin 3) :
    (iblk m c 8 t : Vec Ideal S768x3 .f32) (ix2 w g) = (m ((c : Thread nD τ).loc main_arg7)) (ix2 w g) :=
  (blk8_read m c t w g).trans (congrFun (V_main_arg7 m c) _)

theorem b2_blk (c : Dev nD) (t : Fin cfg0.N) (g : Fin 3) :
    (iblk m c 9 t : Vec Ideal S1x3 .f32) (ix2 (0 : Fin 1) g) = (m ((c : Thread nD τ).loc main_arg8)) (ix1 g) := by
  refine (blk9_read m c t 0 g).trans ?_
  rw [V_v11]
  exact shapeCast_a_1a_apply _ _ 0 g

/-! ## The output block after a point, and the result array -/

/-- Entry `y` of what the body leaves in the output block at point `t`: the logit of the batch, slot and tag `y` names, over
    the point's blocks. -/
theorem outsAt_apply (c : Dev nD) (t : Fin cfg0.N) (y : S4x3x512.Idx) :
    outsAt0 m c t y = blockTag (iblk m c 0 t) (iblk m c 1 t) (iblk m c 2 t) (iblk m c 3 t) (iblk m c 4 t) (iblk m c 5 t) (iblk m c 6 t) (iblk m c 7 t) (iblk m c 8 t) (iblk m c 9 t) y := by
  unfold outsAt0
  exact out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (iblk m c 8 t) (iblk m c 9 t) y

/-- Congruence of the per-batch logit in its ten array arguments. -/
theorem rowTag_congr {sq sq' : Fin 512 → Fin 768 → EReal} {ft ft' : Fin 512 → Fin 100 → EReal} {tg tg' : Fin 512 → BitVec 32}
    {eW eW' : Fin 100 → Fin 100 → EReal} {eB eB' : Fin 100 → EReal} {wa wa' : Fin 768 → Fin 768 → EReal}
    {wb wb' : Fin 100 → Fin 768 → EReal} {c1 c1' : Fin 768 → EReal} {w2 w2' : Fin 768 → Fin 3 → EReal} {c2 c2' : Fin 3 → EReal}
    (h0 : ∀ l d, sq l d = sq' l d) (h1 : ∀ l f, ft l f = ft' l f) (h2 : ∀ l, tg l = tg' l) (h3 : ∀ f g, eW f g = eW' f g)
    (h4 : ∀ g, eB g = eB' g) (h5 : ∀ c w, wa c w = wa' c w) (h6 : ∀ g w, wb g w = wb' g w) (h7 : ∀ w, c1 w = c1' w)
    (h8 : ∀ w t, w2 w t = w2' w t) (h9 : ∀ t, c2 t = c2' t) (l : Fin 512) (t : Fin 3) :
    Cert.Tagger.rowTag sq ft tg eW eB wa wb c1 w2 c2 l t = Cert.Tagger.rowTag sq' ft' tg' eW' eB' wa' wb' c1' w2' c2' l t := by
  obtain rfl : sq = sq' := funext fun l => funext (h0 l)
  obtain rfl : ft = ft' := funext fun l => funext (h1 l)
  obtain rfl : tg = tg' := funext h2
  obtain rfl : eW = eW' := funext fun f => funext (h3 f)
  obtain rfl : eB = eB' := funext h4
  obtain rfl : wa = wa' := funext fun c => funext (h5 c)
  obtain rfl : wb = wb' := funext fun g => funext (h6 g)
  obtain rfl : c1 = c1' := funext h7
  obtain rfl : w2 = w2' := funext fun w => funext (h8 w)
  obtain rfl : c2 = c2' := funext h9
  rfl

/-- The result array `[64, 3, 512]` of the region: entry `(b, tag, l)` is the logit of batch `b`, slot `l`. -/
def tagT (c : Dev nD) : S64x3x512.Idx → EReal := fun y =>
  Cert.Tagger.tag (m ((c : Thread nD τ).loc main_arg0)) (m ((c : Thread nD τ).loc main_arg1)) (slotsK (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (y 0 : Fin 64) (y 2 : Fin 512) (y 1 : Fin 3)

/-- What point `t` writes back is block `t` of that array: rows `4t .. 4t+3`. -/
theorem flushed_eq (c : Dev nD) (t : Fin cfg0.N) :
    (dats m 0 c).flushed 10 t = ((cfg0.win 10).blk t).view.read (Elt Ideal) (tagT m c) := by
  show (cfg0.win 10).cut (grid0.coords t) ((dats m 0 c).after 10 t) = _
  rw [after0_10]
  have hN := t_lt t
  obtain ⟨e0, e1, e2⟩ := (idx_facts t).2.2.2.2.2.2.2.2.2.2
  funext j
  show outsAt0 m c t j = tagT m c (((cfg0.win 10).blk t).view.emb j)
  rw [outsAt_apply]
  obtain ⟨k, tt, l, rfl⟩ : ∃ (k : Fin 4) (tt : Fin 3) (l : Fin 512), j = ix3 k tt l := ⟨j 0, j 1, j 2, eq_ix3 j⟩
  have hE : ((cfg0.win 10).blk t).view.emb (ix3 k tt l) = ix3 (⟨4 * t.val + k.val, by have := k.isLt; omega⟩ : Fin 64) tt l := by
    funext a; apply Fin.ext
    match a with
    | ⟨0, _⟩ => show win0_10.index t (0 : Fin 3) * 4 + 1 * k.val = 4 * t.val + k.val; omega
    | ⟨1, _⟩ => show win0_10.index t (1 : Fin 3) * 3 + 1 * tt.val = tt.val; omega
    | ⟨2, _⟩ => show win0_10.index t (2 : Fin 3) * 512 + 1 * l.val = l.val; omega
  rw [hE]
  unfold blockTag tagT Cert.Tagger.tag
  exact rowTag_congr (fun l' d => seq_blk m c t k l' d _ rfl) (fun l' f => feat_blk m c t k l' f _ rfl)
    (fun l' => slot_blk m c t k l' _ rfl) (fun f g => enrW_blk m c t f g) (fun g => enrB_blk m c t g)
    (fun r w => w1a_blk m c t r w) (fun g w => w1b_blk m c t g w) (fun w => b1_blk m c t w)
    (fun w g => w2_blk m c t w g) (fun g => b2_blk m c t g) l tt

/-- Every entry of the result array is in the block of the point that works on its batch. -/
theorem covered (c : Dev nD) (i : S64x3x512.Idx) :
    ∃ t : Fin cfg0.N, (cfg0.win 10).flush t = true ∧ i ∈ ((cfg0.win 10).blk t).view.set := by
  have h0 : (i 0).val < 64 := (i 0).isLt
  have h1 : (i 1).val < 3 := (i 1).isLt
  have h2 : (i 2).val < 512 := (i 2).isLt
  have hlt : (i 0).val / 4 < cfg0.N := by rw [show cfg0.N = 16 from N_0]; omega
  obtain ⟨e0, e1, e2⟩ := (idx_facts ⟨(i 0).val / 4, hlt⟩).2.2.2.2.2.2.2.2.2.2
  refine ⟨⟨(i 0).val / 4, hlt⟩, flush0_10 _, ?_⟩
  show i ∈ ((View.whole main_v12).slice (win0_10.rect ⟨(i 0).val / 4, hlt⟩)).set
  rw [View.set_slice_whole, Rect.mem_set_unit]
  intro a
  match a with
  | ⟨0, _⟩ =>
    show win0_10.index ⟨(i 0).val / 4, hlt⟩ (0 : Fin 3) * 4 ≤ (i 0).val ∧ (i 0).val < win0_10.index ⟨(i 0).val / 4, hlt⟩ (0 : Fin 3) * 4 + 4
    rw [e0]; dsimp only; omega
  | ⟨1, _⟩ =>
    show win0_10.index ⟨(i 0).val / 4, hlt⟩ (1 : Fin 3) * 3 ≤ (i 1).val ∧ (i 1).val < win0_10.index ⟨(i 0).val / 4, hlt⟩ (1 : Fin 3) * 3 + 3
    rw [e1]; omega
  | ⟨2, _⟩ =>
    show win0_10.index ⟨(i 0).val / 4, hlt⟩ (2 : Fin 3) * 512 ≤ (i 2).val ∧ (i 2).val < win0_10.index ⟨(i 0).val / 4, hlt⟩ (2 : Fin 3) * 512 + 512
    rw [e2]; omega

/-- So the region's result array ends holding the logits, transposed. -/
theorem final (c : Dev nD) : (dats m 0 c).arrAt 10 cfg0.N = tagT m c :=
  (dats m 0 c).arrAt_eq_of_cover 10 (tagT m c) (fun t _ => flushed_eq m c t) (covered c)

/-! ## After the region: the transpose back, and the class head -/

theorem tail_tag (c : Dev nD) :
    (Pipeline.afterTail₀ cfgs (dats m) 0 (V0 m) [hostOps1] c main_v13 : S64x512x3.Idx → EReal)
      = Cert.Tagger.tagArr (m ((c : Thread nD τ).loc main_arg0)) (m ((c : Thread nD τ).loc main_arg1)) (slotsK (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v12) = tagT m c from
    (Pipeline.withArrays_arr spec0 launch0.win.arr_inj c _ _ 10).trans (final m c)]
  funext j
  obtain ⟨b, l, t, rfl⟩ : ∃ (b : Fin 64) (l : Fin 512) (t : Fin 3), j = ix3 b l t := ⟨j 0, j 1, j 2, eq_ix3 j⟩
  exact (transpose_ix3_021_apply (tagT m c) _ b l t).trans rfl

/-- The class logits as the host operations after the region compute them: the first token's row of every batch through the
    class projection, plus its bias. -/
def clsK (seq : FVec Ideal S64x512x768 .f32) (clsW : FVec Ideal S768x2 .f32) (clsB : FVec Ideal S2 .f32) : FVec Ideal S64x2 .f32 :=
  addf (Host.dotGeneral dot_S64x768_S768x2_S64x2_1_0_0_1_n_n none
      (shapeCast S64x768 (extractStridedSlice S64x1x768 ![0, 0, 0] seq slices_S64x512x768_S64x1x768_0_0_0)
        shapeCasts_S64x1x768_S64x768) clsW)
    (broadcastInDim S64x2 ![0, 1] bcast_S1x2_S64x2_0_1 (broadcastInDim S1x2 ![1] bcast_S2_S1x2_1 clsB))

theorem tail_cls (c : Dev nD) :
    (Pipeline.afterTail₀ cfgs (dats m) 0 (V0 m) [hostOps1] c main_v19 : S64x2.Idx → EReal)
      = clsK (m ((c : Thread nD τ).loc main_arg0)) (m ((c : Thread nD τ).loc main_arg9)) (m ((c : Thread nD τ).loc main_arg10)) := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_arg0) = (m ((c : Thread nD τ).loc main_arg0)) from
      (Pipeline.withArrays_arr spec0 launch0.win.arr_inj c _ _ 0).trans
        (((dats m 0 c).arrAt_in 0 rfl _).trans ((A_eq m c 0).trans (V_main_arg0 m c))),
    show Pipeline.withArrays (cfgs 0).spec c (V0 m c) (fun w => (dats m 0 c).arrAt w (cfgs 0).N) (Proc.devRef .tc main_arg9) = (m ((c : Thread nD τ).loc main_arg9)) from
      (Pipeline.withArrays_of_ne _ c (V0 m c) _ main_arg9 (by exact (by decide : ∀ w, Pipeline.arrRef spec0 w ≠ main_arg9))).trans
        (V_main_arg9 m c),
    show Pipeline.withArrays (cfgs 0).spec c (V0 m c) (fun w => (dats m 0 c).arrAt w (cfgs 0).N) (Proc.devRef .tc main_arg10) = (m ((c : Thread nD τ).loc main_arg10)) from
      (Pipeline.withArrays_of_ne _ c (V0 m c) _ main_arg10 (by exact (by decide : ∀ w, Pipeline.arrRef spec0 w ≠ main_arg10))).trans
        (V_main_arg10 m c)]
  rfl

/-! ## The run, read -/

/-- Every weakly fair execution of the kernel program ends with the class logits and the tag logits at these functions of
    the arguments, the arguments unchanged. -/
theorem run : θ_run defs (onTc (τ := τ) (main (F := Ideal))) ⟨m, fun _ => 0, ρ⟩ fun r => ∀ c : Dev nD,
      r.2.mem ((c.tc : Thread nD τ).loc main_v19) = clsK (m ((c : Thread nD τ).loc main_arg0)) (m ((c : Thread nD τ).loc main_arg9)) (m ((c : Thread nD τ).loc main_arg10))
      ∧ r.2.mem ((c.tc : Thread nD τ).loc main_v13)
          = Cert.Tagger.tagArr (m ((c : Thread nD τ).loc main_arg0)) (m ((c : Thread nD τ).loc main_arg1)) (slotsK (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨
      ((h c).2 main_v19 (Pipeline.mem_restRefs_of main_v19 (by decide) (by decide))).trans (tail_cls m c),
      ((h c).2 main_v13 (Pipeline.mem_restRefs_of main_v13 (by decide) (by decide))).trans (tail_tag m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 8).trans (((dats m 0 c).arrAt_in 8 rfl _).trans ((A_eq m c 8).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.KValue

end
-- ==== Proof.RefTerm.lean ====
/-
  The reference program's two results as pure terms of its argument arrays, stage by stage, in the order of its
  operations.

  `slots`: the destination slot of every source token — one below the running count (along the sequence) of the mask
  words up to and including the token, where the token's mask word is 1; the slot 512 elsewhere.
  `wrapped`: a negative slot is increased by the 513 rows of the buffer written into.
  `compacted`: every token's row written to row (batch, slot) of a zero buffer of 513 rows per batch; rows 0..511 kept.
  `enrichedR`, `hiddenR`, `tagR`: the two linear layers with their rectifiers over the packed rows and the enriched
  features laid side by side, then the tag projection. `clsR`: the first token's row through the class projection.
-/
import proofs.«425509_j56040733278608_3_alg».proof.Proof.Gen.ReferenceIdeal

noncomputable section

namespace Cert.ReferenceIdeal.RefValue

open Cert.ReferenceIdeal Idealize.ShloMosaic
open Cert.ReferenceIdeal.Facts₀ Cert.ReferenceIdeal.Facts

variable {F : FTy → Type} [FloatOps F]

/-- The slot table (the program's %7). -/
def slots (vid : IVec S64x512 32) : IVec S64x512 32 :=
  select (cmpi .eq vid (broadcastInDim S64x512 ![] bcast_S_S64x512 (constantI S_ 32 1#32)))
    (subi (Host.reduceWindow IntOp.addi ![1, 512] ![1, 1] ![0, 511] ![0, 0] vid
        (broadcastInDim S_ ![] bcast_S_S_ (constantI S_ 32 0#32)) reduceWindows_S64x512_S64x512_w1s1p0_0_w512s1p511_0 h_S_)
      (broadcastInDim S64x512 ![] bcast_S_S64x512 (constantI S_ 32 1#32)))
    (broadcastInDim S64x512 ![] bcast_S_S64x512 (id (constantI S_ 32 512#32)))

/-- The batch number of every batch, as a column, after the negative-index adjustment (the program's %15). -/
def batchCol : IVec S64x1 32 :=
  select (cmpi .slt (broadcastInDim S64x1 ![0] bcast_S64_S64x1_0 (iotaInDim S64 32 0))
      (broadcastInDim S64x1 ![] bcast_S_S64x1 (constantI S_ 32 0#32)))
    (addi (broadcastInDim S64x1 ![0] bcast_S64_S64x1_0 (iotaInDim S64 32 0))
      (broadcastInDim S64x1 ![] bcast_S_S64x1 (constantI S_ 32 64#32)))
    (broadcastInDim S64x1 ![0] bcast_S64_S64x1_0 (iotaInDim S64 32 0))

/-- A slot table after the negative-index adjustment (the program's %20 over %7). -/
def wrapped (t : IVec S64x512 32) : IVec S64x512 32 :=
  select (cmpi .slt t (broadcastInDim S64x512 ![] bcast_S_S64x512 (constantI S_ 32 0#32)))
    (addi t (broadcastInDim S64x512 ![] bcast_S_S64x512 (constantI S_ 32 513#32))) t

/-- The (batch, slot) pair of every source token (the program's %24). -/
def pairs (t : IVec S64x512 32) : IVec S64x512x2 32 :=
  concatenate S64x512x2 2
    [⟨S64x512x1, broadcastInDim S64x512x1 ![0, 1] bcast_S64x512_S64x512x1_0_1
        (broadcastInDim S64x512 ![0, 1] bcast_S64x1_S64x512_0_1 batchCol)⟩,
     ⟨S64x512x1, broadcastInDim S64x512x1 ![0, 1] bcast_S64x512_S64x512x1_0_1 (wrapped t)⟩]
    concatenates_S64x512x1_S64x512x1_S64x512x2_d2

/-- The packed sequence (the program's %26). -/
def compacted (seq : FVec F S64x512x768 .f32) (t : IVec S64x512 32) : FVec F S64x512x768 .f32 :=
  extractStridedSlice S64x512x768 ![0, 0, 0]
    (Host.scatter scatter_S64x513x768_S64x512x2_S64x512x768_2_01_01_2 (fun _ b => b)
      (broadcastInDim S64x513x768 ![] bcast_S_S64x513x768 (constant S_ .f32 0x00000000#32)) (pairs t) seq)
    slices_S64x513x768_S64x512x768_0_0_0

/-- The enriched features (the program's %31). -/
def enrichedR (feat : FVec F S64x512x100 .f32) (enrW : FVec F S100x100 .f32) (enrB : FVec F S100 .f32) :
    FVec F S64x512x100 .f32 :=
  maximumf
    (addf (Host.dotGeneral dot_S64x512x100_S100x100_S64x512x100_2_0_01_1_n_n none feat enrW)
      (broadcastInDim S64x512x100 ![0, 1, 2] bcast_S1x1x100_S64x512x100_0_1_2
        (broadcastInDim S1x1x100 ![2] bcast_S100_S1x1x100_2 enrB)))
    (broadcastInDim S64x512x100 ![] bcast_S_S64x512x100 (constant S_ .f32 0x00000000#32))

/-- The hidden layer (the program's %37). -/
def hiddenR (vo : FVec F S64x512x768 .f32) (en : FVec F S64x512x100 .f32) (w1 : FVec F S868x768 .f32)
    (b1 : FVec F S768 .f32) : FVec F S64x512x768 .f32 :=
  maximumf
    (addf (Host.dotGeneral dot_S64x512x868_S868x768_S64x512x768_2_0_01_1_n_n none
        (concatenate S64x512x868 2 [⟨S64x512x768, vo⟩, ⟨S64x512x100, en⟩]
          concatenates_S64x512x768_S64x512x100_S64x512x868_d2) w1)
      (broadcastInDim S64x512x768 ![0, 1, 2] bcast_S1x1x768_S64x512x768_0_1_2
        (broadcastInDim S1x1x768 ![2] bcast_S768_S1x1x768_2 b1)))
    (broadcastInDim S64x512x768 ![] bcast_S_S64x512x768 (constant S_ .f32 0x00000000#32))

/-- The token-tag logits (the program's %41). -/
def tagR (seq : FVec F S64x512x768 .f32) (feat : FVec F S64x512x100 .f32) (vid : IVec S64x512 32)
    (enrW : FVec F S100x100 .f32) (enrB : FVec F S100 .f32) (w1 : FVec F S868x768 .f32) (b1 : FVec F S768 .f32)
    (w2 : FVec F S768x3 .f32) (b2 : FVec F S3 .f32) : FVec F S64x512x3 .f32 :=
  addf (Host.dotGeneral dot_S64x512x768_S768x3_S64x512x3_2_0_01_1_n_n none
      (hiddenR (compacted seq (slots vid)) (enrichedR feat enrW enrB) w1 b1) w2)
    (broadcastInDim S64x512x3 ![0, 1, 2] bcast_S1x1x3_S64x512x3_0_1_2
      (broadcastInDim S1x1x3 ![2] bcast_S3_S1x1x3_2 b2))

/-- The class logits (the program's %45). -/
def clsR (seq : FVec F S64x512x768 .f32) (clsW : FVec F S768x2 .f32) (clsB : FVec F S2 .f32) : FVec F S64x2 .f32 :=
  addf (Host.dotGeneral dot_S64x768_S768x2_S64x2_1_0_0_1_n_n none
      (shapeCast S64x768 (extractStridedSlice S64x1x768 ![0, 0, 0] seq slices_S64x512x768_S64x1x768_0_0_0)
        shapeCasts_S64x1x768_S64x768) clsW)
    (broadcastInDim S64x2 ![0, 1] bcast_S1x2_S64x2_0_1 (broadcastInDim S1x2 ![1] bcast_S2_S1x2_1 clsB))

end Cert.ReferenceIdeal.RefValue

end
-- ==== Proof.RefRun.lean ====
/-
  The reference program's run: every weakly fair execution ends with the class logits and the tag logits at the composed
  terms of RefTerm, the arguments unchanged.

  @main is a straight line of 62 tensor operations once the four calls (the running count, the selection, the two
  rectifiers) are replaced by their bodies over the calls' own buffers. The buffers after such a line are the fold of
  the operations' results over the launch contents; read at the two result buffers the fold is the stage-by-stage term of
  RefTerm, and at an argument's buffer it is what was there, since no operation writes an argument.
-/
import proofs.«425509_j56040733278608_3_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

namespace RefRun

/-! ## The operations

The two concatenations are named functions of their two operands, so that the contents of an operand is an ordinary
argument of the operation's function. -/

/-- Two columns laid side by side along the last axis (the program's %24). -/
abbrev catPairs (a b : (⟨S64x512x1, .i32⟩ : BufTy).Contents (Elt F)) : (⟨S64x512x2, .i32⟩ : BufTy).Contents (Elt F) :=
  concatenate S64x512x2 2 [⟨S64x512x1, a⟩, ⟨S64x512x1, b⟩] concatenates_S64x512x1_S64x512x1_S64x512x2_d2

/-- The packed rows and the enriched features laid side by side along the last axis (the program's %32). -/
abbrev catHid (a : (⟨S64x512x768, .f32⟩ : BufTy).Contents (Elt F)) (b : (⟨S64x512x100, .f32⟩ : BufTy).Contents (Elt F)) :
    (⟨S64x512x868, .f32⟩ : BufTy).Contents (Elt F) :=
  concatenate S64x512x868 2 [⟨S64x512x768, a⟩, ⟨S64x512x100, b⟩] concatenates_S64x512x768_S64x512x100_S64x512x868_d2

/-- @main's 62 operations, in order. Each call is its callee's body at the call site, over the call's buffers: the
    running count is three operations (the zero, its broadcast, the windowed sum), the selection three (the scalar
    converted to its own type, its broadcast, the select), each rectifier three (the zero, its broadcast, the maximum). -/
abbrev ops : List (HloOp τ sig (Elt F)) :=
  [ unary main_arg0 main_v0 ((extractStridedSlice S64x1x768 ![0, 0, 0] · slices_S64x512x768_S64x1x768_0_0_0) : (⟨S64x512x768, .f32⟩ : BufTy).Contents (Elt F) → (⟨S64x1x768, .f32⟩ : BufTy).Contents (Elt F)),
    reshape main_v0 main_v1 rfl shapeCasts_S64x1x768_S64x768,
    TRef.nullary main_call0.call0.c (constantI S_ 32 0#32),
    TRef.unary main_call0.call0.c main_call0.call0.v0 (broadcastInDim S_ ![] bcast_S_S_),
    TRef.binary (.of main_arg2 : TRef sig ⟨S64x512, .i32⟩) main_call0.call0.v0 main_call0.call0.v1 (fun x v => Host.reduceWindow IntOp.addi ![1, 512] ![1, 1] ![0, 511] ![0, 0] x v reduceWindows_S64x512_S64x512_w1s1p0_0_w512s1p511_0 h_S_),
    nullary main_c (constantI S_ 32 1#32),
    unary main_c main_v3 (broadcastInDim S64x512 ![] bcast_S_S64x512 : (⟨S_, .i32⟩ : BufTy).Contents (Elt F) → (⟨S64x512, .i32⟩ : BufTy).Contents (Elt F)),
    binary main_v2 main_v3 main_v4 (subi : (⟨S64x512, .i32⟩ : BufTy).Contents (Elt F) → (⟨S64x512, .i32⟩ : BufTy).Contents (Elt F) → (⟨S64x512, .i32⟩ : BufTy).Contents (Elt F)),
    nullary main_c_0 (constantI S_ 32 1#32),
    unary main_c_0 main_v5 (broadcastInDim S64x512 ![] bcast_S_S64x512 : (⟨S_, .i32⟩ : BufTy).Contents (Elt F) → (⟨S64x512, .i32⟩ : BufTy).Contents (Elt F)),
    binary main_arg2 main_v5 main_v6 (cmpi .eq : (⟨S64x512, .i32⟩ : BufTy).Contents (Elt F) → (⟨S64x512, .i32⟩ : BufTy).Contents (Elt F) → (⟨S64x512, .i1⟩ : BufTy).Contents (Elt F)),
    nullary main_c_1 (constantI S_ 32 512#32),
    TRef.unary (.of main_c_1 : TRef sig ⟨S_, .i32⟩) main_call1.v0 id,
    TRef.unary main_call1.v0 main_call1.v1 (broadcastInDim S64x512 ![] bcast_S_S64x512),
    TRef.ternary (.of main_v6 : TRef sig ⟨S64x512, .i1⟩) (.of main_v4 : TRef sig ⟨S64x512, .i32⟩) main_call1.v1 main_call1.v2 select,
    nullary main_cst (constant S_ .f32 0x00000000#32),
    unary main_cst main_v8 (broadcastInDim S64x513x768 ![] bcast_S_S64x513x768 : (⟨S_, .f32⟩ : BufTy).Contents (Elt F) → (⟨S64x513x768, .f32⟩ : BufTy).Contents (Elt F)),
    nullary main_v9 (iotaInDim S64 32 0),
    unary main_v9 main_v10 (broadcastInDim S64x1 ![0] bcast_S64_S64x1_0 : (⟨S64, .i32⟩ : BufTy).Contents (Elt F) → (⟨S64x1, .i32⟩ : BufTy).Contents (Elt F)),
    nullary main_c_2 (constantI S_ 32 0#32),
    unary main_c_2 main_v11 (broadcastInDim S64x1 ![] bcast_S_S64x1 : (⟨S_, .i32⟩ : BufTy).Contents (Elt F) → (⟨S64x1, .i32⟩ : BufTy).Contents (Elt F)),
    binary main_v10 main_v11 main_v12 (cmpi .slt : (⟨S64x1, .i32⟩ : BufTy).Contents (Elt F) → (⟨S64x1, .i32⟩ : BufTy).Contents (Elt F) → (⟨S64x1, .i1⟩ : BufTy).Contents (Elt F)),
    nullary main_c_3 (constantI S_ 32 64#32),
    unary main_c_3 main_v13 (broadcastInDim S64x1 ![] bcast_S_S64x1 : (⟨S_, .i32⟩ : BufTy).Contents (Elt F) → (⟨S64x1, .i32⟩ : BufTy).Contents (Elt F)),
    binary main_v10 main_v13 main_v14 (addi : (⟨S64x1, .i32⟩ : BufTy).Contents (Elt F) → (⟨S64x1, .i32⟩ : BufTy).Contents (Elt F) → (⟨S64x1, .i32⟩ : BufTy).Contents (Elt F)),
    ternary main_v12 main_v14 main_v10 main_v15 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_4 (constantI S_ 32 0#32),
    unary main_c_4 main_v16 (broadcastInDim S64x512 ![] bcast_S_S64x512 : (⟨S_, .i32⟩ : BufTy).Contents (Elt F) → (⟨S64x512, .i32⟩ : BufTy).Contents (Elt F)),
    binary main_v7 main_v16 main_v17 (cmpi .slt : (⟨S64x512, .i32⟩ : BufTy).Contents (Elt F) → (⟨S64x512, .i32⟩ : BufTy).Contents (Elt F) → (⟨S64x512, .i1⟩ : BufTy).Contents (Elt F)),
    nullary main_c_5 (constantI S_ 32 513#32),
    unary main_c_5 main_v18 (broadcastInDim S64x512 ![] bcast_S_S64x512 : (⟨S_, .i32⟩ : BufTy).Contents (Elt F) → (⟨S64x512, .i32⟩ : BufTy).Contents (Elt F)),
    binary main_v7 main_v18 main_v19 (addi : (⟨S64x512, .i32⟩ : BufTy).Contents (Elt F) → (⟨S64x512, .i32⟩ : BufTy).Contents (Elt F) → (⟨S64x512, .i32⟩ : BufTy).Contents (Elt F)),
    ternary main_v17 main_v19 main_v7 main_v20 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
    unary main_v15 main_v21 (broadcastInDim S64x512 ![0, 1] bcast_S64x1_S64x512_0_1 : (⟨S64x1, .i32⟩ : BufTy).Contents (Elt F) → (⟨S64x512, .i32⟩ : BufTy).Contents (Elt F)),
    unary main_v21 main_v22 (broadcastInDim S64x512x1 ![0, 1] bcast_S64x512_S64x512x1_0_1 : (⟨S64x512, .i32⟩ : BufTy).Contents (Elt F) → (⟨S64x512x1, .i32⟩ : BufTy).Contents (Elt F)),
    unary main_v20 main_v23 (broadcastInDim S64x512x1 ![0, 1] bcast_S64x512_S64x512x1_0_1 : (⟨S64x512, .i32⟩ : BufTy).Contents (Elt F) → (⟨S64x512x1, .i32⟩ : BufTy).Contents (Elt F)),
    binary main_v22 main_v23 main_v24 (catPairs (F := F)),
    ternary main_v8 main_v24 main_arg0 main_v25 ((fun x i u => Host.scatter scatter_S64x513x768_S64x512x2_S64x512x768_2_01_01_2 (fun _ b => b) x i u) : (⟨S64x513x768, .f32⟩ : BufTy).Contents (Elt F) → (⟨S64x512x2, .i32⟩ : BufTy).Contents (Elt F) → (⟨S64x512x768, .f32⟩ : BufTy).Contents (Elt F) → (⟨S64x513x768, .f32⟩ : BufTy).Contents (Elt F)),
    unary main_v25 main_v26 ((extractStridedSlice S64x512x768 ![0, 0, 0] · slices_S64x513x768_S64x512x768_0_0_0) : (⟨S64x513x768, .f32⟩ : BufTy).Contents (Elt F) → (⟨S64x512x768, .f32⟩ : BufTy).Contents (Elt F)),
    binary main_arg1 main_arg3 main_v27 ((fun l r => Host.dotGeneral dot_S64x512x100_S100x100_S64x512x100_2_0_01_1_n_n none l r) : (⟨S64x512x100, .f32⟩ : BufTy).Contents (Elt F) → (⟨S100x100, .f32⟩ : BufTy).Contents (Elt F) → (⟨S64x512x100, .f32⟩ : BufTy).Contents (Elt F)),
    unary main_arg4 main_v28 (broadcastInDim S1x1x100 ![2] bcast_S100_S1x1x100_2 : (⟨S100, .f32⟩ : BufTy).Contents (Elt F) → (⟨S1x1x100, .f32⟩ : BufTy).Contents (Elt F)),
    unary main_v28 main_v29 (broadcastInDim S64x512x100 ![0, 1, 2] bcast_S1x1x100_S64x512x100_0_1_2 : (⟨S1x1x100, .f32⟩ : BufTy).Contents (Elt F) → (⟨S64x512x100, .f32⟩ : BufTy).Contents (Elt F)),
    binary main_v27 main_v29 main_v30 (addf : (⟨S64x512x100, .f32⟩ : BufTy).Contents (Elt F) → (⟨S64x512x100, .f32⟩ : BufTy).Contents (Elt F) → (⟨S64x512x100, .f32⟩ : BufTy).Contents (Elt F)),
    TRef.nullary main_call2.cst (constant S_ .f32 0x00000000#32),
    TRef.unary main_call2.cst main_call2.v0 (broadcastInDim S64x512x100 ![] bcast_S_S64x512x100),
    TRef.binary (.of main_v30 : TRef sig ⟨S64x512x100, .f32⟩) main_call2.v0 main_call2.v1 maximumf,
    binary main_v26 main_v31 main_v32 (catHid (F := F)),
    binary main_v32 main_arg5 main_v33 ((fun l r => Host.dotGeneral dot_S64x512x868_S868x768_S64x512x768_2_0_01_1_n_n none l r) : (⟨S64x512x868, .f32⟩ : BufTy).Contents (Elt F) → (⟨S868x768, .f32⟩ : BufTy).Contents (Elt F) → (⟨S64x512x768, .f32⟩ : BufTy).Contents (Elt F)),
    unary main_arg6 main_v34 (broadcastInDim S1x1x768 ![2] bcast_S768_S1x1x768_2 : (⟨S768, .f32⟩ : BufTy).Contents (Elt F) → (⟨S1x1x768, .f32⟩ : BufTy).Contents (Elt F)),
    unary main_v34 main_v35 (broadcastInDim S64x512x768 ![0, 1, 2] bcast_S1x1x768_S64x512x768_0_1_2 : (⟨S1x1x768, .f32⟩ : BufTy).Contents (Elt F) → (⟨S64x512x768, .f32⟩ : BufTy).Contents (Elt F)),
    binary main_v33 main_v35 main_v36 (addf : (⟨S64x512x768, .f32⟩ : BufTy).Contents (Elt F) → (⟨S64x512x768, .f32⟩ : BufTy).Contents (Elt F) → (⟨S64x512x768, .f32⟩ : BufTy).Contents (Elt F)),
    TRef.nullary main_call3.cst (constant S_ .f32 0x00000000#32),
    TRef.unary main_call3.cst main_call3.v0 (broadcastInDim S64x512x768 ![] bcast_S_S64x512x768),
    TRef.binary (.of main_v36 : TRef sig ⟨S64x512x768, .f32⟩) main_call3.v0 main_call3.v1 maximumf,
    binary main_v37 main_arg7 main_v38 ((fun l r => Host.dotGeneral dot_S64x512x768_S768x3_S64x512x3_2_0_01_1_n_n none l r) : (⟨S64x512x768, .f32⟩ : BufTy).Contents (Elt F) → (⟨S768x3, .f32⟩ : BufTy).Contents (Elt F) → (⟨S64x512x3, .f32⟩ : BufTy).Contents (Elt F)),
    unary main_arg8 main_v39 (broadcastInDim S1x1x3 ![2] bcast_S3_S1x1x3_2 : (⟨S3, .f32⟩ : BufTy).Contents (Elt F) → (⟨S1x1x3, .f32⟩ : BufTy).Contents (Elt F)),
    unary main_v39 main_v40 (broadcastInDim S64x512x3 ![0, 1, 2] bcast_S1x1x3_S64x512x3_0_1_2 : (⟨S1x1x3, .f32⟩ : BufTy).Contents (Elt F) → (⟨S64x512x3, .f32⟩ : BufTy).Contents (Elt F)),
    binary main_v38 main_v40 main_v41 (addf : (⟨S64x512x3, .f32⟩ : BufTy).Contents (Elt F) → (⟨S64x512x3, .f32⟩ : BufTy).Contents (Elt F) → (⟨S64x512x3, .f32⟩ : BufTy).Contents (Elt F)),
    binary main_v1 main_arg9 main_v42 ((fun l r => Host.dotGeneral dot_S64x768_S768x2_S64x2_1_0_0_1_n_n none l r) : (⟨S64x768, .f32⟩ : BufTy).Contents (Elt F) → (⟨S768x2, .f32⟩ : BufTy).Contents (Elt F) → (⟨S64x2, .f32⟩ : BufTy).Contents (Elt F)),
    unary main_arg10 main_v43 (broadcastInDim S1x2 ![1] bcast_S2_S1x2_1 : (⟨S2, .f32⟩ : BufTy).Contents (Elt F) → (⟨S1x2, .f32⟩ : BufTy).Contents (Elt F)),
    unary main_v43 main_v44 (broadcastInDim S64x2 ![0, 1] bcast_S1x2_S64x2_0_1 : (⟨S1x2, .f32⟩ : BufTy).Contents (Elt F) → (⟨S64x2, .f32⟩ : BufTy).Contents (Elt F)),
    binary main_v42 main_v44 main_v45 (addf : (⟨S64x2, .f32⟩ : BufTy).Contents (Elt F) → (⟨S64x2, .f32⟩ : BufTy).Contents (Elt F) → (⟨S64x2, .f32⟩ : BufTy).Contents (Elt F)) ]

set_option maxRecDepth 1024 in
/-- @main is that straight line: the callees' bodies substituted at their calls and sequencing reassociated, both sides
    are one chain of steps. -/
theorem main_eq (c : Dev nD) : main (F := F) c = seq ops := by
  simp only [main, fn_cumsum.body, fn_cumsum_0.body, fn_where.body, fn_relu.body, fn_relu_1.body, seq, bind_assoc, pure_bind] <;> rfl

/-- The signature scopes no buffer of the TensorCore. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide
/-- Every operation touches TensorCore buffers only. -/
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub ..⟩

/-! ## What the line leaves at each buffer of interest

The fold over the operations is read at a buffer operation by operation: an operation's result at its own buffer is its
function's value at the operands' contents, at any other buffer what was there. What remains is the composed term of the
arguments' contents, which is the stage-by-stage term of RefTerm by unfolding the stages (the typed references of the
calls' buffers carry contents along the identity). The scatter, the windowed sum and the concatenation stay folded
meanwhile: the comparison never looks inside them. -/

attribute [local irreducible] Host.scatter Host.reduceWindow concatenate in
set_option maxRecDepth 8192 in
/-- The class logits' buffer ends at `clsR` of the launch contents. -/
theorem v45_eq (V : Valuation τ sig (Elt F)) :
    after ops V (main_v45 : DevRef τ sig)
      = clsR (V (main_arg0 : DevRef τ sig)) (V (main_arg9 : DevRef τ sig)) (V (main_arg10 : DevRef τ sig)) := by
  after_results_simp
  rfl

attribute [local irreducible] Host.scatter Host.reduceWindow concatenate in
set_option maxRecDepth 8192 in
set_option maxHeartbeats 1600000 in
/-- The tag logits' buffer ends at `tagR` of the launch contents. -/
theorem v41_eq (V : Valuation τ sig (Elt F)) :
    after ops V (main_v41 : DevRef τ sig)
      = tagR (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  simp only [TRef.ofBuf, TRef.toBuf, cast_eq]
  rfl

/-! No operation writes an argument's buffer: each keeps its launch contents. -/

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

set_option maxRecDepth 8192 in
theorem arg2_eq (V : Valuation τ sig (Elt F)) :
    after ops V (main_arg2 : DevRef τ sig) = V (main_arg2 : DevRef τ sig) := by
  after_results_simp

set_option maxRecDepth 8192 in
theorem arg3_eq (V : Valuation τ sig (Elt F)) :
    after ops V (main_arg3 : DevRef τ sig) = V (main_arg3 : DevRef τ sig) := by
  after_results_simp

set_option maxRecDepth 8192 in
theorem arg4_eq (V : Valuation τ sig (Elt F)) :
    after ops V (main_arg4 : DevRef τ sig) = V (main_arg4 : DevRef τ sig) := by
  after_results_simp

set_option maxRecDepth 8192 in
theorem arg5_eq (V : Valuation τ sig (Elt F)) :
    after ops V (main_arg5 : DevRef τ sig) = V (main_arg5 : DevRef τ sig) := by
  after_results_simp

set_option maxRecDepth 8192 in
theorem arg6_eq (V : Valuation τ sig (Elt F)) :
    after ops V (main_arg6 : DevRef τ sig) = V (main_arg6 : DevRef τ sig) := by
  after_results_simp

set_option maxRecDepth 8192 in
theorem arg7_eq (V : Valuation τ sig (Elt F)) :
    after ops V (main_arg7 : DevRef τ sig) = V (main_arg7 : DevRef τ sig) := by
  after_results_simp

set_option maxRecDepth 8192 in
theorem arg8_eq (V : Valuation τ sig (Elt F)) :
    after ops V (main_arg8 : DevRef τ sig) = V (main_arg8 : DevRef τ sig) := by
  after_results_simp

set_option maxRecDepth 8192 in
theorem arg9_eq (V : Valuation τ sig (Elt F)) :
    after ops V (main_arg9 : DevRef τ sig) = V (main_arg9 : DevRef τ sig) := by
  after_results_simp

set_option maxRecDepth 8192 in
theorem arg10_eq (V : Valuation τ sig (Elt F)) :
    after ops V (main_arg10 : DevRef τ sig) = V (main_arg10 : DevRef τ sig) := by
  after_results_simp

end RefRun

open RefRun in
/-- On every device, for any float values, from any memory with zero counters: every weakly fair execution of @main
    terminates with the class logits at `clsR` and the tag logits at `tagR` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
          = clsR (m ((c.tc : Thread nD τ).loc main_arg0)) (m ((c.tc : Thread nD τ).loc main_arg9)) (m ((c.tc : Thread nD τ).loc main_arg10))
      ∧ r.2.mem ((c.tc : Thread nD τ).loc main_v41)
          = tagR (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v45).trans (v45_eq _), (h c main_v41).trans (v41_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _), (h c main_arg10).trans (arg10_eq _)⟩)
    (run_seq scopedRefs_eq scopedSems_eq defs main (fun _ => ops) main_eq (fun _ => ops_sub) m ρ)

end Cert.ReferenceIdeal.RefValue

end
-- ==== Proof.LibScatterSet.lean ====
/-
  A `stablehlo.scatter` whose body returns the update (a write, not an accumulation), read at one element.

  The scatter is a left fold over the update elements in row-major order; each update element that lands inside the
  operand replaces the element it lands on. So an operand element on which NO update lands keeps its value, and an
  operand element on which exactly ONE update element lands ends with that update element, whatever the order.

  The second part reads the landing place for the dimension numbers of "write row `l` of batch `b` of the updates
  `[B, L, C]` to row (pair) of an operand `[B, N, C]`", the pair read off scatter indices `[B, L, 2]`: both operand
  axes 0 and 1 are inserted window axes named by the two components of the index vector, lane `c` is the one window axis.
-/
import Idealize.ShloMosaic.PureOps.ShapeOps
import Idealize.ShloMosaic.Lib.ValueIdx

noncomputable section

namespace Cert.LibScatterSet

open Idealize.ShloMosaic Idealize.ShloMosaic.ValueIdx

/-- One step of the write: the update element at row-major position `n` replaces the operand element it lands on. -/
def writeStep {α : Type} {s si u : Shape} {w : Nat} (d : ScatterDims s si u) (idx : IVec si w) (upd : u.Idx → α)
    (r : s.Idx → α) (n : Fin u.numel) : s.Idx → α :=
  match d.resultIdx? (u.rowMajor.symm n) idx with
  | some i => fun i' => if i' = i then upd (u.rowMajor.symm n) else r i'
  | none => r

/-- The writing scatter is the fold of that step over the update positions in row-major order. -/
theorem scatter_eq_foldl {α : Type} {s si u : Shape} {w : Nat} (d : ScatterDims s si u) (x : s.Idx → α)
    (idx : IVec si w) (upd : u.Idx → α) :
    Host.scatter d (fun _ v => v) x idx upd = (List.finRange u.numel).foldl (writeStep d idx upd) x := rfl

/-- A step whose update lands elsewhere (or nowhere) leaves element `i` alone. -/
theorem writeStep_of_ne {α : Type} {s si u : Shape} {w : Nat} (d : ScatterDims s si u) (idx : IVec si w) (upd : u.Idx → α)
    (r : s.Idx → α) (n : Fin u.numel) (i : s.Idx) (h : d.resultIdx? (u.rowMajor.symm n) idx ≠ some i) :
    writeStep d idx upd r n i = r i := by
  unfold writeStep
  generalize d.resultIdx? (u.rowMajor.symm n) idx = o at h
  cases o with
  | none => rfl
  | some i₁ =>
    show (if i = i₁ then upd (u.rowMajor.symm n) else r i) = r i
    rw [if_neg fun hi => h (by rw [hi])]

/-- A step whose update lands on element `i` leaves the update element there. -/
theorem writeStep_of_eq {α : Type} {s si u : Shape} {w : Nat} (d : ScatterDims s si u) (idx : IVec si w) (upd : u.Idx → α)
    (r : s.Idx → α) (n : Fin u.numel) (i : s.Idx) (h : d.resultIdx? (u.rowMajor.symm n) idx = some i) :
    writeStep d idx upd r n i = upd (u.rowMajor.symm n) := by
  unfold writeStep
  rw [h]
  show (if i = i then upd (u.rowMajor.symm n) else r i) = upd (u.rowMajor.symm n)
  rw [if_pos rfl]

/-- Folding the step over positions none of which lands on `i` keeps element `i`. -/
theorem foldl_writeStep_of_none {α : Type} {s si u : Shape} {w : Nat} (d : ScatterDims s si u) (idx : IVec si w)
    (upd : u.Idx → α) (i : s.Idx) (ns : List (Fin u.numel))
    (hnone : ∀ n ∈ ns, d.resultIdx? (u.rowMajor.symm n) idx ≠ some i) (x : s.Idx → α) :
    ns.foldl (writeStep d idx upd) x i = x i := by
  induction ns generalizing x with
  | nil => rfl
  | cons n t ih =>
    rw [List.foldl_cons, ih (fun m hm => hnone m (List.mem_cons_of_mem n hm)),
      writeStep_of_ne d idx upd x n i (hnone n List.mem_cons_self)]

/-- Folding the step over positions among which `n₀` occurs, and only `n₀` lands on `i`, leaves `n₀`'s update element
    at `i`: after the last occurrence of `n₀` nothing touches `i` again. -/
theorem foldl_writeStep_of_unique {α : Type} {s si u : Shape} {w : Nat} (d : ScatterDims s si u) (idx : IVec si w)
    (upd : u.Idx → α) (i : s.Idx) (n₀ : Fin u.numel) (h₀ : d.resultIdx? (u.rowMajor.symm n₀) idx = some i)
    (ns : List (Fin u.numel)) (hmem : n₀ ∈ ns)
    (huniq : ∀ n ∈ ns, d.resultIdx? (u.rowMajor.symm n) idx = some i → n = n₀) (x : s.Idx → α) :
    ns.foldl (writeStep d idx upd) x i = upd (u.rowMajor.symm n₀) := by
  induction ns generalizing x with
  | nil => exact absurd hmem List.not_mem_nil
  | cons n t ih =>
    rw [List.foldl_cons]
    by_cases ht : n₀ ∈ t
    · exact ih ht (fun m hm => huniq m (List.mem_cons_of_mem n hm)) _
    · have hn : n₀ = n := by
        rcases List.mem_cons.1 hmem with h | h
        · exact h
        · exact absurd h ht
      subst hn
      rw [foldl_writeStep_of_none d idx upd i t (fun m hm hl => ht (huniq m (List.mem_cons_of_mem n₀ hm) hl ▸ hm)),
        writeStep_of_eq d idx upd x n₀ i h₀]

/-- An operand element on which exactly one update element lands ends with that update element. -/
theorem scatter_set_of_unique {α : Type} {s si u : Shape} {w : Nat} (d : ScatterDims s si u) (x : s.Idx → α)
    (idx : IVec si w) (upd : u.Idx → α) (i : s.Idx) (j₀ : u.Idx) (h₀ : d.resultIdx? j₀ idx = some i)
    (huniq : ∀ j, d.resultIdx? j idx = some i → j = j₀) :
    Host.scatter d (fun _ v => v) x idx upd i = upd j₀ := by
  rw [scatter_eq_foldl,
    foldl_writeStep_of_unique d idx upd i (u.rowMajor j₀) (by rw [Equiv.symm_apply_apply]; exact h₀)
      (List.finRange u.numel) (List.mem_finRange _)
      (fun n _ hn => by rw [← huniq _ hn, Equiv.apply_symm_apply]) x,
    Equiv.symm_apply_apply]

/-- An operand element on which no update element lands keeps its value. -/
theorem scatter_set_of_none {α : Type} {s si u : Shape} {w : Nat} (d : ScatterDims s si u) (x : s.Idx → α)
    (idx : IVec si w) (upd : u.Idx → α) (i : s.Idx) (hnone : ∀ j, d.resultIdx? j idx ≠ some i) :
    Host.scatter d (fun _ v => v) x idx upd i = x i := by
  rw [scatter_eq_foldl, foldl_writeStep_of_none d idx upd i (List.finRange u.numel) (fun n _ => hnone _) x]

/-- Where an update element lands, axis by axis: at `i` exactly when on every operand axis the start (read signed, not
    clamped) plus the window coordinate is `i`'s coordinate. -/
theorem resultIdx?_eq_some_iff {s si u : Shape} {w : Nat} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hall : ∀ a, 0 ≤ d.start j idx a + (d.window j a : Int) ∧ d.start j idx a + (d.window j a : Int) < (s.size a : Int)
    · rw [dif_pos hall] at h
      have ha : (d.start j idx a + (d.window j a : Int)).toNat = (i a).val :=
        congrArg (fun f : s.Idx => (f a).val) (Option.some.inj h)
      have := (hall a).1
      omega
    · rw [dif_neg hall] at h
      exact absurd h (by simp)
  · intro h
    have hall : ∀ a, 0 ≤ d.start j idx a + (d.window j a : Int) ∧ d.start j idx a + (d.window j a : Int) < (s.size a : Int) := by
      intro a
      have := (i a).isLt
      rw [h a]
      omega
    rw [dif_pos hall]
    refine congrArg some (funext fun a => Fin.ext ?_)
    show (d.start j idx a + (d.window j a : Int)).toNat = (i a).val
    rw [h a]
    omega

/-- The dimension numbers of writing row `(b, l)` of the updates `[B, L, C]` to the row of the operand `[B, N, C]` that the
    pair at `(b, l)` of the scatter indices `[B, L, 2]` names. -/
abbrev pairDims (B N L C : Nat)
    (wf : ScatterDims.WF ⟨3, ![B, N, C]⟩ ⟨3, ![B, L, 2]⟩ ⟨3, ![B, L, C]⟩ [2] [0, 1] [0, 1] 2) :
    ScatterDims ⟨3, ![B, N, C]⟩ ⟨3, ![B, L, 2]⟩ ⟨3, ![B, L, C]⟩ :=
  { updateWindowDims := [2], insertedWindowDims := [0, 1], scatterDimsToOperandDims := [0, 1], indexVectorDim := 2, wf := wf }

section
variable {B N L C : Nat} (wf : ScatterDims.WF ⟨3, ![B, N, C]⟩ ⟨3, ![B, L, 2]⟩ ⟨3, ![B, L, C]⟩ [2] [0, 1] [0, 1] 2)
  {α : Type} (x : (⟨3, ![B, N, C]⟩ : Shape).Idx → α) (idx : IVec ⟨3, ![B, L, 2]⟩ 32)
  (upd : (⟨3, ![B, L, C]⟩ : Shape).Idx → α)

/-- On operand axis 0 the start of update element `(b, l, c)` is component 0 of the pair at `(b, l)`, read signed. -/
theorem pairs_start0 (b : Fin B) (l : Fin L) (c : Fin C) :
    (pairDims B N L C wf).start (ix3 b l c) idx 0 = (idx (ix3 b l (0 : Fin 2))).toInt := by
  unfold ScatterDims.start
  have hmem : (0 : Fin 3) ∈ (pairDims B N L C wf).scatterDimsToOperandDims := List.mem_cons_self
  rw [dif_pos hmem]
  have hsi : (pairDims B N L C wf).siIdx (ix3 b l c)
      ⟨List.idxOf (0 : Fin 3) (pairDims B N L C wf).scatterDimsToOperandDims, List.idxOf_lt_length_iff.2 hmem⟩
        = ix3 b l (0 : Fin 2) := by
    funext a; refine Fin.ext ?_
    match a with
    | ⟨0, _⟩ => rfl
    | ⟨1, _⟩ => rfl
    | ⟨2, _⟩ => rfl
  rw [hsi]

/-- On operand axis 1 the start of update element `(b, l, c)` is component 1 of the pair at `(b, l)`, read signed. -/
theorem pairs_start1 (b : Fin B) (l : Fin L) (c : Fin C) :
    (pairDims B N L C wf).start (ix3 b l c) idx 1 = (idx (ix3 b l (1 : Fin 2))).toInt := by
  unfold ScatterDims.start
  have hmem : (1 : Fin 3) ∈ (pairDims B N L C wf).scatterDimsToOperandDims := List.mem_cons_of_mem _ List.mem_cons_self
  rw [dif_pos hmem]
  have hsi : (pairDims B N L C wf).siIdx (ix3 b l c)
      ⟨List.idxOf (1 : Fin 3) (pairDims B N L C wf).scatterDimsToOperandDims, List.idxOf_lt_length_iff.2 hmem⟩
        = ix3 b l (1 : Fin 2) := by
    funext a; refine Fin.ext ?_
    match a with
    | ⟨0, _⟩ => rfl
    | ⟨1, _⟩ => rfl
    | ⟨2, _⟩ => rfl
  rw [hsi]

/-- The lane axis is not named by the index vector: the start there is zero. -/
theorem pairs_start2 (b : Fin B) (l : Fin L) (c : Fin C) :
    (pairDims B N L C wf).start (ix3 b l c) idx 2 = 0 := by
  unfold ScatterDims.start
  have hmem : (2 : Fin 3) ∉ (pairDims B N L C wf).scatterDimsToOperandDims :=
    show (2 : Fin 3) ∉ ([0, 1] : List (Fin 3)) from by decide
  rw [dif_neg hmem]

/-- Operand axis 0 is inserted: no window coordinate there. -/
theorem pairs_window0 (b : Fin B) (l : Fin L) (c : Fin C) : (pairDims B N L C wf).window (ix3 b l c) 0 = 0 := by
  unfold ScatterDims.window
  have hmem : (0 : Fin 3) ∉ (pairDims B N L C wf).sKept := show (0 : Fin 3) ∉ ([2] : List (Fin 3)) from by decide
  rw [dif_neg hmem]

/-- Operand axis 1 is inserted: no window coordinate there. -/
theorem pairs_window1 (b : Fin B) (l : Fin L) (c : Fin C) : (pairDims B N L C wf).window (ix3 b l c) 1 = 0 := by
  unfold ScatterDims.window
  have hmem : (1 : Fin 3) ∉ (pairDims B N L C wf).sKept := show (1 : Fin 3) ∉ ([2] : List (Fin 3)) from by decide
  rw [dif_neg hmem]

/-- The window coordinate on the lane axis is the update element's lane. -/
theorem pairs_window2 (b : Fin B) (l : Fin L) (c : Fin C) : (pairDims B N L C wf).window (ix3 b l c) 2 = c.val := by
  unfold ScatterDims.window
  have hmem : (2 : Fin 3) ∈ (pairDims B N L C wf).sKept := show (2 : Fin 3) ∈ ([2] : List (Fin 3)) from by decide
  rw [dif_pos hmem]
  rfl

/-- Where update element `(b, l, c)` lands, with the plain numerals of `Fin 2`. -/
theorem pairs_lands_iff_aux (b : Fin B) (l : Fin L) (c : Fin C) (b' : Fin B) (n : Fin N) (c' : Fin C) :
    (pairDims B N L C wf).resultIdx? (ix3 b l c) idx = some (ix3 b' n c')
      ↔ (idx (ix3 b l (0 : Fin 2))).toInt = (b'.val : Int) ∧ (idx (ix3 b l (1 : Fin 2))).toInt = (n.val : Int) ∧ c = c' := by
  rw [resultIdx?_eq_some_iff]
  constructor
  · intro h
    have h0 : (pairDims B N L C wf).start (ix3 b l c) idx 0 + (((pairDims B N L C wf).window (ix3 b l c) 0 : Nat) : Int)
        = (b'.val : Int) := h 0
    have h1 : (pairDims B N L C wf).start (ix3 b l c) idx 1 + (((pairDims B N L C wf).window (ix3 b l c) 1 : Nat) : Int)
        = (n.val : Int) := h 1
    have h2 : (pairDims B N L C wf).start (ix3 b l c) idx 2 + (((pairDims B N L C wf).window (ix3 b l c) 2 : Nat) : Int)
        = (c'.val : Int) := h 2
    rw [pairs_start0, pairs_window0] at h0
    rw [pairs_start1, pairs_window1] at h1
    rw [pairs_start2, pairs_window2] at h2
    exact ⟨by omega, by omega, Fin.ext (by omega)⟩
  · rintro ⟨h0, h1, rfl⟩ a
    match a with
    | ⟨0, _⟩ =>
      show (pairDims B N L C wf).start (ix3 b l c) idx 0 + (((pairDims B N L C wf).window (ix3 b l c) 0 : Nat) : Int) = (b'.val : Int)
      rw [pairs_start0, pairs_window0, h0]; omega
    | ⟨1, _⟩ =>
      show (pairDims B N L C wf).start (ix3 b l c) idx 1 + (((pairDims B N L C wf).window (ix3 b l c) 1 : Nat) : Int) = (n.val : Int)
      rw [pairs_start1, pairs_window1, h1]; omega
    | ⟨2, _⟩ =>
      show (pairDims B N L C wf).start (ix3 b l c) idx 2 + (((pairDims B N L C wf).window (ix3 b l c) 2 : Nat) : Int) = (c.val : Int)
      rw [pairs_start2, pairs_window2]; omega

/-- Where update element `(b, l, c)` lands: at `(b', n, c')` exactly when the pair at `(b, l)`, read signed, is `(b', n)` and
    the lanes agree. -/
theorem pairs_lands_iff [NeZero 2] (b : Fin B) (l : Fin L) (c : Fin C) (b' : Fin B) (n : Fin N) (c' : Fin C) :
    (pairDims B N L C wf).resultIdx? (ix3 b l c) idx = some (ix3 b' n c')
      ↔ (idx (ix3 b l (0 : Fin 2))).toInt = (b'.val : Int) ∧ (idx (ix3 b l (1 : Fin 2))).toInt = (n.val : Int) ∧ c = c' :=
  pairs_lands_iff_aux wf idx b l c b' n c'

/-- Row `(b, n)` of the result when exactly one source row `(b₀, l₀)` names it: that source row. -/
theorem pairs_hit (b : Fin B) (n : Fin N) (c : Fin C) (b₀ : Fin B) (l₀ : Fin L)
    (h0 : (idx (ix3 b₀ l₀ (0 : Fin 2))).toInt = (b.val : Int)) (h1 : (idx (ix3 b₀ l₀ (1 : Fin 2))).toInt = (n.val : Int))
    (huniq : ∀ (b' : Fin B) (l' : Fin L), (idx (ix3 b' l' (0 : Fin 2))).toInt = (b.val : Int) →
      (idx (ix3 b' l' (1 : Fin 2))).toInt = (n.val : Int) → b' = b₀ ∧ l' = l₀) :
    Host.scatter (pairDims B N L C wf) (fun _ v => v) x idx upd (ix3 b n c) = upd (ix3 b₀ l₀ c) := by
  refine scatter_set_of_unique (pairDims B N L C wf) x idx upd (ix3 b n c) (ix3 b₀ l₀ c)
    ((pairs_lands_iff_aux wf idx b₀ l₀ c b n c).2 ⟨h0, h1, rfl⟩) fun j hj => ?_
  rw [eq_ix3 j] at hj ⊢
  obtain ⟨hj0, hj1, hj2⟩ := (pairs_lands_iff_aux wf idx (j 0) (j 1) (j 2) b n c).1 hj
  obtain ⟨e0, e1⟩ := huniq (j 0) (j 1) hj0 hj1
  rw [e0, e1, hj2]
  rfl

/-- Row `(b, n)` of the result when no source row names it: the operand's row. -/
theorem pairs_miss (b : Fin B) (n : Fin N) (c : Fin C)
    (hnone : ∀ (b' : Fin B) (l' : Fin L), ¬ ((idx (ix3 b' l' (0 : Fin 2))).toInt = (b.val : Int) ∧
      (idx (ix3 b' l' (1 : Fin 2))).toInt = (n.val : Int))) :
    Host.scatter (pairDims B N L C wf) (fun _ v => v) x idx upd (ix3 b n c) = x (ix3 b n c) := by
  refine scatter_set_of_none (pairDims B N L C wf) x idx upd (ix3 b n c) fun j hj => ?_
  rw [eq_ix3 j] at hj
  obtain ⟨hj0, hj1, _⟩ := (pairs_lands_iff_aux wf idx (j 0) (j 1) (j 2) b n c).1 hj
  exact hnone (j 0) (j 1) ⟨hj0, hj1⟩

end

end Cert.LibScatterSet

end
-- ==== Proof.RefPacked.lean ====
/-
  The reference's packed sequence is the weighted sum of the specification.

  Every slot is in 0..512, so no slot is negative (the adjustment leaves it alone) and every source row lands inside the
  513-row buffer; rows landing on row 512 are cut off by the slice. Row `i < 512` of batch `b` is named by at most one
  source row of that batch: if by one, the write leaves that row there and the weighted sum has that one non-zero term;
  if by none, the buffer's zero stays and every term of the sum is zero.
-/
import proofs.«425509_j56040733278608_3_alg».proof.Proof.RefTerm
import proofs.«425509_j56040733278608_3_alg».proof.Proof.Spec
import proofs.«425509_j56040733278608_3_alg».proof.Proof.LibScatterSet
import Idealize.ShloMosaic.Lib.Pipeline.Value
import Idealize.ShloMosaic.Lib.StableHlo.Predicate
import Idealize.ShloMosaic.PureOps.Ideal.Laws

noncomputable section

namespace Cert.ReferenceIdeal.RefValue

open Cert.ReferenceIdeal Idealize.ShloMosaic Idealize.ShloMosaic.ValueIdx
open Idealize.ShloMosaic.StableHlo.Predicate (slt_iff_toNat toInt_eq_toNat_of_lt toInt_ofNat_small)

namespace RefPacked

/-- A slot word that is at most 512 is not negative as a signed word, so the adjustment of negative slots leaves it. -/
theorem wrapped_apply (t : IVec S64x512 32) (b : Fin 64) (l : Fin 512) (h : (t (ix2 b l)).toNat ≤ 512) :
    wrapped t (ix2 b l) = t (ix2 b l) := by
  show Scalar.select (IntOp.cmpi .slt (t (ix2 b l)) 0#32) (IntOp.addi (t (ix2 b l)) 513#32) (t (ix2 b l)) = t (ix2 b l)
  refine if_neg fun hc => ?_
  have := (slt_iff_toNat (by omega) (by decide)).mp hc
  simp at this

/-- The batch column at batch `b` is the word `b`: a batch number is never negative, so it is not adjusted either. -/
theorem batchCol_apply (b : Fin 64) : batchCol (ix2 b (0 : Fin 1)) = BitVec.ofNat 32 b.val := by
  show Scalar.select (IntOp.cmpi .slt (BitVec.ofNat 32 b.val) 0#32) (IntOp.addi (BitVec.ofNat 32 b.val) 64#32) (BitVec.ofNat 32 b.val) = _
  refine if_neg fun hc => ?_
  have hb : (BitVec.ofNat 32 b.val).toNat < 2 ^ 31 := by
    rw [BitVec.toNat_ofNat]; have := b.isLt; omega
  have := (slt_iff_toNat hb (by decide)).mp hc
  simp at this

/-- Component 0 of the pair at `(b, l)` falls in the first piece of the concatenation: the batch number `b`. -/
theorem pairs_zero (t : IVec S64x512 32) (b : Fin 64) (l : Fin 512) :
    pairs t (ix3 b l (0 : Fin 2)) = BitVec.ofNat 32 b.val := by
  unfold pairs
  rw [concatenate_pair_apply_left (t := S64x512x2) (s₁ := S64x512x1) (s₂ := S64x512x1) (2 : Fin 3) _ _ _
    (ix3 b l (0 : Fin 2)) rfl (ix3 b l (0 : Fin 1))
    (fun a => match a with | ⟨0, _⟩ => rfl | ⟨1, _⟩ => rfl | ⟨2, _⟩ => rfl)]
  rw [broadcastInDim_apply (s := S64x512) (t := S64x512x1) _ _ _ (ix3 b l (0 : Fin 1)) (ix2 b l)
    (fun a => match a with | ⟨0, _⟩ => rfl | ⟨1, _⟩ => rfl)]
  rw [broadcastInDim_apply (s := S64x1) (t := S64x512) _ _ _ (ix2 b l) (ix2 b (0 : Fin 1))
    (fun a => match a with | ⟨0, _⟩ => rfl | ⟨1, _⟩ => rfl)]
  exact batchCol_apply b

/-- Component 1 of the pair at `(b, l)` falls in the second piece (its one column, the first piece's extent 1 less): the
    token's slot word, unadjusted because it is at most 512. -/
theorem pairs_one (t : IVec S64x512 32) (b : Fin 64) (l : Fin 512) (h : (t (ix2 b l)).toNat ≤ 512) :
    pairs t (ix3 b l (1 : Fin 2)) = t (ix2 b l) := by
  unfold pairs
  rw [concatenate_pair_apply_right (t := S64x512x2) (s₁ := S64x512x1) (s₂ := S64x512x1) (2 : Fin 3) _ _ _
    (ix3 b l (1 : Fin 2)) rfl rfl (ix3 b l (0 : Fin 1))
    (fun a => match a with | ⟨0, _⟩ => fun _ => rfl | ⟨1, _⟩ => fun _ => rfl | ⟨2, _⟩ => fun h => absurd rfl h) rfl]
  rw [broadcastInDim_apply (s := S64x512) (t := S64x512x1) _ _ _ (ix3 b l (0 : Fin 1)) (ix2 b l)
    (fun a => match a with | ⟨0, _⟩ => rfl | ⟨1, _⟩ => rfl)]
  exact wrapped_apply t b l h

end RefPacked

open RefPacked in
theorem compacted_apply (seq : FVec Ideal S64x512x768 .f32) (t : IVec S64x512 32)
    (hb : Cert.Tagger.SlotsBounded t) (hd : Cert.Tagger.SlotsDistinct t) (b : Fin 64) (i : Fin 512) (d : Fin 768) :
    compacted (F := Ideal) seq t (ix3 b i d) = Cert.Tagger.packed seq t b i d := by
  -- row `i` of the 512 kept rows is row `i` of the buffer's 513
  have hi513 : i.val < 513 := by have := i.isLt; omega
  have hslice : compacted (F := Ideal) seq t (ix3 b i d)
      = Host.scatter (Cert.LibScatterSet.pairDims 64 513 512 768
            Facts₀.scatter_S64x513x768_S64x512x2_S64x512x768_2_01_01_2_wf) (fun _ v => v)
          (broadcastInDim S64x513x768 ![] Facts₀.bcast_S_S64x513x768 (constant (F := Ideal) S_ .f32 0x00000000#32))
          (pairs t) seq (ix3 b (⟨i.val, hi513⟩ : Fin 513) d) := by
    unfold compacted
    exact extractStridedSlice_apply (s := S64x513x768) (t := S64x512x768) _ _ _ (ix3 b i d)
      (ix3 b (⟨i.val, hi513⟩ : Fin 513) d)
      (fun a => match a with
        | ⟨0, _⟩ => (Nat.zero_add _).symm
        | ⟨1, _⟩ => (Nat.zero_add _).symm
        | ⟨2, _⟩ => (Nat.zero_add _).symm)
  rw [hslice]
  show _ = ∑ l : Fin 512, Cert.Tagger.hot i (t (ix2 b l)) * seq (ix3 b l d)
  -- either some source token of the batch is sent to slot `i`, or none is
  by_cases hex : ∃ l₀ : Fin 512, (t (ix2 b l₀)).toNat = i.val
  · obtain ⟨l₀, hl₀⟩ := hex
    have hlt : (t (ix2 b l₀)).toNat < 512 := by have := i.isLt; omega
    have hword : BitVec.ofNat 32 i.val = t (ix2 b l₀) := by
      apply BitVec.eq_of_toNat_eq
      rw [BitVec.toNat_ofNat, hl₀]
      have := i.isLt; omega
    have h0 : (pairs t (ix3 b l₀ (0 : Fin 2))).toInt = (b.val : Int) := by
      rw [pairs_zero]; exact toInt_ofNat_small b.val (by have := b.isLt; omega)
    have h1 : (pairs t (ix3 b l₀ (1 : Fin 2))).toInt = ((⟨i.val, hi513⟩ : Fin 513).val : Int) := by
      rw [pairs_one t b l₀ (hb b l₀), toInt_eq_toNat_of_lt (by omega), hl₀]
    -- a source row naming `(b, i)` is in batch `b` and has `l₀`'s slot word, so it is `l₀`
    have huniq : ∀ (b' : Fin 64) (l' : Fin 512), (pairs t (ix3 b' l' (0 : Fin 2))).toInt = (b.val : Int) →
        (pairs t (ix3 b' l' (1 : Fin 2))).toInt = ((⟨i.val, hi513⟩ : Fin 513).val : Int) → b' = b ∧ l' = l₀ := by
      intro b' l' e0 e1
      rw [pairs_zero, toInt_ofNat_small b'.val (by have := b'.isLt; omega)] at e0
      obtain rfl : b' = b := Fin.ext (by exact_mod_cast e0)
      refine ⟨rfl, ?_⟩
      have hb' := hb b' l'
      rw [pairs_one t b' l' hb', toInt_eq_toNat_of_lt (by omega)] at e1
      have e1' : (t (ix2 b' l')).toNat = i.val := by exact_mod_cast e1
      have : t (ix2 b' l₀) = t (ix2 b' l') := BitVec.eq_of_toNat_eq (by omega)
      exact (hd b' l₀ l' hlt this).symm
    rw [Cert.LibScatterSet.pairs_hit _ _ (pairs t) seq b (⟨i.val, hi513⟩ : Fin 513) d b l₀ h0 h1 huniq]
    -- the weighted sum: weight 1 at `l₀`, weight 0 at every other token (its slot word is not `i`)
    rw [Finset.sum_eq_single l₀]
    · unfold Cert.Tagger.hot
      rw [if_pos hword, one_mul]
    · intro l _ hne
      have hz : Cert.Tagger.hot i (t (ix2 b l)) = 0 := by
        unfold Cert.Tagger.hot
        refine if_neg fun he => ?_
        exact hne (hd b l₀ l hlt (hword.symm.trans he)).symm
      rw [hz, zero_mul]
    · intro h; exact absurd (Finset.mem_univ _) h
  · have hnone : ∀ (b' : Fin 64) (l' : Fin 512), ¬ ((pairs t (ix3 b' l' (0 : Fin 2))).toInt = (b.val : Int) ∧
        (pairs t (ix3 b' l' (1 : Fin 2))).toInt = ((⟨i.val, hi513⟩ : Fin 513).val : Int)) := by
      rintro b' l' ⟨e0, e1⟩
      rw [pairs_zero, toInt_ofNat_small b'.val (by have := b'.isLt; omega)] at e0
      obtain rfl : b' = b := Fin.ext (by exact_mod_cast e0)
      have hb' := hb b' l'
      rw [pairs_one t b' l' hb', toInt_eq_toNat_of_lt (by omega)] at e1
      exact hex ⟨l', by exact_mod_cast e1⟩
    rw [Cert.LibScatterSet.pairs_miss _ _ (pairs t) seq b (⟨i.val, hi513⟩ : Fin 513) d hnone]
    -- the buffer's zero stays, and every weight of the sum is 0
    show Ideal.ofBits .f32 0x00000000#32 = _
    rw [Ideal.ofBits_zero_f32]
    refine (Finset.sum_eq_zero fun l _ => ?_).symm
    have hz : Cert.Tagger.hot i (t (ix2 b l)) = 0 := by
      unfold Cert.Tagger.hot
      refine if_neg fun he => hex ⟨l, ?_⟩
      rw [← he, BitVec.toNat_ofNat]
      have := i.isLt; omega
    rw [hz, zero_mul]

end Cert.ReferenceIdeal.RefValue

end
-- ==== Proof.RefLayers.lean ====
/-
  The reference's layers over a packed sequence, read index by index: they are the specification's.

  The contraction over the 868 lanes of the packed row and the enriched row laid side by side is the sum over the first 768
  lanes (against rows 0..767 of the weight) plus the sum over the last 100 (against rows 768..867): a sum over a
  disjoint union, which needs only that addition on the extended reals is commutative and associative.
-/
import proofs.«425509_j56040733278608_3_alg».proof.Proof.RefTerm
import proofs.«425509_j56040733278608_3_alg».proof.Proof.Spec
import Idealize.ShloMosaic.PureOps.Ideal.Laws
import Idealize.ShloMosaic.Lib.Pipeline.Value

noncomputable section

namespace Cert.ReferenceIdeal.RefValue

open Cert.ReferenceIdeal Idealize.ShloMosaic Idealize.ShloMosaic.ValueIdx

/-! ## A stack of rows times a matrix

  `[A, B, K]` contracted on its last axis with the first axis of `[K, N]`: the element at `(a, b, n)` is
  `∑ k, l (a, b, k) * r (k, n)`. The operand indices are read axis by axis off the dimension numbers: a free axis takes the
  result's coordinate, the contracted axis the summation index. -/

namespace Layers

/-- The dimension numbers of a stack of rows `[A, B, K]` times a matrix `[K, N]`. -/
abbrev rowsDot (A B K N : ℕ)
    (wf : DotDims.WF (⟨3, ![A, B, K]⟩ : Shape) ⟨2, ![K, N]⟩ ⟨3, ![A, B, N]⟩ [2] [0] [0, 1] [1] [] []) :
    DotDims ⟨3, ![A, B, K]⟩ ⟨2, ![K, N]⟩ ⟨3, ![A, B, N]⟩ where
  lhsContracting := [2]
  rhsContracting := [0]
  lhsNonContracting := [0, 1]
  rhsNonContracting := [1]
  lhsBatch := []
  rhsBatch := []
  wf := wf

section
variable {A B K N : ℕ}
  (wf : DotDims.WF (⟨3, ![A, B, K]⟩ : Shape) ⟨2, ![K, N]⟩ ⟨3, ![A, B, N]⟩ [2] [0] [0, 1] [1] [] [])

/-- Axis 0 of the left operand is free: it reads the result's axis 0. -/
theorem rowsDot_lhs_0 (i : (⟨3, ![A, B, N]⟩ : Shape).Idx) (q : (rowsDot A B K N wf).contr.Idx) :
    ((rowsDot A B K N wf).lhsIdx i q 0).val = (i 0).val := by
  unfold DotDims.lhsIdx
  rw [dif_neg (show ¬(0 : Fin (⟨3, ![A, B, K]⟩ : Shape).rank) ∈ (rowsDot A B K N wf).lhsBatch from List.not_mem_nil),
    dif_pos (show (0 : Fin (⟨3, ![A, B, K]⟩ : Shape).rank) ∈ (rowsDot A B K N wf).lhsNonContracting by simp)]
  rfl

/-- Axis 1 of the left operand is free: it reads the result's axis 1. -/
theorem rowsDot_lhs_1 (i : (⟨3, ![A, B, N]⟩ : Shape).Idx) (q : (rowsDot A B K N wf).contr.Idx) :
    ((rowsDot A B K N wf).lhsIdx i q 1).val = (i 1).val := by
  unfold DotDims.lhsIdx
  rw [dif_neg (show ¬(1 : Fin (⟨3, ![A, B, K]⟩ : Shape).rank) ∈ (rowsDot A B K N wf).lhsBatch from List.not_mem_nil),
    dif_pos (show (1 : Fin (⟨3, ![A, B, K]⟩ : Shape).rank) ∈ (rowsDot A B K N wf).lhsNonContracting by simp)]
  rfl

/-- Axis 2 of the left operand is the contracted one: it reads the summation index. -/
theorem rowsDot_lhs_2 (i : (⟨3, ![A, B, N]⟩ : Shape).Idx) (q : (rowsDot A B K N wf).contr.Idx) :
    ((rowsDot A B K N wf).lhsIdx i q 2).val = (q ⟨0, Nat.zero_lt_one⟩).val :=
  (rowsDot A B K N wf).lhsIdx_val_of_single rfl i q

/-- Axis 0 of the right operand is the contracted one: it reads the summation index. -/
theorem rowsDot_rhs_0 (i : (⟨3, ![A, B, N]⟩ : Shape).Idx) (q : (rowsDot A B K N wf).contr.Idx) :
    ((rowsDot A B K N wf).rhsIdx i q 0).val = (q ⟨0, Nat.zero_lt_one⟩).val :=
  (rowsDot A B K N wf).rhsIdx_val_of_single rfl i q

/-- Axis 1 of the right operand is free: it reads the result's axis 2. -/
theorem rowsDot_rhs_1 (i : (⟨3, ![A, B, N]⟩ : Shape).Idx) (q : (rowsDot A B K N wf).contr.Idx) :
    ((rowsDot A B K N wf).rhsIdx i q 1).val = (i 2).val := by
  unfold DotDims.rhsIdx
  rw [dif_neg (show ¬(1 : Fin (⟨2, ![K, N]⟩ : Shape).rank) ∈ (rowsDot A B K N wf).rhsBatch from List.not_mem_nil),
    dif_pos (show (1 : Fin (⟨2, ![K, N]⟩ : Shape).rank) ∈ (rowsDot A B K N wf).rhsNonContracting by simp)]
  rfl

/-- A stack of rows times a matrix, on the extended reals, at `(a, b, n)`: the sum over the shared index. -/
theorem rowsDot_apply {φ₁ φ₂ : FTy} (prec : Option ContractPrecision)
    (l : FVec Ideal ⟨3, ![A, B, K]⟩ φ₁) (r : FVec Ideal ⟨2, ![K, N]⟩ φ₂) (a : Fin A) (b : Fin B) (n : Fin N) :
    Host.dotGeneral (rowsDot A B K N wf) prec l r (ix3 a b n) = ∑ k : Fin K, l (ix3 a b k) * r (ix2 k n) := by
  simp only [Host.dotGeneral]
  rw [Ideal.dotGeneral_apply, ← Equiv.sum_comp (contrEquiv1 (rowsDot A B K N wf) K rfl rfl).symm]
  refine Finset.sum_congr rfl fun k _ => ?_
  have hk := contrEquiv1_symm_val (rowsDot A B K N wf) K rfl rfl k
  have el : (rowsDot A B K N wf).lhsIdx (ix3 a b n) ((contrEquiv1 (rowsDot A B K N wf) K rfl rfl).symm k) = ix3 a b k :=
    funext fun ax => Fin.ext (by
      match ax with
      | ⟨0, _⟩ => exact rowsDot_lhs_0 wf _ _
      | ⟨1, _⟩ => exact rowsDot_lhs_1 wf _ _
      | ⟨2, _⟩ => exact (rowsDot_lhs_2 wf _ _).trans hk)
  have er : (rowsDot A B K N wf).rhsIdx (ix3 a b n) ((contrEquiv1 (rowsDot A B K N wf) K rfl rfl).symm k) = ix2 k n :=
    funext fun ax => Fin.ext (by
      match ax with
      | ⟨0, _⟩ => exact (rowsDot_rhs_0 wf _ _).trans hk
      | ⟨1, _⟩ => exact rowsDot_rhs_1 wf _ _)
  rw [el, er]

end

/-! ## A bias row stretched over the stack, two stacks laid side by side, the zero array -/

section
variable {α : Type}

/-- A row `[C]` put on the last axis of `[1, 1, C]` and then stretched over `[A, B, C]`: every `(a, b)` reads the one row. -/
theorem rowOverStack_apply {A B C : ℕ} (v : (⟨1, ![C]⟩ : Shape).Idx → α)
    (h₁ : (⟨1, ![C]⟩ : Shape).BroadcastsInDim ⟨3, ![1, 1, C]⟩ ![2])
    (h₂ : (⟨3, ![1, 1, C]⟩ : Shape).BroadcastsInDim ⟨3, ![A, B, C]⟩ ![0, 1, 2])
    (a : Fin A) (b : Fin B) (c : Fin C) :
    broadcastInDim ⟨3, ![A, B, C]⟩ ![0, 1, 2] h₂ (broadcastInDim ⟨3, ![1, 1, C]⟩ ![2] h₁ v) (ix3 a b c) = v (ix1 c) := by
  refine (broadcastInDim_apply _ h₂ _ (ix3 a b c) (ix3 (0 : Fin 1) (0 : Fin 1) c) fun ax => ?_).trans ?_
  · match ax with
    | ⟨0, _⟩ => rfl
    | ⟨1, _⟩ => rfl
    | ⟨2, _⟩ =>
      show c.val = if C = 1 then 0 else c.val
      split
      · have := c.isLt; omega
      · rfl
  · refine broadcastInDim_apply _ h₁ _ _ (ix1 c) fun ax => ?_
    match ax with
    | ⟨0, _⟩ =>
      show c.val = if C = 1 then 0 else c.val
      split
      · have := c.isLt; omega
      · rfl

/-- Two stacks of rows laid side by side along the lanes, read at a lane of the first. -/
theorem sideBySide_apply_left {A B n₁ n₂ n : ℕ} (x₁ : (⟨3, ![A, B, n₁]⟩ : Shape).Idx → α)
    (x₂ : (⟨3, ![A, B, n₂]⟩ : Shape).Idx → α)
    (h : Shape.Concatenates [⟨3, ![A, B, n₁]⟩, ⟨3, ![A, B, n₂]⟩] ⟨3, ![A, B, n]⟩ 2)
    (a : Fin A) (b : Fin B) (k : Fin n) (c : Fin n₁) (hc : c.val = k.val) :
    concatenate ⟨3, ![A, B, n]⟩ 2 [⟨⟨3, ![A, B, n₁]⟩, x₁⟩, ⟨⟨3, ![A, B, n₂]⟩, x₂⟩] h (ix3 a b k) = x₁ (ix3 a b c) :=
  concatenate_pair_apply_left 2 x₁ x₂ h (ix3 a b k) rfl (ix3 a b c) fun ax => by
    match ax with
    | ⟨0, _⟩ => rfl
    | ⟨1, _⟩ => rfl
    | ⟨2, _⟩ => exact hc

/-- Two stacks of rows laid side by side along the lanes, read at a lane of the second: the first's width less. -/
theorem sideBySide_apply_right {A B n₁ n₂ n : ℕ} (x₁ : (⟨3, ![A, B, n₁]⟩ : Shape).Idx → α)
    (x₂ : (⟨3, ![A, B, n₂]⟩ : Shape).Idx → α)
    (h : Shape.Concatenates [⟨3, ![A, B, n₁]⟩, ⟨3, ![A, B, n₂]⟩] ⟨3, ![A, B, n]⟩ 2)
    (a : Fin A) (b : Fin B) (k : Fin n) (g : Fin n₂) (hg : g.val + n₁ = k.val) :
    concatenate ⟨3, ![A, B, n]⟩ 2 [⟨⟨3, ![A, B, n₁]⟩, x₁⟩, ⟨⟨3, ![A, B, n₂]⟩, x₂⟩] h (ix3 a b k) = x₂ (ix3 a b g) :=
  concatenate_pair_apply_right 2 x₁ x₂ h (ix3 a b k) rfl rfl (ix3 a b g)
    (fun ax hne => by
      match ax with
      | ⟨0, _⟩ => rfl
      | ⟨1, _⟩ => rfl
      | ⟨2, _⟩ => exact absurd rfl hne)
    hg

end

/-- The zero word stretched over any shape is the extended reals' zero at every index. -/
theorem zeros_apply {T : Shape} (h : S_.BroadcastsInDim T (![] : Fin 0 → Fin T.rank)) (j : T.Idx) :
    broadcastInDim T ![] h (constant (F := Ideal) S_ .f32 0x00000000#32) j = 0 :=
  Ideal.ofBits_zero_f32

/-- A sum over 868 lanes is the sum over the first 768 plus the sum over the last 100. -/
theorem sum_lanes (f : Fin 868 → EReal) :
    ∑ k : Fin 868, f k = ∑ c : Fin 768, f (Cert.Tagger.topRow c) + ∑ g : Fin 100, f (Cert.Tagger.lowRow g) :=
  Fin.sum_univ_add (a := 768) (b := 100) f

end Layers

open Layers

/-! ## The reference's three layers at an index -/

/-- The enriched features at `(b, l, g)`. -/
theorem enrichedR_apply (feat : FVec Ideal S64x512x100 .f32) (enrW : FVec Ideal S100x100 .f32)
    (enrB : FVec Ideal S100 .f32) (b : Fin 64) (l : Fin 512) (g : Fin 100) :
    enrichedR feat enrW enrB (ix3 b l g)
      = max ((∑ f : Fin 100, feat (ix3 b l f) * enrW (ix2 f g)) + enrB (ix1 g)) 0 := by
  unfold enrichedR
  rw [maximumf_apply, addf_apply, zeros_apply]
  refine congrArg₂ (fun x y => max (x + y) 0) ?_ ?_
  · exact rowsDot_apply _ none feat enrW b l g
  · exact rowOverStack_apply enrB _ _ b l g

/-- The contraction over the 868 lanes of the two stacks laid side by side, split at lane 768. -/
theorem sideBySide_contraction (vo : FVec Ideal S64x512x768 .f32) (en : FVec Ideal S64x512x100 .f32)
    (w1 : FVec Ideal S868x768 .f32) (b : Fin 64) (l : Fin 512) (w : Fin 768) :
    (∑ k : Fin 868, concatenate S64x512x868 2 [⟨S64x512x768, vo⟩, ⟨S64x512x100, en⟩]
        Facts₀.concatenates_S64x512x768_S64x512x100_S64x512x868_d2 (ix3 b l k) * w1 (ix2 k w))
      = (∑ c : Fin 768, vo (ix3 b l c) * w1 (ix2 (Cert.Tagger.topRow c) w))
        + ∑ g : Fin 100, en (ix3 b l g) * w1 (ix2 (Cert.Tagger.lowRow g) w) := by
  rw [sum_lanes]
  refine congrArg₂ (· + ·) (Finset.sum_congr rfl fun c _ => ?_) (Finset.sum_congr rfl fun g _ => ?_)
  · exact congrArg (· * w1 (ix2 (Cert.Tagger.topRow c) w))
      (sideBySide_apply_left vo en _ b l (Cert.Tagger.topRow c) c rfl)
  · exact congrArg (· * w1 (ix2 (Cert.Tagger.lowRow g) w))
      (sideBySide_apply_right vo en _ b l (Cert.Tagger.lowRow g) g (Nat.add_comm _ _))

/-- The hidden layer at `(b, l, w)`. -/
theorem hiddenR_apply (vo : FVec Ideal S64x512x768 .f32) (en : FVec Ideal S64x512x100 .f32)
    (w1 : FVec Ideal S868x768 .f32) (b1 : FVec Ideal S768 .f32) (b : Fin 64) (l : Fin 512) (w : Fin 768) :
    hiddenR vo en w1 b1 (ix3 b l w)
      = max (((∑ c : Fin 768, vo (ix3 b l c) * w1 (ix2 (Cert.Tagger.topRow c) w))
          + ∑ g : Fin 100, en (ix3 b l g) * w1 (ix2 (Cert.Tagger.lowRow g) w)) + b1 (ix1 w)) 0 := by
  unfold hiddenR
  rw [maximumf_apply, addf_apply, zeros_apply]
  refine congrArg₂ (fun x y => max (x + y) 0) ?_ ?_
  · exact (rowsDot_apply _ none _ w1 b l w).trans (sideBySide_contraction vo en w1 b l w)
  · exact rowOverStack_apply b1 _ _ b l w

/-- The tag logits over ANY packed sequence `vo` that is, index by index, the specification's weighted sum. -/
theorem tag_of_packed (seq : FVec Ideal S64x512x768 .f32) (feat : FVec Ideal S64x512x100 .f32) (t : IVec S64x512 32)
    (enrW : FVec Ideal S100x100 .f32) (enrB : FVec Ideal S100 .f32) (w1 : FVec Ideal S868x768 .f32)
    (b1 : FVec Ideal S768 .f32) (w2 : FVec Ideal S768x3 .f32) (b2 : FVec Ideal S3 .f32)
    (vo : FVec Ideal S64x512x768 .f32)
    (hvo : ∀ (b : Fin 64) (i : Fin 512) (d : Fin 768), vo (ix3 b i d) = Cert.Tagger.packed seq t b i d) :
    addf (Host.dotGeneral dot_S64x512x768_S768x3_S64x512x3_2_0_01_1_n_n none
        (hiddenR vo (enrichedR feat enrW enrB) w1 b1) w2)
      (broadcastInDim S64x512x3 ![0, 1, 2] Facts₀.bcast_S1x1x3_S64x512x3_0_1_2
        (broadcastInDim S1x1x3 ![2] Facts₀.bcast_S3_S1x1x3_2 b2))
      = Cert.Tagger.tagArr seq feat t enrW enrB w1 b1 w2 b2 := by
  funext j
  obtain ⟨b, l, c, rfl⟩ : ∃ (b : Fin 64) (l : Fin 512) (c : Fin 3), j = ix3 b l c := ⟨j 0, j 1, j 2, eq_ix3 j⟩
  rw [addf_apply]
  show _ = Cert.Tagger.rowTag (fun l d => seq (ix3 b l d)) (fun l f => feat (ix3 b l f)) (fun l => t (ix2 b l))
    (fun f g => enrW (ix2 f g)) (fun g => enrB (ix1 g))
    (fun c w => w1 (ix2 (Cert.Tagger.topRow c) w)) (fun g w => w1 (ix2 (Cert.Tagger.lowRow g) w)) (fun w => b1 (ix1 w))
    (fun w t => w2 (ix2 w t)) (fun t => b2 (ix1 t)) l c
  unfold Cert.Tagger.rowTag
  refine congrArg₂ (· + ·) ?_ (rowOverStack_apply b2 _ _ b l c)
  refine (rowsDot_apply _ none _ w2 b l c).trans (Finset.sum_congr rfl fun w _ => congrArg (· * w2 (ix2 w c)) ?_)
  rw [hiddenR_apply]
  unfold Cert.Tagger.hiddenRow
  refine congrArg (fun z => max (z + b1 (ix1 w)) 0)
    (congrArg₂ (· + ·) (Finset.sum_congr rfl fun c' _ => ?_) (Finset.sum_congr rfl fun g _ => ?_))
  · exact congrArg (· * w1 (ix2 (Cert.Tagger.topRow c') w)) (hvo b l c')
  · exact congrArg (· * w1 (ix2 (Cert.Tagger.lowRow g) w)) (enrichedR_apply feat enrW enrB b l g)

end Cert.ReferenceIdeal.RefValue

end
-- ==== Proof.Slots.lean ====
/-
  The slot table under a 0/1 mask.

  Along one batch the running count of the mask words up to and including token `l` is the number of tokens marked 1 among
  tokens 0..l (no wrap: at most 512). A token marked 1 gets the slot "count minus one", which lies in 0..511 and grows
  strictly from one marked token to the next; any other token gets the slot 512. Hence every slot is at most 512, and two
  tokens of a batch sharing a slot below 512 are one token.
-/
import proofs.«425509_j56040733278608_3_alg».proof.Proof.RefTerm
import proofs.«425509_j56040733278608_3_alg».proof.Proof.Spec
import Idealize.ShloMosaic.Lib.StableHlo.Predicate

noncomputable section

namespace Cert.ReferenceIdeal.RefValue

open Cert.ReferenceIdeal Idealize.ShloMosaic Idealize.ShloMosaic.ValueIdx

namespace SlotCount

open Idealize.ShloMosaic.StableHlo.Predicate Cert.ReferenceIdeal.Facts₀ Cert.ReferenceIdeal.Facts

/-- A left fold of word addition that does not wrap is the start plus the sum of the values. -/
theorem toNat_foldl_addi {β : Type} (g : β → BitVec 32) (xs : List β) (a : BitVec 32)
    (h : a.toNat + (xs.map fun x => (g x).toNat).sum < 2 ^ 32) :
    (xs.foldl (fun r n => IntOp.addi r (g n)) a).toNat = a.toNat + (xs.map fun x => (g x).toNat).sum := by
  induction xs generalizing a with
  | nil => simp
  | cons x xs ih =>
    simp only [List.map_cons, List.sum_cons] at h
    have hx : (IntOp.addi a (g x)).toNat = a.toNat + (g x).toNat := by
      show (a + g x).toNat = _
      rw [BitVec.toNat_add]; exact Nat.mod_eq_of_lt (by omega)
    simp only [List.foldl_cons, List.map_cons, List.sum_cons]
    rw [ih _ (by rw [hx]; omega), hx]; omega

/-- The mask word of token `m` of batch `b` as a number; 0 past the end of the sequence. -/
def maskNat (vid : IVec S64x512 32) (b : Fin 64) (m : ℕ) : ℕ :=
  if h : m < 512 then (vid (ix2 b ⟨m, h⟩)).toNat else 0

/-- The sum of the mask words of tokens `0..l` of batch `b`. -/
def count (vid : IVec S64x512 32) (b : Fin 64) (l : ℕ) : ℕ := ∑ m ∈ Finset.range (l + 1), maskNat vid b m

/-- The shape of one window: one batch row, 512 positions. -/
abbrev Win : Shape := ⟨2, ![1, 512]⟩

/-- What the window of token `(b, l)` reads at its position `i`: the mask word `i 1 + l - 511` places along batch `b`
    where that place exists, and the word 0 where the position lies in the padding. -/
def winTerm (vid : IVec S64x512 32) (b : Fin 64) (l : Fin 512) (i : Win.Idx) : BitVec 32 :=
  let p : Fin 2 → ℕ := fun a => (ix2 b l a).val * (![1, 1] : Fin 2 → ℕ) a + (i a).val
  if hin : ∀ a : Fin 2, (![0, 511] : Fin 2 → ℕ) a ≤ p a ∧ p a - (![0, 511] : Fin 2 → ℕ) a < S64x512.size a then
    vid (fun a => ⟨p a - (![0, 511] : Fin 2 → ℕ) a, (hin a).2⟩)
  else 0#32

/-- A sum over the positions of a window in row-major order is the sum over its 512 places along the sequence. -/
theorem sum_window (T : Win.Idx → ℕ) :
    ((List.finRange Win.numel).map fun n => T (Win.rowMajor.symm n)).sum = ∑ k : Fin 512, T (ix2 0 k) := by
  rw [← Fin.sum_univ_def, Equiv.sum_comp Win.rowMajor.symm T, sum_idx2]
  exact Fin.sum_univ_one _

/-- The running sum at token `(b, l)`, when it does not wrap, is the sum of what its window reads. -/
theorem window_toNat_sum (vid : IVec S64x512 32) (init : S_.Idx → BitVec 32) (hinit : ∀ i, init i = 0#32)
    (h : S64x512.ReduceWindows (![1, 512] : Fin 2 → Nat) ![1, 1] ![0, 511] ![0, 0] S64x512) (hu : 0 < S_.numel)
    (b : Fin 64) (l : Fin 512) (hsum : ∑ k : Fin 512, (winTerm vid b l (ix2 0 k)).toNat < 2 ^ 32) :
    (Host.reduceWindow IntOp.addi ![1, 512] ![1, 1] ![0, 511] ![0, 0] vid init h hu (ix2 b l)).toNat
      = ∑ k : Fin 512, (winTerm vid b l (ix2 0 k)).toNat := by
  have key := sum_window (fun i => (winTerm vid b l i).toNat)
  unfold Host.reduceWindow
  simp only [hinit]
  rw [toNat_foldl_addi]
  · show (0#32).toNat + (List.map (fun x => (winTerm vid b l (Win.rowMajor.symm x)).toNat) (List.finRange Win.numel)).sum = _
    rw [key]; simp
  · show (0#32).toNat + (List.map (fun x => (winTerm vid b l (Win.rowMajor.symm x)).toNat) (List.finRange Win.numel)).sum < _
    rw [key]; simpa using hsum

/-- Place `k` of the window of token `(b, l)` reads token `l + k - 511` of batch `b` when `511 ≤ l + k`, and 0 otherwise. -/
theorem winTerm_eval (vid : IVec S64x512 32) (b : Fin 64) (l k : Fin 512) :
    winTerm vid b l (ix2 0 k)
      = if h : 511 ≤ l.val + k.val then vid (ix2 b ⟨l.val + k.val - 511, by omega⟩) else 0#32 := by
  unfold winTerm
  simp only []
  split
  · next hin =>
    have h1 := (hin 1).1
    have h : 511 ≤ l.val + k.val := by simpa using h1
    rw [dif_pos h]
    congr 1
    funext a
    revert a
    rw [Fin.forall_fin_two]
    constructor
    · apply Fin.ext; simp
    · apply Fin.ext; simp
  · next hin =>
    have h : ¬ 511 ≤ l.val + k.val := by
      intro h; apply hin
      rw [Fin.forall_fin_two]
      have hb := b.isLt
      have hl := l.isLt
      have hk := k.isLt
      constructor
      · show 0 ≤ b.val * 1 + 0 ∧ b.val * 1 + 0 - 0 < 64
        omega
      · show 511 ≤ l.val * 1 + k.val ∧ l.val * 1 + k.val - 511 < 512
        omega
    rw [dif_neg h]

/-- Under a 0/1 mask every mask word counts 0 or 1. -/
theorem maskNat_le_one (vid : IVec S64x512 32) (hmask : ∀ i, vid i = 0#32 ∨ vid i = 1#32) (b : Fin 64) (m : ℕ) :
    maskNat vid b m ≤ 1 := by
  unfold maskNat
  split
  · next h =>
    rcases hmask (ix2 b ⟨m, h⟩) with e | e <;> rw [e] <;> decide
  · omega

theorem winTerm_toNat (vid : IVec S64x512 32) (b : Fin 64) (l k : Fin 512) :
    (winTerm vid b l (ix2 0 k)).toNat = if 511 ≤ l.val + k.val then maskNat vid b (l.val + k.val - 511) else 0 := by
  rw [winTerm_eval]
  have hl := l.isLt
  have hk := k.isLt
  split
  · next h => unfold maskNat; rw [dif_pos (by omega)]
  · rfl

/-- What the window of token `(b, l)` reads adds up to the mask words of tokens `0..l`. -/
theorem sum_winTerm (vid : IVec S64x512 32) (b : Fin 64) (l : Fin 512) :
    ∑ k : Fin 512, (winTerm vid b l (ix2 0 k)).toNat = count vid b l.val := by
  simp only [winTerm_toNat]
  rw [Fin.sum_univ_eq_sum_range (fun k => if 511 ≤ l.val + k then maskNat vid b (l.val + k - 511) else 0) 512]
  have hl := l.isLt
  have hsplit := Finset.sum_range_add (fun k => if 511 ≤ l.val + k then maskNat vid b (l.val + k - 511) else 0)
    (511 - l.val) (l.val + 1)
  rw [show 511 - l.val + (l.val + 1) = 512 by omega] at hsplit
  rw [hsplit]
  have hzero : ∑ x ∈ Finset.range (511 - l.val), (if 511 ≤ l.val + x then maskNat vid b (l.val + x - 511) else 0) = 0 := by
    apply Finset.sum_eq_zero
    intro x hx
    rw [Finset.mem_range] at hx
    rw [if_neg (by omega)]
  rw [hzero, Nat.zero_add]
  unfold count
  apply Finset.sum_congr rfl
  intro x hx
  rw [Finset.mem_range] at hx
  rw [if_pos (by omega), show l.val + (511 - l.val + x) - 511 = x by omega]

theorem count_le (vid : IVec S64x512 32) (hmask : ∀ i, vid i = 0#32 ∨ vid i = 1#32) (b : Fin 64) (l : ℕ) :
    count vid b l ≤ l + 1 := by
  unfold count
  calc ∑ m ∈ Finset.range (l + 1), maskNat vid b m ≤ ∑ _m ∈ Finset.range (l + 1), 1 :=
        Finset.sum_le_sum fun m _ => maskNat_le_one vid hmask b m
    _ = l + 1 := by simp

/-- A marked token is counted. -/
theorem count_pos (vid : IVec S64x512 32) (b : Fin 64) (l : ℕ) (h : maskNat vid b l = 1) : 1 ≤ count vid b l := by
  unfold count
  rw [Finset.sum_range_succ]
  omega

/-- The count grows strictly on reaching a later marked token. -/
theorem count_lt (vid : IVec S64x512 32) (b : Fin 64) (l l' : ℕ) (hll : l < l') (h : maskNat vid b l' = 1) :
    count vid b l < count vid b l' := by
  unfold count
  rw [Finset.sum_range_succ _ l']
  have hsub : ∑ m ∈ Finset.range (l + 1), maskNat vid b m ≤ ∑ m ∈ Finset.range l', maskNat vid b m :=
    Finset.sum_le_sum_of_subset (Finset.range_mono (by omega))
  omega

theorem maskNat_of_one (vid : IVec S64x512 32) (b : Fin 64) (l : Fin 512) (h : vid (ix2 b l) = 1#32) :
    maskNat vid b l.val = 1 := by
  unfold maskNat
  rw [dif_pos l.isLt]
  show (vid (ix2 b l)).toNat = 1
  rw [h]; rfl

/-- The running sum at token `(b, l)` is the number of marked tokens among tokens `0..l` of batch `b`. -/
theorem window_toNat (vid : IVec S64x512 32) (hmask : ∀ i, vid i = 0#32 ∨ vid i = 1#32)
    (init : S_.Idx → BitVec 32) (hinit : ∀ i, init i = 0#32)
    (h : S64x512.ReduceWindows (![1, 512] : Fin 2 → Nat) ![1, 1] ![0, 511] ![0, 0] S64x512) (hu : 0 < S_.numel)
    (b : Fin 64) (l : Fin 512) :
    (Host.reduceWindow IntOp.addi ![1, 512] ![1, 1] ![0, 511] ![0, 0] vid init h hu (ix2 b l)).toNat
      = count vid b l.val := by
  have hc := count_le vid hmask b l.val
  have hl := l.isLt
  rw [window_toNat_sum vid init hinit h hu b l (by rw [sum_winTerm]; omega), sum_winTerm]

/-- The slot table at an index, operation by operation. -/
theorem slots_at (vid : IVec S64x512 32) (j : S64x512.Idx) :
    slots vid j = Scalar.select (IntOp.cmpi .eq (vid j) 1#32)
      (IntOp.subi (Host.reduceWindow IntOp.addi ![1, 512] ![1, 1] ![0, 511] ![0, 0] vid
        (broadcastInDim S_ ![] bcast_S_S_ (constantI S_ 32 0#32)) reduceWindows_S64x512_S64x512_w1s1p0_0_w512s1p511_0 h_S_ j) 1#32)
      512#32 := rfl

/-- The word chosen for a token with mask word `v` and running count `R`. -/
theorem slot_word (v R : BitVec 32) (n : ℕ) (hR : R.toNat = n) (hn : n ≤ 512) (hpos : v = 1#32 → 1 ≤ n) :
    Scalar.select (IntOp.cmpi .eq v 1#32) (IntOp.subi R 1#32) 512#32
      = if v = 1#32 then BitVec.ofNat 32 (n - 1) else 512#32 := by
  by_cases hv : v = 1#32
  · rw [cmpi_eq_iff.2 hv, select_one, if_pos hv]
    have e : R = BitVec.ofNat 32 n := by
      apply BitVec.eq_of_toNat_eq
      rw [hR, BitVec.toNat_ofNat]
      exact (Nat.mod_eq_of_lt (by omega)).symm
    rw [e]
    exact sub_one_ofNat n (hpos hv) (by omega)
  · rw [eq_zero_of_ne_one (fun h => hv (cmpi_eq_iff.1 h)), select_zero, if_neg hv]

/-- The slot of token `(b, l)`: one below the count of marked tokens among `0..l` where the token is marked, else 512. -/
theorem slots_apply (vid : IVec S64x512 32) (hmask : ∀ i, vid i = 0#32 ∨ vid i = 1#32) (b : Fin 64) (l : Fin 512) :
    slots vid (ix2 b l) = if vid (ix2 b l) = 1#32 then BitVec.ofNat 32 (count vid b l.val - 1) else 512#32 := by
  have hw := window_toNat vid hmask (broadcastInDim S_ ![] bcast_S_S_ (constantI S_ 32 0#32)) (fun _ => rfl)
    reduceWindows_S64x512_S64x512_w1s1p0_0_w512s1p511_0 h_S_ b l
  have hc := count_le vid hmask b l.val
  have hl := l.isLt
  rw [slots_at]
  exact slot_word _ _ _ hw (by omega) (fun hv => count_pos vid b l.val (maskNat_of_one vid b l hv))

end SlotCount

theorem slots_bounded (vid : IVec S64x512 32) (hmask : ∀ i, vid i = 0#32 ∨ vid i = 1#32) :
    Cert.Tagger.SlotsBounded (slots vid) := by
  unfold Cert.Tagger.SlotsBounded
  intro b l
  rw [SlotCount.slots_apply vid hmask b l]
  have hc := SlotCount.count_le vid hmask b l.val
  have hl := l.isLt
  split
  · rw [BitVec.toNat_ofNat]
    exact le_trans (Nat.mod_le _ _) (by omega)
  · decide

theorem slots_distinct (vid : IVec S64x512 32) (hmask : ∀ i, vid i = 0#32 ∨ vid i = 1#32) :
    Cert.Tagger.SlotsDistinct (slots vid) := by
  unfold Cert.Tagger.SlotsDistinct
  intro b l l' hlt heq
  rw [SlotCount.slots_apply vid hmask b l] at hlt heq
  rw [SlotCount.slots_apply vid hmask b l'] at heq
  have hc := SlotCount.count_le vid hmask b l.val
  have hc' := SlotCount.count_le vid hmask b l'.val
  have hl := l.isLt
  have hl' := l'.isLt
  by_cases hv : vid (ix2 b l) = 1#32
  · rw [if_pos hv] at hlt heq
    have hm := SlotCount.maskNat_of_one vid b l hv
    have hp := SlotCount.count_pos vid b l.val hm
    by_cases hv' : vid (ix2 b l') = 1#32
    · rw [if_pos hv'] at heq
      have hm' := SlotCount.maskNat_of_one vid b l' hv'
      have hp' := SlotCount.count_pos vid b l'.val hm'
      have e := congrArg BitVec.toNat heq
      rw [BitVec.toNat_ofNat, BitVec.toNat_ofNat, Nat.mod_eq_of_lt (by omega), Nat.mod_eq_of_lt (by omega)] at e
      apply Fin.ext
      rcases Nat.lt_trichotomy l.val l'.val with h | h | h
      · have := SlotCount.count_lt vid b _ _ h hm'
        omega
      · exact h
      · have := SlotCount.count_lt vid b _ _ h hm
        omega
    · rw [if_neg hv'] at heq
      have e := congrArg BitVec.toNat heq
      rw [BitVec.toNat_ofNat, Nat.mod_eq_of_lt (by omega)] at e
      have h512 : (512#32 : BitVec 32).toNat = 512 := by decide
      omega
  · rw [if_neg hv] at hlt
    exact absurd hlt (by decide)

end Cert.ReferenceIdeal.RefValue

end
-- ==== Proof.Mask.lean ====
/-
  The added conjunct of the precondition, read back: every mask word is 0 or 1.
-/
import proofs.«425509_j56040733278608_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Tagger.Mask

open Idealize.ShloMosaic Cert.Pre_finite_inputs

/-- When the printed precondition of the eleven argument arrays is all ones, every word of the mask argument is 0 or 1
    (its last conjunct is the conjunction, over the mask, of "the word is 0 or the word is 1"). -/
theorem mask_of_pre (a0 : FVec Ideal S64x512x768 .f32) (a1 : FVec Ideal S64x512x100 .f32) (a2 : IVec S64x512 32)
    (a3 : FVec Ideal S100x100 .f32) (a4 : FVec Ideal S100 .f32) (a5 : FVec Ideal S868x768 .f32) (a6 : FVec Ideal S768 .f32)
    (a7 : FVec Ideal S768x3 .f32) (a8 : FVec Ideal S3 .f32) (a9 : FVec Ideal S768x2 .f32) (a10 : FVec Ideal S2 .f32)
    (h : Cert.Pre_finite_inputs.fn (F := Ideal) a0 a1 a2 a3 a4 a5 a6 a7 a8 a9 a10 = fun _ => 1#1) :
    ∀ i, a2 i = 0#32 ∨ a2 i = 1#32 := by
  intro i
  -- the predicate at its one index; only its last conjunction is opened
  have h0 := congrFun h ValueIdx.ix0
  dsimp only [fn, fn_part1, fn_part2, fn_part3] at h0
  -- the last conjunct is the conjunction over the mask of "the word is 0 or the word is 1"
  have hall := (IntOp.andi_eq_one.1 h0).2
  -- the rank-0 result shape has one index
  haveI : Subsingleton S_.Idx := ⟨fun a b => funext fun d => d.elim0⟩
  have hi := Host.reduce_andi_all _ _ _ _ _ hall i
  -- at the word i one of the two comparisons holds, and the word compared with is the constant
  rcases IntOp.ori_eq_one.1 hi with h1 | h1
  · exact Or.inl (StableHlo.Predicate.cmpi_eq_iff.1 h1)
  · exact Or.inr (StableHlo.Predicate.cmpi_eq_iff.1 h1)

end Cert.Tagger.Mask

end
-- ==== Proof.lean ====
/-
  The certificate's claims.

  Under the precondition — every float input finite and every word of the validity mask 0 or 1 — the kernel and the
  reference compute the same two results on the extended reals.

  The class logits are the same four host operations on the same arguments in both programs.

  For the tag logits both programs first compute one slot table from the mask: a token marked 1 is sent to the slot
  "number of marked tokens up to and including it, minus one", any other token to slot 512. The kernel packs a batch's
  sequence by a matrix product with the 0/1 matrix [slot of token l = i], so slot i holds the SUM of the rows sent to it; the
  reference WRITES every row to its slot in a buffer of 513 rows and drops row 512. With a 0/1 mask the slots below 512
  are pairwise distinct within a batch, so the sum has at most one term and is what the write leaves. After that the two
  programs apply the same layers; the kernel contracts the packed row and the enriched row against the two parts of the
  hidden weight separately and adds, the reference contracts their concatenation against the whole weight: one sum over a
  disjoint union. The kernel works on four batches per grid point and stores the logits transposed; the host transposes
  them back.

  The three frames are the generated ones for the two kernel programs and the reference's run with its results dropped;
  the idealization rewrote nothing.
-/
import proofs.«425509_j56040733278608_3_alg».proof.Defs
import proofs.«425509_j56040733278608_3_alg».proof.Proof.Gen.Kernel
import proofs.«425509_j56040733278608_3_alg».proof.Proof.Gen.Kernel.Skeleton
import proofs.«425509_j56040733278608_3_alg».proof.Proof.Gen.Kernel.Loops
import proofs.«425509_j56040733278608_3_alg».proof.Proof.Gen.Kernel.Launch
import proofs.«425509_j56040733278608_3_alg».proof.Proof.Gen.Kernel.Points
import proofs.«425509_j56040733278608_3_alg».proof.Proof.Gen.Kernel.Frame
import proofs.«425509_j56040733278608_3_alg».proof.Proof.Gen.KernelIdeal
import proofs.«425509_j56040733278608_3_alg».proof.Proof.Gen.KernelIdeal.Skeleton
import proofs.«425509_j56040733278608_3_alg».proof.Proof.Gen.KernelIdeal.Loops
import proofs.«425509_j56040733278608_3_alg».proof.Proof.Gen.KernelIdeal.Launch
import proofs.«425509_j56040733278608_3_alg».proof.Proof.Gen.KernelIdeal.Points
import proofs.«425509_j56040733278608_3_alg».proof.Proof.Gen.KernelIdeal.Frame
import proofs.«425509_j56040733278608_3_alg».proof.Proof.Gen.ReferenceIdeal
import proofs.«425509_j56040733278608_3_alg».proof.Proof.Gen.Pre_finite_inputs
import proofs.«425509_j56040733278608_3_alg».proof.Proof.KernelArr
import proofs.«425509_j56040733278608_3_alg».proof.Proof.RefRun
import proofs.«425509_j56040733278608_3_alg».proof.Proof.RefPacked
import proofs.«425509_j56040733278608_3_alg».proof.Proof.RefLayers
import proofs.«425509_j56040733278608_3_alg».proof.Proof.Slots
import proofs.«425509_j56040733278608_3_alg».proof.Proof.Mask
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2)
    (Cert.ReferenceIdeal.RefValue.run (F := Ideal) m ρ)

/-- The two programs compute the slot table by the same operations. -/
theorem slots_eq (vid : IVec Cert.KernelIdeal.S64x512 32) :
    Cert.KernelIdeal.KValue.slotsK vid = Cert.ReferenceIdeal.RefValue.slots vid := rfl

/-- The two programs compute the class logits by the same operations. -/
theorem cls_eq (seq : FVec Ideal Cert.KernelIdeal.S64x512x768 .f32) (clsW : FVec Ideal Cert.KernelIdeal.S768x2 .f32)
    (clsB : FVec Ideal Cert.KernelIdeal.S2 .f32) :
    Cert.ReferenceIdeal.RefValue.clsR (F := Ideal) seq clsW clsB = Cert.KernelIdeal.KValue.clsK seq clsW clsB := rfl

theorem algebraic : Cert.algebraic_KernelIdeal_ReferenceIdeal := by
  intro m ρ m' ρ' hpre hagree
  refine ⟨_, _, Cert.KernelIdeal.KValue.run m ρ, ?_⟩
  refine (θ_run Cert.ReferenceIdeal.defs _ _).mono (fun r h c => ?_)
    (Cert.ReferenceIdeal.RefValue.run (F := Ideal) m' ρ')
  obtain ⟨a0, a1, a2, a3, a4, a5, a6, a7, a8, a9, a10⟩ := hagree c
  have hmask := Cert.Tagger.Mask.mask_of_pre _ _ _ _ _ _ _ _ _ _ _ (hpre c)
  refine ⟨(h c).1.trans ?_, (h c).2.1.trans ?_, (h c).2.2⟩
  · rw [a0, a9, a10]
    exact cls_eq _ _ _
  · rw [a0, a1, a2, a3, a4, a5, a6, a7, a8]
    unfold Cert.ReferenceIdeal.RefValue.tagR
    rw [slots_eq]
    exact Cert.ReferenceIdeal.RefValue.tag_of_packed _ _ _ _ _ _ _ _ _ _
      (fun b i d => Cert.ReferenceIdeal.RefValue.compacted_apply _ _
        (Cert.ReferenceIdeal.RefValue.slots_bounded _ hmask) (Cert.ReferenceIdeal.RefValue.slots_distinct _ hmask) b i d)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
